-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S2048x1024 : Shape := ⟨2, ![2048, 1024]⟩
abbrev S1x1024 : Shape := ⟨2, ![1, 1024]⟩
abbrev S256x1024 : Shape := ⟨2, ![256, 1024]⟩
abbrev S15x1x1024 : Shape := ⟨3, ![15, 1, 1024]⟩
abbrev S15 : Shape := ⟨1, ![15]⟩
abbrev S_ : Shape := ⟨0, ![]⟩
abbrev S1024 : Shape := ⟨1, ![1024]⟩
abbrev S1 : Shape := ⟨1, ![1]⟩
abbrev S1x1x1024 : Shape := ⟨3, ![1, 1, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S15x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v20 : BitVec 32 := Scalar.addi v2 c1_i32_7
  let c16_i32_8 : BitVec 32 := 16#32
  let v21 : BitVec 32 := Scalar.remsi v20 c16_i32_8
  let c1_i32_10 : BitVec 32 := 1#32
  let v22 : BitVec 32 := Scalar.muli v21 c1_i32_10
  let v23 : BitVec 32 := Scalar.addi c0_i32_11 v22
  v23.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v24 : BitVec 32 := Scalar.addi v2 c2_i32
  let c16_i32_12 : BitVec 32 := 16#32
  let v25 : BitVec 32 := Scalar.remsi v24 c16_i32_12
  let c1_i32_14 : BitVec 32 := 1#32
  let v26 : BitVec 32 := Scalar.muli v25 c1_i32_14
  let v27 : BitVec 32 := Scalar.addi c0_i32_15 v26
  v27.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v28 : BitVec 32 := Scalar.addi v2 c3_i32
  let c16_i32_16 : BitVec 32 := 16#32
  let v29 : BitVec 32 := Scalar.remsi v28 c16_i32_16
  let c1_i32_18 : BitVec 32 := 1#32
  let v30 : BitVec 32 := Scalar.muli v29 c1_i32_18
  let v31 : BitVec 32 := Scalar.addi c0_i32_19 v30
  v31.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v32 : BitVec 32 := Scalar.addi v2 c4_i32
  let c16_i32_20 : BitVec 32 := 16#32
  let v33 : BitVec 32 := Scalar.remsi v32 c16_i32_20
  let c1_i32_22 : BitVec 32 := 1#32
  let v34 : BitVec 32 := Scalar.muli v33 c1_i32_22
  let v35 : BitVec 32 := Scalar.addi c0_i32_23 v34
  v35.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v36 : BitVec 32 := Scalar.addi v2 c5_i32
  let c16_i32_24 : BitVec 32 := 16#32
  let v37 : BitVec 32 := Scalar.remsi v36 c16_i32_24
  let c1_i32_26 : BitVec 32 := 1#32
  let v38 : BitVec 32 := Scalar.muli v37 c1_i32_26
  let v39 : BitVec 32 := Scalar.addi c0_i32_27 v38
  v39.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v40 : BitVec 32 := Scalar.addi v2 c6_i32
  let c16_i32_28 : BitVec 32 := 16#32
  let v41 : BitVec 32 := Scalar.remsi v40 c16_i32_28
  let c1_i32_30 : BitVec 32 := 1#32
  let v42 : BitVec 32 := Scalar.muli v41 c1_i32_30
  let v43 : BitVec 32 := Scalar.addi c0_i32_31 v42
  v43.toNat
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_32 : BitVec 32 := 7#32
  let v44 : BitVec 32 := Scalar.addi v2 c7_i32_32
  let c16_i32_33 : BitVec 32 := 16#32
  let v45 : BitVec 32 := Scalar.remsi v44 c16_i32_33
  let c1_i32_35 : BitVec 32 := 1#32
  let v46 : BitVec 32 := Scalar.muli v45 c1_i32_35
  let v47 : BitVec 32 := Scalar.addi c0_i32_36 v46
  v47.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.addi v2 c8_i32
  let c16_i32_37 : BitVec 32 := 16#32
  let v49 : BitVec 32 := Scalar.remsi v48 c16_i32_37
  let c1_i32_39 : BitVec 32 := 1#32
  let v50 : BitVec 32 := Scalar.muli v49 c1_i32_39
  let v51 : BitVec 32 := Scalar.addi c0_i32_40 v50
  v51.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v52 : BitVec 32 := Scalar.addi v2 c9_i32
  let c16_i32_41 : BitVec 32 := 16#32
  let v53 : BitVec 32 := Scalar.remsi v52 c16_i32_41
  let c1_i32_43 : BitVec 32 := 1#32
  let v54 : BitVec 32 := Scalar.muli v53 c1_i32_43
  let v55 : BitVec 32 := Scalar.addi c0_i32_44 v54
  v55.toNat
def k0_dev10 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v56 : BitVec 32 := Scalar.addi v2 c10_i32
  let c16_i32_45 : BitVec 32 := 16#32
  let v57 : BitVec 32 := Scalar.remsi v56 c16_i32_45
  let c1_i32_47 : BitVec 32 := 1#32
  let v58 : BitVec 32 := Scalar.muli v57 c1_i32_47
  let v59 : BitVec 32 := Scalar.addi c0_i32_48 v58
  v59.toNat
def k0_dev11 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v60 : BitVec 32 := Scalar.addi v2 c11_i32
  let c16_i32_49 : BitVec 32 := 16#32
  let v61 : BitVec 32 := Scalar.remsi v60 c16_i32_49
  let c1_i32_51 : BitVec 32 := 1#32
  let v62 : BitVec 32 := Scalar.muli v61 c1_i32_51
  let v63 : BitVec 32 := Scalar.addi c0_i32_52 v62
  v63.toNat
def k0_dev12 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v64 : BitVec 32 := Scalar.addi v2 c12_i32
  let c16_i32_53 : BitVec 32 := 16#32
  let v65 : BitVec 32 := Scalar.remsi v64 c16_i32_53
  let c1_i32_55 : BitVec 32 := 1#32
  let v66 : BitVec 32 := Scalar.muli v65 c1_i32_55
  let v67 : BitVec 32 := Scalar.addi c0_i32_56 v66
  v67.toNat
def k0_dev13 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v68 : BitVec 32 := Scalar.addi v2 c13_i32
  let c16_i32_57 : BitVec 32 := 16#32
  let v69 : BitVec 32 := Scalar.remsi v68 c16_i32_57
  let c1_i32_59 : BitVec 32 := 1#32
  let v70 : BitVec 32 := Scalar.muli v69 c1_i32_59
  let v71 : BitVec 32 := Scalar.addi c0_i32_60 v70
  v71.toNat
def k0_dev14 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v72 : BitVec 32 := Scalar.addi v2 c14_i32
  let c16_i32_61 : BitVec 32 := 16#32
  let v73 : BitVec 32 := Scalar.remsi v72 c16_i32_61
  let c1_i32_63 : BitVec 32 := 1#32
  let v74 : BitVec 32 := Scalar.muli v73 c1_i32_63
  let v75 : BitVec 32 := Scalar.addi c0_i32_64 v74
  v75.toNat
def k0_dev15 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v76 : BitVec 32 := Scalar.addi v2 c15_i32
  let c16_i32_65 : BitVec 32 := 16#32
  let v77 : BitVec 32 := Scalar.remsi v76 c16_i32_65
  let c1_i32_67 : BitVec 32 := 1#32
  let v78 : BitVec 32 := Scalar.muli v77 c1_i32_67
  let v79 : BitVec 32 := Scalar.addi c0_i32_68 v78
  v79.toNat
def k0_cond4 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_6 : BitVec 32 := 0#32
  let v19 : BitVec 1 := Scalar.cmpi .ne v18 c0_i32_6
  v19

def k0_dev16 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v20 : BitVec 32 := Scalar.addi v2 c1_i32_7
  let c16_i32_8 : BitVec 32 := 16#32
  let v21 : BitVec 32 := Scalar.remsi v20 c16_i32_8
  let c1_i32_11 : BitVec 32 := 1#32
  let v22 : BitVec 32 := Scalar.muli v21 c1_i32_11
  let v23 : BitVec 32 := Scalar.addi c0_i32_12 v22
  v23.toNat
def k0_dev17 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v30 : BitVec 32 := Scalar.addi v2 c2_i32
  let c16_i32_15 : BitVec 32 := 16#32
  let v31 : BitVec 32 := Scalar.remsi v30 c16_i32_15
  let c1_i32_18 : BitVec 32 := 1#32
  let v32 : BitVec 32 := Scalar.muli v31 c1_i32_18
  let v33 : BitVec 32 := Scalar.addi c0_i32_19 v32
  v33.toNat
def k0_dev18 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v40 : BitVec 32 := Scalar.addi v2 c3_i32
  let c16_i32_22 : BitVec 32 := 16#32
  let v41 : BitVec 32 := Scalar.remsi v40 c16_i32_22
  let c1_i32_25 : BitVec 32 := 1#32
  let v42 : BitVec 32 := Scalar.muli v41 c1_i32_25
  let v43 : BitVec 32 := Scalar.addi c0_i32_26 v42
  v43.toNat
def k0_dev19 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v50 : BitVec 32 := Scalar.addi v2 c4_i32
  let c16_i32_29 : BitVec 32 := 16#32
  let v51 : BitVec 32 := Scalar.remsi v50 c16_i32_29
  let c1_i32_32 : BitVec 32 := 1#32
  let v52 : BitVec 32 := Scalar.muli v51 c1_i32_32
  let v53 : BitVec 32 := Scalar.addi c0_i32_33 v52
  v53.toNat
def k0_dev20 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v60 : BitVec 32 := Scalar.addi v2 c5_i32
  let c16_i32_36 : BitVec 32 := 16#32
  let v61 : BitVec 32 := Scalar.remsi v60 c16_i32_36
  let c1_i32_39 : BitVec 32 := 1#32
  let v62 : BitVec 32 := Scalar.muli v61 c1_i32_39
  let v63 : BitVec 32 := Scalar.addi c0_i32_40 v62
  v63.toNat
def k0_dev21 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v70 : BitVec 32 := Scalar.addi v2 c6_i32
  let c16_i32_43 : BitVec 32 := 16#32
  let v71 : BitVec 32 := Scalar.remsi v70 c16_i32_43
  let c1_i32_46 : BitVec 32 := 1#32
  let v72 : BitVec 32 := Scalar.muli v71 c1_i32_46
  let v73 : BitVec 32 := Scalar.addi c0_i32_47 v72
  v73.toNat
def k0_dev22 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_50 : BitVec 32 := 7#32
  let v80 : BitVec 32 := Scalar.addi v2 c7_i32_50
  let c16_i32_51 : BitVec 32 := 16#32
  let v81 : BitVec 32 := Scalar.remsi v80 c16_i32_51
  let c1_i32_54 : BitVec 32 := 1#32
  let v82 : BitVec 32 := Scalar.muli v81 c1_i32_54
  let v83 : BitVec 32 := Scalar.addi c0_i32_55 v82
  v83.toNat
def k0_dev23 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_58 : BitVec 32 := 8#32
  let v90 : BitVec 32 := Scalar.addi v2 c8_i32_58
  let c16_i32_59 : BitVec 32 := 16#32
  let v91 : BitVec 32 := Scalar.remsi v90 c16_i32_59
  let c1_i32_63 : BitVec 32 := 1#32
  let v92 : BitVec 32 := Scalar.muli v91 c1_i32_63
  let v93 : BitVec 32 := Scalar.addi c0_i32_64 v92
  v93.toNat
def k0_dev24 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_67 : BitVec 32 := 9#32
  let v100 : BitVec 32 := Scalar.addi v2 c9_i32_67
  let c16_i32_68 : BitVec 32 := 16#32
  let v101 : BitVec 32 := Scalar.remsi v100 c16_i32_68
  let c1_i32_72 : BitVec 32 := 1#32
  let v102 : BitVec 32 := Scalar.muli v101 c1_i32_72
  let v103 : BitVec 32 := Scalar.addi c0_i32_73 v102
  v103.toNat
def k0_dev25 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_76 : BitVec 32 := 10#32
  let v110 : BitVec 32 := Scalar.addi v2 c10_i32_76
  let c16_i32_77 : BitVec 32 := 16#32
  let v111 : BitVec 32 := Scalar.remsi v110 c16_i32_77
  let c1_i32_81 : BitVec 32 := 1#32
  let v112 : BitVec 32 := Scalar.muli v111 c1_i32_81
  let v113 : BitVec 32 := Scalar.addi c0_i32_82 v112
  v113.toNat
def k0_dev26 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_85 : BitVec 32 := 11#32
  let v120 : BitVec 32 := Scalar.addi v2 c11_i32_85
  let c16_i32_86 : BitVec 32 := 16#32
  let v121 : BitVec 32 := Scalar.remsi v120 c16_i32_86
  let c1_i32_90 : BitVec 32 := 1#32
  let v122 : BitVec 32 := Scalar.muli v121 c1_i32_90
  let v123 : BitVec 32 := Scalar.addi c0_i32_91 v122
  v123.toNat
def k0_dev27 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_94 : BitVec 32 := 12#32
  let v130 : BitVec 32 := Scalar.addi v2 c12_i32_94
  let c16_i32_95 : BitVec 32 := 16#32
  let v131 : BitVec 32 := Scalar.remsi v130 c16_i32_95
  let c1_i32_99 : BitVec 32 := 1#32
  let v132 : BitVec 32 := Scalar.muli v131 c1_i32_99
  let v133 : BitVec 32 := Scalar.addi c0_i32_100 v132
  v133.toNat
def k0_dev28 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_103 : BitVec 32 := 13#32
  let v140 : BitVec 32 := Scalar.addi v2 c13_i32_103
  let c16_i32_104 : BitVec 32 := 16#32
  let v141 : BitVec 32 := Scalar.remsi v140 c16_i32_104
  let c1_i32_108 : BitVec 32 := 1#32
  let v142 : BitVec 32 := Scalar.muli v141 c1_i32_108
  let v143 : BitVec 32 := Scalar.addi c0_i32_109 v142
  v143.toNat
def k0_dev29 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v150 : BitVec 32 := Scalar.addi v2 c14_i32_112
  let c16_i32_113 : BitVec 32 := 16#32
  let v151 : BitVec 32 := Scalar.remsi v150 c16_i32_113
  let c1_i32_117 : BitVec 32 := 1#32
  let v152 : BitVec 32 := Scalar.muli v151 c1_i32_117
  let v153 : BitVec 32 := Scalar.addi c0_i32_118 v152
  v153.toNat
def k0_dev30 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_121 : BitVec 32 := 15#32
  let v160 : BitVec 32 := Scalar.addi v2 c15_i32_121
  let c16_i32_122 : BitVec 32 := 16#32
  let v161 : BitVec 32 := Scalar.remsi v160 c16_i32_122
  let c1_i32_126 : BitVec 32 := 1#32
  let v162 : BitVec 32 := Scalar.muli v161 c1_i32_126
  let v163 : BitVec 32 := Scalar.addi c0_i32_127 v162
  v163.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S1024 : S256x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  hamt_15 : (15#32 : BitVec 32).msb = false
  inb_S15_S1_0 : ∀ a, (![0] : Fin 1 → Nat) a + S1.size a ≤ S15.size a
  squeezes_S1_S_ : S1.Squeezes S_
  inb_S15_S1_14 : ∀ a, (![14] : Fin 1 → Nat) a + S1.size a ≤ S15.size a
  inb_S15x1x1024_S1x1x1024_14_0_0 : ∀ a, (![14, 0, 0] : Fin 3 → Nat) a + S1x1x1024.size a ≤ S15x1x1024.size a
  squeezes_S1x1x1024_S1x1024 : S1x1x1024.Squeezes S1x1024
  inb_S15_S1_1 : ∀ a, (![1] : Fin 1 → Nat) a + S1.size a ≤ S15.size a
  inb_S15_S1_13 : ∀ a, (![13] : Fin 1 → Nat) a + S1.size a ≤ S15.size a
  inb_S15x1x1024_S1x1x1024_13_0_0 : ∀ a, (![13, 0, 0] : Fin 3 → Nat) a + S1x1x1024.size a ≤ S15x1x1024.size a
  inb_S15_S1_2 : ∀ a, (![2] : Fin 1 → Nat) a + S1.size a ≤ S15.size a
  inb_S15_S1_12 : ∀ a, (![12] : Fin 1 → Nat) a + S1.size a ≤ S15.size a
  inb_S15x1x1024_S1x1x1024_12_0_0 : ∀ a, (![12, 0, 0] : Fin 3 → Nat) a + S1x1x1024.size a ≤ S15x1x1024.size a
  inb_S15_S1_3 : ∀ a, (![3] : Fin 1 → Nat) a + S1.size a ≤ S15.size a
  inb_S15_S1_11 : ∀ a, (![11] : Fin 1 → Nat) a + S1.size a ≤ S15.size a
  inb_S15x1x1024_S1x1x1024_11_0_0 : ∀ a, (![11, 0, 0] : Fin 3 → Nat) a + S1x1x1024.size a ≤ S15x1x1024.size a
  inb_S15_S1_4 : ∀ a, (![4] : Fin 1 → Nat) a + S1.size a ≤ S15.size a
  inb_S15_S1_10 : ∀ a, (![10] : Fin 1 → Nat) a + S1.size a ≤ S15.size a
  inb_S15x1x1024_S1x1x1024_10_0_0 : ∀ a, (![10, 0, 0] : Fin 3 → Nat) a + S1x1x1024.size a ≤ S15x1x1024.size a
  inb_S15_S1_5 : ∀ a, (![5] : Fin 1 → Nat) a + S1.size a ≤ S15.size a
  inb_S15_S1_9 : ∀ a, (![9] : Fin 1 → Nat) a + S1.size a ≤ S15.size a
  inb_S15x1x1024_S1x1x1024_9_0_0 : ∀ a, (![9, 0, 0] : Fin 3 → Nat) a + S1x1x1024.size a ≤ S15x1x1024.size a
  inb_S15_S1_6 : ∀ a, (![6] : Fin 1 → Nat) a + S1.size a ≤ S15.size a
  inb_S15_S1_8 : ∀ a, (![8] : Fin 1 → Nat) a + S1.size a ≤ S15.size a
  inb_S15x1x1024_S1x1x1024_8_0_0 : ∀ a, (![8, 0, 0] : Fin 3 → Nat) a + S1x1x1024.size a ≤ S15x1x1024.size a
  inb_S15_S1_7 : ∀ a, (![7] : Fin 1 → Nat) a + S1.size a ≤ S15.size a
  inb_S15x1x1024_S1x1x1024_7_0_0 : ∀ a, (![7, 0, 0] : Fin 3 → Nat) a + S1x1x1024.size a ≤ S15x1x1024.size a
  inb_S15x1x1024_S1x1x1024_6_0_0 : ∀ a, (![6, 0, 0] : Fin 3 → Nat) a + S1x1x1024.size a ≤ S15x1x1024.size a
  inb_S15x1x1024_S1x1x1024_5_0_0 : ∀ a, (![5, 0, 0] : Fin 3 → Nat) a + S1x1x1024.size a ≤ S15x1x1024.size a
  inb_S15x1x1024_S1x1x1024_4_0_0 : ∀ a, (![4, 0, 0] : Fin 3 → Nat) a + S1x1x1024.size a ≤ S15x1x1024.size a
  inb_S15x1x1024_S1x1x1024_3_0_0 : ∀ a, (![3, 0, 0] : Fin 3 → Nat) a + S1x1x1024.size a ≤ S15x1x1024.size a
  inb_S15x1x1024_S1x1x1024_2_0_0 : ∀ a, (![2, 0, 0] : Fin 3 → Nat) a + S1x1x1024.size a ≤ S15x1x1024.size a
  inb_S15x1x1024_S1x1x1024_1_0_0 : ∀ a, (![1, 0, 0] : Fin 3 → Nat) a + S1x1x1024.size a ≤ S15x1x1024.size a
  inb_S15x1x1024_S1x1x1024_0_0_0 : ∀ a, (![0, 0, 0] : Fin 3 → Nat) a + S1x1x1024.size a ≤ S15x1x1024.size a
  inb_S15x1x1024_S15x1x1024_0_0_0 : ∀ a, (![0, 0, 0] : Fin 3 → Nat) a + S15x1x1024.size a ≤ S15x1x1024.size a
  h_S15x1x1024 : 0 < S15x1x1024.numel
  reduces_S15x1x1024_S1x1024 : S15x1x1024.Reduces [0] S1x1024
  hcc0_scratch2 : 3 + S15.numel ≤ 33
  hcc0_scratch3 : 18 + S15.numel ≤ 33
  hrank0 : 0 < grid0.rank
  k0_dev1_lt : ∀ (i : grid0.Coords) (d0 : Dev nD), ∀ (k0_h1 : k0_cond1 i = 1#1), (k0_dev1 d0) < nD
  k0_dev2_lt : ∀ (i : grid0.Coords) (d0 : Dev nD), ∀ (k0_h1 : k0_cond1 i = 1#1), (k0_dev2 d0) < nD
  k0_dev3_lt : ∀ (i : grid0.Coords) (d0 : Dev nD), ∀ (k0_h1 : k0_cond1 i = 1#1), (k0_dev3 d0) < nD
  k0_dev4_lt : ∀ (i : grid0.Coords) (d0 : Dev nD), ∀ (k0_h1 : k0_cond1 i = 1#1), (k0_dev4 d0) < nD
  k0_dev5_lt : ∀ (i : grid0.Coords) (d0 : Dev nD), ∀ (k0_h1 : k0_cond1 i = 1#1), (k0_dev5 d0) < nD
  k0_dev6_lt : ∀ (i : grid0.Coords) (d0 : Dev nD), ∀ (k0_h1 : k0_cond1 i = 1#1), (k0_dev6 d0) < nD
  k0_dev7_lt : ∀ (i : grid0.Coords) (d0 : Dev nD), ∀ (k0_h1 : k0_cond1 i = 1#1), (k0_dev7 d0) < nD
  k0_dev8_lt : ∀ (i : grid0.Coords) (d0 : Dev nD), ∀ (k0_h1 : k0_cond1 i = 1#1), (k0_dev8 d0) < nD
  k0_dev9_lt : ∀ (i : grid0.Coords) (d0 : Dev nD), ∀ (k0_h1 : k0_cond1 i = 1#1), (k0_dev9 d0) < nD
  k0_dev10_lt : ∀ (i : grid0.Coords) (d0 : Dev nD), ∀ (k0_h1 : k0_cond1 i = 1#1), (k0_dev10 d0) < nD
  k0_dev11_lt : ∀ (i : grid0.Coords) (d0 : Dev nD), ∀ (k0_h1 : k0_cond1 i = 1#1), (k0_dev11 d0) < nD
  k0_dev12_lt : ∀ (i : grid0.Coords) (d0 : Dev nD), ∀ (k0_h1 : k0_cond1 i = 1#1), (k0_dev12 d0) < nD
  k0_dev13_lt : ∀ (i : grid0.Coords) (d0 : Dev nD), ∀ (k0_h1 : k0_cond1 i = 1#1), (k0_dev13 d0) < nD
  k0_dev14_lt : ∀ (i : grid0.Coords) (d0 : Dev nD), ∀ (k0_h1 : k0_cond1 i = 1#1), (k0_dev14 d0) < nD
  k0_dev15_lt : ∀ (i : grid0.Coords) (d0 : Dev nD), ∀ (k0_h1 : k0_cond1 i = 1#1), (k0_dev15 d0) < nD
  k0_dev16_lt : ∀ (i : grid0.Coords) (d0 : Dev nD), ∀ (k0_h4 : k0_cond4 i = 1#1), (k0_dev16 d0) < nD
  k0_dev17_lt : ∀ (i : grid0.Coords) (d0 : Dev nD), ∀ (k0_h4 : k0_cond4 i = 1#1), (k0_dev17 d0) < nD
  k0_dev18_lt : ∀ (i : grid0.Coords) (d0 : Dev nD), ∀ (k0_h4 : k0_cond4 i = 1#1), (k0_dev18 d0) < nD
  k0_dev19_lt : ∀ (i : grid0.Coords) (d0 : Dev nD), ∀ (k0_h4 : k0_cond4 i = 1#1), (k0_dev19 d0) < nD
  k0_dev20_lt : ∀ (i : grid0.Coords) (d0 : Dev nD), ∀ (k0_h4 : k0_cond4 i = 1#1), (k0_dev20 d0) < nD
  k0_dev21_lt : ∀ (i : grid0.Coords) (d0 : Dev nD), ∀ (k0_h4 : k0_cond4 i = 1#1), (k0_dev21 d0) < nD
  k0_dev22_lt : ∀ (i : grid0.Coords) (d0 : Dev nD), ∀ (k0_h4 : k0_cond4 i = 1#1), (k0_dev22 d0) < nD
  k0_dev23_lt : ∀ (i : grid0.Coords) (d0 : Dev nD), ∀ (k0_h4 : k0_cond4 i = 1#1), (k0_dev23 d0) < nD
  k0_dev24_lt : ∀ (i : grid0.Coords) (d0 : Dev nD), ∀ (k0_h4 : k0_cond4 i = 1#1), (k0_dev24 d0) < nD
  k0_dev25_lt : ∀ (i : grid0.Coords) (d0 : Dev nD), ∀ (k0_h4 : k0_cond4 i = 1#1), (k0_dev25 d0) < nD
  k0_dev26_lt : ∀ (i : grid0.Coords) (d0 : Dev nD), ∀ (k0_h4 : k0_cond4 i = 1#1), (k0_dev26 d0) < nD
  k0_dev27_lt : ∀ (i : grid0.Coords) (d0 : Dev nD), ∀ (k0_h4 : k0_cond4 i = 1#1), (k0_dev27 d0) < nD
  k0_dev28_lt : ∀ (i : grid0.Coords) (d0 : Dev nD), ∀ (k0_h4 : k0_cond4 i = 1#1), (k0_dev28 d0) < nD
  k0_dev29_lt : ∀ (i : grid0.Coords) (d0 : Dev nD), ∀ (k0_h4 : k0_cond4 i = 1#1), (k0_dev29 d0) < nD
  k0_dev30_lt : ∀ (i : grid0.Coords) (d0 : Dev nD), ∀ (k0_h4 : k0_cond4 i = 1#1), (k0_dev30 d0) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch2 : DmaSems sig S15 := SemArray.consecutive 3 S15 hcc0_scratch2
abbrev cc0_scratch3 : DmaSems sig S15 := SemArray.consecutive 18 S15 hcc0_scratch3

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond4 i == 1#1) | ⟨_ + 2, h⟩ => absurd h (Nat.not_lt.2 (Nat.le_add_left _ _))

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.RefRun.lean ====
/-
  The reference program's run: a single device sums the whole array down its rows.
-/
import proofs.«901083_g7700000000001084_dist_sum_ax0_shard0_i_m2048_n1024_v7x_i16_bf16_1_alg».proof.Defs
import proofs.«901083_g7700000000001084_dist_sum_ax0_shard0_i_m2048_n1024_v7x_i16_bf16_1_alg».proof.Proof.Gen.ReferenceIdeal
import proofs.«901083_g7700000000001084_dist_sum_ax0_shard0_i_m2048_n1024_v7x_i16_bf16_1_alg».proof.Proof.Gen.Pre_finite_inputs_ReferenceIdeal
import proofs.«901083_g7700000000001084_dist_sum_ax0_shard0_i_m2048_n1024_v7x_i16_bf16_1_alg».proof.Proof.Gen.ReferenceIdeal.Run
import proofs.«901083_g7700000000001084_dist_sum_ax0_shard0_i_m2048_n1024_v7x_i16_bf16_1_alg».proof.Proof.Gen.ReferenceIdeal.Read

noncomputable section

namespace Cert.RefSide

open Idealize.ShloMosaic Idealize.SL.Sem

/-- The reference terminates without a fault and leaves its argument array as it found it. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.KernelIdeal.Vals.lean ====
/-
  The values the all-reduce computes, as pure functions of the devices' argument arrays, at any float instance.

  Device `c` holds 2048 rows of the whole array, cut into 8 blocks of 256 rows. Point `t` of the grid adds the
  column sums of block `t` into a one-row accumulator; after the last point the accumulator of device `c` is the
  column sum of all its rows. Every device then sends its accumulator to the fifteen others: slot `k` of device
  `c`'s landing buffer receives the accumulator of the device `k + 1` places further round the ring, and the result
  is the device's own accumulator plus the sum over the fifteen slots.
-/
import proofs.«901083_g7700000000001084_dist_sum_ax0_shard0_i_m2048_n1024_v7x_i16_bf16_1_alg».proof.Proof.Gen.KernelIdeal.Skeleton
import proofs.«901083_g7700000000001084_dist_sum_ax0_shard0_i_m2048_n1024_v7x_i16_bf16_1_alg».proof.Proof.Gen.KernelIdeal.Frame
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.RA
open PCS URA

variable {F : FTy → Type} [FloatOps F]

/-! ## The ring -/

/-- The device `d + 1` places after `c` round the ring of sixteen. -/
def peer (c : Dev nD) (d : Fin 15) : Dev nD := ⟨(c.val + d.val + 1) % 16, Nat.mod_lt _ (by decide)⟩
/-- The mirror offset: `peer (peer c d) (rev d) = c`. -/
def rev (d : Fin 15) : Fin 15 := ⟨14 - d.val, by omega⟩

theorem rev_rev (d : Fin 15) : rev (rev d) = d := by revert d; decide
theorem peer_peer_rev (c : Dev nD) (d : Fin 15) : peer (peer c d) (rev d) = c := by revert c d; decide
theorem peer_rev_peer (c : Dev nD) (d : Fin 15) : peer (peer c (rev d)) d = c := by revert c d; decide
theorem peer_ne (c : Dev nD) (d : Fin 15) : peer c d ≠ c := by revert c d; decide
theorem peer_inj (c : Dev nD) : Function.Injective (peer c) := by revert c; decide
theorem peer_left_inj (d : Fin 15) : Function.Injective (fun c => peer c d) := by revert d; decide

variable (m : (ℓ : Loc nD τ sig) → Buf (Elt F) ℓ)

/-! ## Blocks and the accumulator -/

/-- Point `n` of the grid (point 0 past the end, never used there). -/
def pt (n : ℕ) : Fin cfg0.N := if h : n < cfg0.N then ⟨n, h⟩ else t0_0

/-- Block `t` of device `c`'s rows: 256 rows of 1024 columns. -/
abbrev xblk (c : Dev nD) (t : Fin cfg0.N) : Vec F S256x1024 .f32 := iblk m c 0 t

/-- The accumulator of device `c` after point `n`: the column sums of block 0, then one block added per point. -/
def acc (c : Dev nD) : ℕ → Vec F S1x1024 .f32
  | 0 => k0_pay2 (xblk m c (pt 0))
  | n + 1 => k0_pay3 (xblk m c (pt (n + 1))) (acc c n)

/-- The accumulator after the last point: the column sums of all of device `c`'s rows. -/
def mineF (c : Dev nD) : Vec F S1x1024 .f32 := acc m c 7

/-- The landing buffer of device `c` once every transfer has landed: slot `k` holds the accumulator of `peer c k`. -/
def commF (c : Dev nD) : Vec F S15x1x1024 .f32 :=
  fun i => mineF m (peer c (i 0 : Fin 15)) (ValueIdx.ix2 (0 : Fin 1) (i 2 : Fin 1024))

/-- The result on device `c`: its accumulator plus the sum of the fifteen slots. -/
def outF (c : Dev nD) : Vec F S1x1024 .f32 := k0_pay4 (mineF m c) (commF m c)

/-! ## Shares of the accumulator's buffer: one per transfer, and the rest -/

/-- What is left of the full share after `n` transfers have taken theirs. -/
def rst : ℕ → PosShare TreeShare
  | 0 => fullShare
  | n + 1 => (rst n).right
/-- The share transfer `n` reads the accumulator at. -/
def shr (n : ℕ) : PosShare TreeShare := (rst n).left

theorem rst_split (n : ℕ) : rst n ∈ shr n ·? rst (n + 1) := PosShare.mem_left_op_right (rst n)

end Cert.KernelIdeal.Hand

end
-- ==== Proof.ValueBridge.lean ====
/-
  The value of the all-reduce at the ideal floats (extended reals, every operation exact): on every device the
  kernel's result is the reference's.

  Column `j` of the reference is the sum down column `j` of the whole 32768-row array. Column `j` of the kernel's
  result on device `c` is the device's own accumulator plus the fifteen landing slots, which hold the accumulators of
  the fifteen other devices (the device `k + 1` places further round the ring in slot `k`): all sixteen accumulators,
  each counted once. A device's accumulator is the sum down column `j` of its 8 blocks of 256 rows, and device `d`'s
  row `r` is row `2048·d + r` of the whole array. The extended reals' addition is commutative and associative, so the
  sixteen-by-eight-by-256 sum is the sum over the 32768 rows, re-indexed.
-/
import proofs.«901083_g7700000000001084_dist_sum_ax0_shard0_i_m2048_n1024_v7x_i16_bf16_1_alg».proof.Proof.KernelIdeal.Vals
import proofs.«901083_g7700000000001084_dist_sum_ax0_shard0_i_m2048_n1024_v7x_i16_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic
import Mathlib.Algebra.BigOperators.Group.Finset.Basic

noncomputable section

namespace Cert.ValueBridge

open Cert.KernelIdeal Cert.KernelIdeal.Gen Cert.KernelIdeal.Hand
open Idealize.ShloMosaic Idealize.ShloMosaic.TcCoe Idealize.ShloMosaic.ValueIdx
open scoped BigOperators

/-- The column sums of a block: row 0, column `j` of the payload is the sum down column `j`. -/
theorem pay1_apply (v : Vec Ideal S256x1024 .f32) (j : Fin 1024) :
    k0_pay1 (F := Ideal) v (ix2 (0 : Fin 1) j) = ∑ r : Fin 256, v (ix2 r j) := by
  unfold k0_pay1
  refine (shapeCast_apply _ shapeCasts_S1024_S1x1024 (ix2 (0 : Fin 1) j) (ix1 j) ?_).trans ?_
  · rw [Shape.rowMajor_val_one, Shape.rowMajor_val_two]
    show j.val = 0 * 1024 + j.val
    omega
  · refine (Ideal.multiReduction_add_single _ _ reduces_S256x1024_S1024 _ _ (ix1 j)).trans ?_
    refine Finset.sum_congr rfl fun r _ => ?_
    rw [shapeCast_self]
    exact congrArg v (funext fun a => Fin.ext (by match a with | ⟨0, _⟩ => rfl | ⟨1, _⟩ => rfl))

/-- The first point's store: the column sums themselves. -/
theorem pay2_apply (v : Vec Ideal S256x1024 .f32) (j : Fin 1024) :
    k0_pay2 (F := Ideal) v (ix2 (0 : Fin 1) j) = ∑ r : Fin 256, v (ix2 r j) := by
  unfold k0_pay2
  rw [shapeCast_self]
  exact pay1_apply v j

/-- A later point's store: the accumulator plus the block's column sums. -/
theorem pay3_apply (v : Vec Ideal S256x1024 .f32) (a : Vec Ideal S1x1024 .f32) (j : Fin 1024) :
    k0_pay3 (F := Ideal) v a (ix2 (0 : Fin 1) j) = (a (ix2 (0 : Fin 1) j) : EReal) + ∑ r : Fin 256, v (ix2 r j) := by
  unfold k0_pay3
  rw [shapeCast_self]
  exact congrArg (_ + ·) (pay1_apply v j)

/-- The last store: the accumulator plus the sum of the fifteen landing slots. -/
theorem pay4_apply (a : Vec Ideal S1x1024 .f32) (C : Vec Ideal S15x1x1024 .f32) (j : Fin 1024) :
    k0_pay4 (F := Ideal) a C (ix2 (0 : Fin 1) j)
      = (a (ix2 (0 : Fin 1) j) : EReal) + ∑ k : Fin 15, C (ix3 k (0 : Fin 1) j) := by
  unfold k0_pay4
  refine congrArg (_ + ·) ?_
  refine (Ideal.multiReduction_add_single _ _ reduces_S15x1x1024_S1x1024 _ _ (ix2 (0 : Fin 1) j)).trans ?_
  refine Finset.sum_congr rfl fun k _ => ?_
  exact congrArg C (funext fun a => Fin.ext (by match a with | ⟨0, _⟩ => rfl | ⟨1, _⟩ => rfl | ⟨2, _⟩ => rfl))

/-! ## Blocks of a device's rows -/

/-- The index map of the input window, decided over the grid: point `t` fetches block row `t`, block column 0. -/
theorem index_facts : ∀ t : Fin cfg0.N, win0_0.index t (0 : Fin 2) = t.val ∧ win0_0.index t (1 : Fin 2) = 0 :=
  (by decide +kernel : ∀ t : Fin grid0.N, _)

section Blocks
variable {F : FTy → Type} [FloatOps F] (m : (ℓ : Loc nD τ sig) → Buf (Elt F) ℓ)

/-- Block `t` of device `c` at (r, j) is the device's array at (256·t + r, j). -/
theorem xblk_apply (c : Dev nD) (t : Fin cfg0.N) (y : S256x1024.Idx) (i : S2048x1024.Idx)
    (h0 : (i 0).val = 256 * t.val + (y 0).val) (h1 : (i 1).val = (y 1).val) :
    xblk m c t y = V m c main_arg0 i := by
  show V m c main_arg0 (((cfg0.win 0).blk t).view.emb y) = V m c main_arg0 i
  refine congrArg (V m c main_arg0) (funext fun a => Fin.ext ?_)
  obtain ⟨e0, e1⟩ := index_facts t
  match a with
  | ⟨0, _⟩ => show win0_0.index t (0 : Fin 2) * 256 + 1 * (y 0).val = (i 0).val; omega
  | ⟨1, _⟩ => show win0_0.index t (1 : Fin 2) * 1024 + 1 * (y 1).val = (i 1).val; omega

end Blocks

/-! ## The accumulator -/

section Acc
variable (m : (ℓ : Loc nD τ sig) → Buf (Elt Ideal) ℓ)

/-- After point `n` the accumulator holds, in column `j`, the sum down column `j` of blocks 0 … n. -/
theorem acc_apply (c : Dev nD) (n : ℕ) (j : Fin 1024) :
    (acc m c n (ix2 (0 : Fin 1) j) : EReal)
      = ∑ t : Fin (n + 1), ∑ r : Fin 256, (xblk m c (pt t.val) (ix2 r j) : EReal) := by
  induction n with
  | zero =>
    rw [Fin.sum_univ_one]
    exact pay2_apply (xblk m c (pt 0)) j
  | succ n ih =>
    rw [Fin.sum_univ_castSucc]
    simp only [Fin.coe_castSucc, Fin.val_last]
    rw [← ih]
    exact pay3_apply (xblk m c (pt (n + 1))) (acc m c n) j

/-- Point `t` below 8 is the grid's point `t`. -/
theorem pt_val (t : Fin 8) : (pt t.val).val = t.val := by
  unfold pt
  rw [dif_pos (show t.val < grid0.N by rw [N_0]; exact t.isLt)]

/-- Device `d`'s 2048 rows, as extended reals. -/
abbrev rowsOf (d : Dev nD) : S2048x1024.Idx → EReal := V m d main_arg0

/-- The device's accumulator after the last point, read through the device's array: the sum over its 8 blocks of 256 rows. -/
theorem mineF_apply (c : Dev nD) (j : Fin 1024) :
    (mineF m c (ix2 (0 : Fin 1) j) : EReal)
      = ∑ t : Fin 8, ∑ r : Fin 256, rowsOf m c (ix2 (⟨256 * t.val + r.val, by omega⟩ : Fin 2048) j) := by
  unfold mineF
  refine (acc_apply m c 7 j).trans ?_
  refine Finset.sum_congr rfl fun t _ => Finset.sum_congr rfl fun r _ => ?_
  exact xblk_apply m c (pt t.val) (ix2 r j) (ix2 (⟨256 * t.val + r.val, by omega⟩ : Fin 2048) j)
    (by show 256 * t.val + r.val = 256 * (pt t.val).val + r.val; rw [pt_val]) rfl

end Acc

/-! ## Round the ring -/

/-- A device and the fifteen after it round the ring are all sixteen: for any commutative sum. -/
theorem sum_ring {M : Type} [AddCommMonoid M] (g : Dev nD → M) (c : Dev nD) :
    g c + ∑ k : Fin 15, g (peer c k) = ∑ d : Fin 16, g d := by
  refine Eq.symm ((Equiv.sum_comp (Equiv.addLeft c) g).symm.trans
    ((Fin.sum_univ_succ (n := 15) fun i => g (Equiv.addLeft c i)).trans ?_))
  refine congrArg₂ (· + ·) (congrArg g ?_) (Finset.sum_congr rfl fun k _ => congrArg g ?_)
  · show c + 0 = c
    rw [add_zero]
  · apply Fin.ext
    show (c + k.succ).val = (c.val + k.val + 1) % 16
    rw [Fin.val_add, Fin.val_succ, Nat.add_assoc]

/-- A sum over `a · b` indices is the double sum over the quotient and the remainder. -/
theorem sum_fin_mul {M : Type} [AddCommMonoid M] (a b : ℕ) (f : Fin (a * b) → M) :
    ∑ k, f k = ∑ i : Fin a, ∑ l : Fin b, f (finProdFinEquiv (i, l)) := by
  rw [← Equiv.sum_comp finProdFinEquiv f, Fintype.sum_prod_type]

/-! ## The result, and the reference -/

section Out
variable (m : (ℓ : Loc nD τ sig) → Buf (Elt Ideal) ℓ)

/-- The result on device `c`, column `j`: the sum of all sixteen accumulators. -/
theorem outF_apply (c : Dev nD) (j : Fin 1024) :
    (outF m c (ix2 (0 : Fin 1) j) : EReal) = ∑ d : Fin 16, (mineF m d (ix2 (0 : Fin 1) j) : EReal) := by
  unfold outF
  refine (pay4_apply (mineF m c) (commF m c) j).trans ?_
  exact sum_ring (fun d => (mineF m d (ix2 (0 : Fin 1) j) : EReal)) c

end Out

/-- The reference at column `j`: the sum down column `j` of the whole array. -/
theorem ref_apply (X : (⟨Cert.ReferenceIdeal.S32768x1024, .f32⟩ : BufTy).Contents (Elt Ideal)) (j : Fin 1024) :
    (Cert.ReferenceIdeal.Read.val_main_v1 (F := Ideal) X (ix2 (0 : Fin 1) j) : EReal)
      = ∑ k : Fin 32768, (X (ix2 k j) : EReal) := by
  rw [Cert.ReferenceIdeal.Read.val_main_v1_apply, Cert.ReferenceIdeal.Read.val_main_v0_apply,
    Cert.ReferenceIdeal.Read.val_main_cst_apply]
  refine (congrArg (· + _) Ideal.ofBits_zero_f32).trans ((zero_add _).trans ?_)
  refine Finset.sum_congr rfl fun k _ => congrArg X (funext fun a => Fin.ext ?_)
  match a with
  | ⟨0, _⟩ => rfl
  | ⟨1, _⟩ => rfl

/-- The 32768 rows are 16 devices' 8 blocks of 256: the whole column sum, device by device and block by block. -/
theorem rows_sum (X : (⟨2, ![32768, 1024]⟩ : Shape).Idx → EReal) (j : Fin 1024)
    (Tl : Layout.Tiles ⟨2, ![2048, 1024]⟩ ⟨2, ![32768, 1024]⟩ 0 16) :
    ∑ d : Fin 16, ∑ t : Fin 8, ∑ r : Fin 256, X (Tl.idx d (ix2 (⟨256 * t.val + r.val, by omega⟩ : Fin 2048) j))
      = ∑ k : Fin 32768, X (ix2 k j) := by
  refine Eq.symm ((sum_fin_mul 16 2048 fun k : Fin 32768 => X (ix2 k j)).trans
    (Finset.sum_congr rfl fun d _ =>
      (sum_fin_mul 8 256 fun l : Fin 2048 => X (ix2 (finProdFinEquiv (d, l) : Fin 32768) j)).trans
        (Finset.sum_congr rfl fun t _ => Finset.sum_congr rfl fun r _ =>
          congrArg X (funext fun a => Fin.ext ?_))))
  match a with
  | ⟨0, _⟩ =>
    refine Eq.trans ?_ (Layout.idx_rows_val Tl d _).1.symm
    show (r.val + 256 * t.val) + 2048 * d.val = d.val * 2048 + (256 * t.val + r.val)
    omega
  | ⟨1, _⟩ => rfl

/-! ## The certificate's value -/

/-- On every device the kernel's result is the reference's: column `j` of either is the sum down column `j` of the
    whole array, the kernel's taken device by device and block by block. -/
theorem out_eq_ref
    (X : (⟨Cert.ReferenceIdeal.S32768x1024, .f32⟩ : BufTy).Contents (Elt Ideal))
    (m : (ℓ : Loc Cert.KernelIdeal.nD Cert.KernelIdeal.τ Cert.KernelIdeal.sig) → Buf (Elt Ideal) ℓ)
    (hblk : ∀ c : Dev Cert.KernelIdeal.nD,
      m ((c.tc : Thread Cert.KernelIdeal.nD Cert.KernelIdeal.τ).loc Cert.KernelIdeal.main_arg0)
        = Layout.block ⟨2, ![2048, 1024]⟩ ⟨2, ![32768, 1024]⟩ 0 16 c X)
    (c : Dev Cert.KernelIdeal.nD) :
    Cert.KernelIdeal.Hand.outF (F := Ideal) m c = Cert.ReferenceIdeal.Read.val_main_v1 (F := Ideal) X := by
  funext i
  obtain ⟨a, j, rfl⟩ : ∃ (a : Fin 1) (j : Fin 1024), i = ix2 a j := ⟨i 0, i 1, eq_ix2 i⟩
  obtain rfl : a = 0 := Subsingleton.elim _ _
  refine (outF_apply m c j).trans (Eq.trans ?_ (ref_apply X j).symm)
  refine Eq.trans (Finset.sum_congr rfl fun d _ => (mineF_apply m d j).trans ?_) (rows_sum X j (by decide))
  refine Finset.sum_congr rfl fun t _ => Finset.sum_congr rfl fun r _ => ?_
  exact congrFun (hblk d) _

/-- info: 'Cert.ValueBridge.out_eq_ref' depends on axioms: [propext, Classical.choice, Quot.sound] -/
#guard_msgs in #print axioms Cert.ValueBridge.out_eq_ref

end Cert.ValueBridge

end
-- ==== Proof.KernelIdeal.Cells.lean ====
/-
  The buffers and semaphore cells of the exchange, as the kernel names them.

  Each device has its accumulator (one row), a landing buffer of fifteen one-row slots, fifteen send semaphores and
  fifteen receive semaphores, and the runtime's barrier semaphore. Transfer `d` of device `c` (to `peer c d`) completes on
  send semaphore `d` of `c` and on receive semaphore `rev d` of the target, and fills the target's slot `rev d`.
-/
import proofs.«901083_g7700000000001084_dist_sum_ax0_shard0_i_m2048_n1024_v7x_i16_bf16_1_alg».proof.Proof.KernelIdeal.Vals
import proofs.«901083_g7700000000001084_dist_sum_ax0_shard0_i_m2048_n1024_v7x_i16_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties numbered 0 to 14) -/

abbrev UB : Type := URounds (GSem nD τ sig) (Fin 15)
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## Buffers -/

abbrev mineM : Memref sig .tc .vmem S1x1024 .f32 := Memref.whole cc0_scratch0
abbrev commM : Memref sig .tc .vmem S15x1x1024 .f32 := Memref.whole cc0_scratch1

theorem slot_inb (k : Fin 15) : ∀ a, (![k.val, 0, 0] : Fin 3 → Nat) a + S1x1x1024.size a ≤ S15x1x1024.size a := by
  revert k; decide

/-- Slot `k` of the landing buffer: one row of it, addressed as a one-row buffer. -/
abbrev slotM (k : Fin 15) : Memref sig .tc .vmem S1x1024 .f32 :=
  (commM.slice (Rect.unit (s := S15x1x1024) ![k.val, 0, 0] S1x1x1024.size (slot_inb k)) (fun _ => rfl)).squeeze S1x1024 squeezes_S1x1x1024_S1x1024

/-! ## Semaphores -/

abbrev barS : Sem sig := (SemArray.scalar (sig.barrier 0 rfl) : Sems sig S_).sem

theorem sem_inb (j : Fin 15) : ∀ a, (![j.val] : Fin 1 → Nat) a + S1.size a ≤ S15.size a := by revert j; decide

abbrev sendSem (j : Fin 15) : DmaSem sig :=
  ((cc0_scratch2.slice (Rect.unit (s := S15) ![j.val] S1.size (sem_inb j))).squeeze S_ squeezes_S1_S_).sem
abbrev recvSem (k : Fin 15) : DmaSem sig :=
  ((cc0_scratch3.slice (Rect.unit (s := S15) ![k.val] S1.size (sem_inb k))).squeeze S_ squeezes_S1_S_).sem

theorem sendSem_val (j : Fin 15) : (sendSem j).val = 3 + j.val := by revert j; decide
theorem recvSem_val (k : Fin 15) : (recvSem k).val = 18 + k.val := by revert k; decide

theorem sendSem_inj : Function.Injective sendSem := fun a b h => Fin.ext (by have := congrArg Fin.val h; rw [sendSem_val, sendSem_val] at this; omega)
theorem recvSem_inj : Function.Injective recvSem := fun a b h => Fin.ext (by have := congrArg Fin.val h; rw [recvSem_val, recvSem_val] at this; omega)
theorem sendSem_ne_recvSem (j k : Fin 15) : sendSem j ≠ recvSem k := fun h => by
  have := congrArg Fin.val h; rw [sendSem_val, recvSem_val] at this; have := j.isLt; omega

/-! ## Cells -/

abbrev barCell (c : Dev nD) : GSem nD τ sig := ((c : Thread nD τ), .reg barS)
abbrev sendCell (c : Dev nD) (j : Fin 15) : GSem nD τ sig := ((c : Thread nD τ), .dma (sendSem j))
abbrev recvCell (c : Dev nD) (k : Fin 15) : GSem nD τ sig := ((c : Thread nD τ), .dma (recvSem k))

/-- The units one transfer of a row credits. -/
abbrev N : ℕ := (mineM : Memref sig .tc .vmem S1x1024 .f32).view.dmaCredit
theorem N_pos : 0 < N := View.dmaCredit_pos _ (by decide)

-- the generic spellings meet the printed literal ones
example : slotM (14 : Fin 15) = ((Memref.whole cc0_scratch1 : Memref sig .tc .vmem S15x1x1024 .f32).slice (Rect.unit (s := S15x1x1024) ![14, 0, 0] S1x1x1024.size inb_S15x1x1024_S1x1x1024_14_0_0) (fun _ => rfl)).squeeze S1x1024 squeezes_S1x1x1024_S1x1024 := rfl
example : sendSem (12 : Fin 15) = ((cc0_scratch2.slice (Rect.unit (s := S15) ![12] S1.size inb_S15_S1_12)).squeeze S_ squeezes_S1_S_).sem := rfl
example (k : Fin 15) : (slotM k).view.amount (.dma (recvSem k)) = N := rfl

end Cert.KernelIdeal.Hand

end
-- ==== Proof.KernelIdeal.Sched.lean ====
/-
  The protocol of the exchange, as a schedule of rounds.

  Every cell has one round. A device's barrier cell has fifteen duties of one unit, duty `d` paid by the device whose
  signal number `d` targets it, `peer t (rev d)`; with its unit that device hands over slot `d` of its own landing buffer
  and the fact that it has opened round 0 of its receive cell `d`: exactly what the barrier's owner needs to send into
  that slot. Receive cell `k` of device `t` has one duty of a row's credit, paid by the transfer from `peer t k`: it
  hands `t` its slot `k` holding that device's accumulator. Send cell `j` of device `c` has one duty of a row's credit:
  it hands `c` back the share of its accumulator that transfer `j` read.
-/
import proofs.«901083_g7700000000001084_dist_sum_ax0_shard0_i_m2048_n1024_v7x_i16_bf16_1_alg».proof.Proof.KernelIdeal.Cells

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is held of the buffers -/

/-- The accumulator's buffer on device `c`, at share `q`, holding `f`. -/
def minePts (c : Dev nD) (q : PosShare TreeShare) (f : Buf (Elt F) ((mineM : Memref sig .tc .vmem S1x1024 .f32).view.loc (c : Thread nD τ))) : sProp 𝕄 :=
  (mineM : Memref sig .tc .vmem S1x1024 .f32).view.loc (c : Thread nD τ) ↦[(mineM : Memref sig .tc .vmem S1x1024 .f32).view.set]{q} f
/-- Slot `k` of device `c`'s landing buffer, outright: the buffer's elements under the slot, at the valuation `f` of the whole buffer. -/
def slotPts (c : Dev nD) (k : Fin 15) (f : Buf (Elt F) ((slotM k).view.loc (c : Thread nD τ))) : sProp 𝕄 :=
  (slotM k).view.loc (c : Thread nD τ) ↦[(slotM k).view.set]{fullShare} f
/-- The whole landing buffer of device `c`, outright. -/
def commPts (c : Dev nD) (f : Buf (Elt F) ((commM : Memref sig .tc .vmem S15x1x1024 .f32).view.loc (c : Thread nD τ))) : sProp 𝕄 :=
  (commM : Memref sig .tc .vmem S15x1x1024 .f32).view.loc (c : Thread nD τ) ↦[(commM : Memref sig .tc .vmem S15x1x1024 .f32).view.set]{fullShare} f

omit [FloatOps F] in
instance minePts_storable (c : Dev nD) (q) (f) : BI.Storable (upEmb : UEmb _ 𝕄) (minePts (F := F) c q f) := by unfold minePts; infer_instance
omit [FloatOps F] in
instance slotPts_storable (c : Dev nD) (k) (f) : BI.Storable (upEmb : UEmb _ 𝕄) (slotPts (F := F) c k f) := by unfold slotPts; infer_instance
omit [FloatOps F] in
instance commPts_storable (c : Dev nD) (f) : BI.Storable (upEmb : UEmb _ 𝕄) (commPts (F := F) c f) := by unfold commPts; infer_instance

/-! ## The payloads -/

/-- What the signal paying duty `d` of device `t`'s barrier cell hands `t`: the signaller's slot `d`, at some contents, and that
    the signaller has opened round 0 of its receive cell `d`. -/
def barPay (t : Dev nD) (d : Fin 15) : sProp 𝕄 :=
  iprop((∃ f, slotPts (peer t (rev d)) d f) ∗ reached ER (recvCell (peer t (rev d)) d) 0)
/-- What the transfer into slot `k` of device `t` hands `t`: the slot, holding the sender's accumulator. -/
def recvPay (t : Dev nD) (k : Fin 15) : sProp 𝕄 := slotPts t k (commF m t)
/-- What transfer `j` of device `c` hands back on its send cell: the share of the accumulator it read. -/
def sendPay (c : Dev nD) (j : Fin 15) : sProp 𝕄 := minePts c (shr j.val) (mineF m c)

/-! ## Which cell is which -/

/-- The receive semaphore's number, read off a cell. -/
def recvIdx : SemLoc sig → Option (Fin 15)
  | .dma q => if h : 18 ≤ q.val ∧ q.val < 33 then some ⟨q.val - 18, by omega⟩ else none
  | .reg _ => none
/-- The send semaphore's number, read off a cell. -/
def sendIdx : SemLoc sig → Option (Fin 15)
  | .dma q => if h : 3 ≤ q.val ∧ q.val < 18 then some ⟨q.val - 3, by omega⟩ else none
  | .reg _ => none

theorem recvIdx_recv (k : Fin 15) : recvIdx (.dma (recvSem k)) = some k := by revert k; decide
theorem sendIdx_send (j : Fin 15) : sendIdx (.dma (sendSem j)) = some j := by revert j; decide
theorem recvIdx_send (j : Fin 15) : recvIdx (.dma (sendSem j)) = none := by revert j; decide
theorem recvIdx_bar : recvIdx (.reg barS) = none := rfl
theorem sendIdx_bar : sendIdx (.reg barS) = none := rfl
theorem send_ne_bar (j : Fin 15) : (SemLoc.dma (sendSem j) : SemLoc sig) ≠ .reg barS := fun h => by cases h
theorem recv_ne_bar (k : Fin 15) : (SemLoc.dma (recvSem k) : SemLoc sig) ≠ .reg barS := fun h => by cases h

/-! ## The schedule -/

/-- One round, round 0: a barrier cell's fifteen unit duties; a send or receive cell's one duty of a row's credit. -/
def ringRd : Rounds.Schedule (GSem nD τ sig) (Fin 15) 𝕄 where
  duties g r :=
    if r = 0 ∧ g.1.2 = .tc then
      (if g.2 = .reg barS then Finset.univ else if (recvIdx g.2).isSome ∨ (sendIdx g.2).isSome then {0} else ∅)
    else ∅
  unitless _ := False
  amount g _ _ := if g.2 = .reg barS then 1 else N
  payload g _ d :=
    if g.2 = .reg barS then barPay g.1.1 d
    else match recvIdx g.2 with
      | some k => recvPay m g.1.1 k
      | none => match sendIdx g.2 with
        | some j => sendPay m g.1.1 j
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 15) :
    BI.Storable (upEmb : UEmb _ 𝕄) ((ringRd (F := F) m).payload g r d) := by
  show BI.Storable upEmb (if g.2 = .reg barS then barPay g.1.1 d
    else match recvIdx g.2 with
      | some k => recvPay m g.1.1 k
      | none => match sendIdx g.2 with
        | some j => sendPay m g.1.1 j
        | none => iprop(emp))
  unfold barPay recvPay sendPay
  (repeat' split) <;> infer_instance

section Tables
variable (c : Dev nD) (j k d : Fin 15)

theorem duties_bar : (ringRd (F := F) m).duties (barCell c) 0 = Finset.univ := by
  dsimp only [ringRd]; rw [if_pos ⟨rfl, rfl⟩, if_pos rfl]
theorem duties_send : (ringRd (F := F) m).duties (sendCell c j) 0 = {0} := by
  dsimp only [ringRd]; rw [if_pos ⟨rfl, rfl⟩, if_neg (send_ne_bar j), if_pos (Or.inr (by rw [sendIdx_send]; rfl))]
theorem duties_recv : (ringRd (F := F) m).duties (recvCell c k) 0 = {0} := by
  dsimp only [ringRd]; rw [if_pos ⟨rfl, rfl⟩, if_neg (recv_ne_bar k), if_pos (Or.inl (by rw [recvIdx_recv]; rfl))]
theorem duties_later (g : GSem nD τ sig) : ∀ r, 1 ≤ r → (ringRd (F := F) m).duties g r = ∅ :=
  fun r hr => by dsimp only [ringRd]; rw [if_neg fun h => by omega]

theorem amount_bar : (ringRd (F := F) m).amount (barCell c) 0 d = 1 := by dsimp only [ringRd]; exact if_pos rfl
theorem amount_send : (ringRd (F := F) m).amount (sendCell c j) 0 d = N := by dsimp only [ringRd]; exact if_neg (send_ne_bar j)
theorem amount_recv : (ringRd (F := F) m).amount (recvCell c k) 0 d = N := by dsimp only [ringRd]; exact if_neg (recv_ne_bar k)

theorem expect_bar : (ringRd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c k) 0 = N := by
  unfold Schedule.expect Schedule.amountOf; rw [duties_recv, Finset.sum_singleton, amount_recv]

theorem payload_bar : (ringRd (F := F) m).payload (barCell c) 0 d = barPay c d := by dsimp only [ringRd]; rw [if_pos rfl]
theorem payload_send : (ringRd (F := F) m).payload (sendCell c j) 0 d = sendPay m c j := by
  dsimp only [ringRd]; rw [if_neg (send_ne_bar j)]; simp only [recvIdx_send, sendIdx_send]
theorem payload_recv : (ringRd (F := F) m).payload (recvCell c k) 0 d = recvPay m c k := by
  dsimp only [ringRd]; rw [if_neg (recv_ne_bar k)]; simp only [recvIdx_recv]

/-- The whole of a barrier cell's round: every signaller's slot and mark. -/
theorem rest_bar : bigSep ((ringRd (F := F) m).duties (barCell c) 0 \ ∅) (fun d => (ringRd (F := F) m).payload (barCell c) 0 d)
    = bigSep Finset.univ (fun d : Fin 15 => barPay (F := F) c d) := by
  rw [Finset.sdiff_empty, duties_bar]; exact bigSep_congr fun d _ => payload_bar m c d
theorem rest_send : bigSep ((ringRd (F := F) m).duties (sendCell c j) 0 \ ∅) (fun d => (ringRd (F := F) m).payload (sendCell c j) 0 d) = sendPay m c j := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Tables

end Cert.KernelIdeal.Hand

end
-- ==== Proof.KernelIdeal.Data.lean ====
/-
  The proof data of the pipeline: what a device owes at each point, the levels that order the waits, the ghost state of
  the exchange and the invariant between grid points.

  A device owes, at launch, one unit to each other device's barrier cell and a row's credit to one receive cell of each
  other device. The signals of point 0 pay the barrier units; the credits stay owed until the transfers of the last point.
  Waits are ordered by level: the pipeline's own cells and the send cells at 0, the barrier cells at 1, the receive cells
  at 2; a device waits on its barrier cell owing only receive credits, and on its receive cells owing nothing.
-/
import proofs.«901083_g7700000000001084_dist_sum_ax0_shard0_i_m2048_n1024_v7x_i16_bf16_1_alg».proof.Proof.KernelIdeal.Sched

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Offsets as naturals (so that the unrolled steps name them by numerals) -/

/-- Offset number `n` as a duty: `n` itself below 15. -/
def off (n : ℕ) : Fin 15 := ⟨n % 15, Nat.mod_lt _ (by decide)⟩

/-! ## What a device owes -/

/-- The credit transfer `n` owes: a row's credit on receive cell `rev n` of `peer c n`. -/
def sendTally (c : Dev nD) (n : ℕ) : CellTallies nD τ sig Unit := tallyAt (recvCell (peer c (off n)) (rev (off n))) () N
/-- The unit signal `n` owes: one on the barrier cell of `peer c n`. -/
def sigTally (c : Dev nD) (n : ℕ) : CellTallies nD τ sig Unit := tallyAt (barCell (peer c (off n))) () 1

/-- What is owed with the LAST `k` transfers still to start (numbers `15 - k` to `14`), summed so that each transfer peels
    the outermost summand. -/
def owedSend (c : Dev nD) : ℕ → CellTallies nD τ sig Unit
  | 0 => 0
  | k + 1 => owedSend c k + sendTally c (14 - k)
/-- What is owed with every transfer and the LAST `k` signals still to come. -/
def owedSig (c : Dev nD) : ℕ → CellTallies nD τ sig Unit
  | 0 => owedSend c 15
  | k + 1 => owedSig c k + sigTally c (14 - k)

/-- At launch: everything. -/
def O₀ (c : Dev nD) : CellTallies nD τ sig Unit := owedSig c 15

/-! ## Levels -/

def L (g : GSem nD τ sig) : Finset Unit := if g.1.2 = .tc then {()} else ∅
/-- Barrier cells at 1, receive cells at 2, everything else (the pipeline's staging cells, the send cells) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 15) : lv (recvCell c k) () = 2 := by
  unfold lv; rw [if_neg (recv_ne_bar k), recvIdx_recv]; rfl
theorem lv_send (c : Dev nD) (j : Fin 15) : lv (sendCell c j) () = 0 := by
  unfold lv; rw [if_neg (send_ne_bar j), recvIdx_send]; rfl

/-! ## The cells of the exchange, numbered: the barrier, the fifteen send cells, the fifteen receive cells -/

def csem (i : Fin 31) : SemLoc sig :=
  if i.val = 0 then .reg barS else if h : i.val < 16 then .dma (sendSem ⟨i.val - 1, by omega⟩) else .dma (recvSem ⟨i.val - 16, by omega⟩)
abbrev kcell (ck : Dev nD × Fin 31) : GSem nD τ sig := ((ck.1 : Thread nD τ), csem ck.2)

def barI : Fin 31 := 0
def sendI (j : Fin 15) : Fin 31 := ⟨j.val + 1, by omega⟩
def recvI (k : Fin 15) : Fin 31 := ⟨k.val + 16, by omega⟩

theorem csem_bar : csem barI = .reg barS := rfl
theorem csem_send (j : Fin 15) : csem (sendI j) = .dma (sendSem j) := by revert j; decide
theorem csem_recv (k : Fin 15) : csem (recvI k) = .dma (recvSem k) := by revert k; decide
theorem csem_injective : Function.Injective csem := by decide

/-! ## The ghost state -/

/-- The cells' invariants under the names the launch allocated them at, and that each cell's round 0 is open:
    persistent, the same for every device. -/
def records (K : Dev nD × Fin 31 → ℕ) : sProp 𝕄 :=
  iprop((bigSep Finset.univ fun ck : Dev nD × Fin 31 => cellInv ER (ringRd m) (K ck) (kcell ck))
    ∗ bigSep Finset.univ fun ck : Dev nD × Fin 31 => reached ER (kcell ck) 0)

instance records_persistent (K : Dev nD × Fin 31 → ℕ) : BI.Persistent (records m K) := by unfold records; infer_instance

theorem inv_at (K : Dev nD × Fin 31 → ℕ) (ck : Dev nD × Fin 31) : records m K ⊢ cellInv ER (ringRd m) (K ck) (kcell ck) := by
  unfold records; iintro ⟨H, -⟩
  iapply (show (bigSep Finset.univ fun ck : Dev nD × Fin 31 => (cellInv ER (ringRd m) (K ck) (kcell ck) : sProp 𝕄))
    ⊢ cellInv ER (ringRd m) (K ck) (kcell ck) from bigSep_elim (Finset.mem_univ ck))
  iexact H
theorem reached_at (K : Dev nD × Fin 31 → ℕ) (ck : Dev nD × Fin 31) : records m K ⊢ reached ER (kcell ck) 0 := by
  unfold records; iintro ⟨-, H⟩
  iapply (show (bigSep Finset.univ fun ck : Dev nD × Fin 31 => (reached ER (kcell ck) 0 : sProp 𝕄))
    ⊢ reached ER (kcell ck) 0 from bigSep_elim (Finset.mem_univ ck))
  iexact H

theorem inv_bar (K : Dev nD × Fin 31 → ℕ) (c : Dev nD) : records m K ⊢ cellInv ER (ringRd m) (K (c, barI)) (barCell c) := inv_at m K (c, barI)
theorem inv_send (K : Dev nD × Fin 31 → ℕ) (c : Dev nD) (j : Fin 15) : records m K ⊢ cellInv ER (ringRd m) (K (c, sendI j)) (sendCell c j) := by
  have := inv_at m K (c, sendI j); unfold kcell at this; rw [csem_send] at this; exact this
theorem inv_recv (K : Dev nD × Fin 31 → ℕ) (c : Dev nD) (k : Fin 15) : records m K ⊢ cellInv ER (ringRd m) (K (c, recvI k)) (recvCell c k) := by
  have := inv_at m K (c, recvI k); unfold kcell at this; rw [csem_recv] at this; exact this
theorem reached_bar (K : Dev nD × Fin 31 → ℕ) (c : Dev nD) : records m K ⊢ reached ER (barCell c) 0 := reached_at m K (c, barI)
theorem reached_send (K : Dev nD × Fin 31 → ℕ) (c : Dev nD) (j : Fin 15) : records m K ⊢ reached ER (sendCell c j) 0 := by
  have := reached_at m K (c, sendI j); unfold kcell at this; rw [csem_send] at this; exact this
theorem reached_recv (K : Dev nD × Fin 31 → ℕ) (c : Dev nD) (k : Fin 15) : records m K ⊢ reached ER (recvCell c k) 0 := by
  have := reached_at m K (c, recvI k); unfold kcell at this; rw [csem_recv] at this; exact this

/-- Device `c`'s positions: at the start of round 0 of its own thirty-one cells. -/
def posAll (c : Dev nD) : sProp 𝕄 :=
  iprop(atPos ER (barCell c) 0 ∅ 0 ∗ (bigSep Finset.univ fun j : Fin 15 => atPos ER (sendCell c j) 0 ∅ 0)
    ∗ bigSep Finset.univ fun k : Fin 15 => atPos ER (recvCell c k) 0 ∅ 0)
/-- The tokens of the barrier duties device `c` pays: duty `d` of `peer c d`'s barrier cell. -/
def sigToks (c : Dev nD) : sProp 𝕄 := bigSep Finset.univ fun d : Fin 15 => dutyTok ER (barCell (peer c d)) 0 d
/-- The tokens of the duties device `c`'s transfers pay: its own send cell `d`'s, and receive cell `rev d` of `peer c d`'s. -/
def xferToks (c : Dev nD) : sProp 𝕄 :=
  bigSep Finset.univ fun d : Fin 15 => iprop(dutyTok ER (sendCell c d) 0 0 ∗ dutyTok ER (recvCell (peer c d) (rev d)) 0 0)
/-- The credit dealt at launch: the fifteen units others owe its barrier cell, a row's credit on each receive cell. -/
def creds (c : Dev nD) : sProp 𝕄 :=
  iprop(cred (tallyAt (barCell c) () 15) ∗ bigSep Finset.univ fun k : Fin 15 => cred (tallyAt (recvCell c k) () N))

/-! ## The invariant between points -/

/-- Before point 0: everything dealt at launch, and the two scratch buffers at some contents. -/
def Φ₀ (c : Dev nD) : sProp 𝕄 :=
  iprop((∃ K, records m K ∗ posAll c ∗ sigToks c ∗ xferToks c) ∗ creds c ∗ levAts L lv
    ∗ (∃ f, minePts c fullShare f) ∗ (∃ f, commPts c f))
/-- Before point `n`, `1 ≤ n ≤ 7`: the signals are sent and the slots handed over; the accumulator holds the sum of blocks
    `0` to `n - 1`. -/
def Φmid (c : Dev nD) (n : ℕ) : sProp 𝕄 :=
  iprop((∃ K, records m K ∗ posAll c ∗ xferToks c) ∗ creds c ∗ levAts L lv ∗ minePts c fullShare (acc m c (n - 1)))
/-- After the last point: both scratch buffers back, whole, at their final contents; the thirty own semaphores at zero. -/
def Φend (c : Dev nD) : sProp 𝕄 :=
  iprop(minePts c fullShare (mineF m c) ∗ commPts c (commF m c)
    ∗ (bigSep Finset.univ fun j : Fin 15 => semVal (sendCell c j) 0) ∗ bigSep Finset.univ fun k : Fin 15 => semVal (recvCell c k) 0)

/-! ## The pipeline's proof data -/

def dats (_ : Fin 1) (c : Dev nD) : Dat τ (Elt F) Unit ℕ UU ℕ cfg0 c where
  A w := m ((cfg0.win w).arr.view.loc (c : Thread nD τ))
  after w t := match w with
    | ⟨0, _⟩ => xblk m c t
    | ⟨1, _⟩ => outF m c
  Φ t := match t with
    | ⟨0, _⟩ => Φ₀ m c
    | ⟨1, _⟩ => Φmid m c 1
    | ⟨2, _⟩ => Φmid m c 2
    | ⟨3, _⟩ => Φmid m c 3
    | ⟨4, _⟩ => Φmid m c 4
    | ⟨5, _⟩ => Φmid m c 5
    | ⟨6, _⟩ => Φmid m c 6
    | ⟨7, _⟩ => Φmid m c 7
    | ⟨_ + 8, _⟩ => Φend m c
  q _ := fullShare
  owed t := match t with
    | ⟨0, _⟩ => O₀ c
    | ⟨1, _⟩ => owedSend c 15
    | ⟨2, _⟩ => owedSend c 15
    | ⟨3, _⟩ => owedSend c 15
    | ⟨4, _⟩ => owedSend c 15
    | ⟨5, _⟩ => owedSend c 15
    | ⟨6, _⟩ => owedSend c 15
    | ⟨7, _⟩ => owedSend c 15
    | ⟨_ + 8, _⟩ => 0

abbrev 𝒱₀ : Variants := Variants.none

end Cert.KernelIdeal.Hand

end
-- ==== Proof.KernelIdeal.Steps.lean ====
/-
  The steps of the exchange, one rule each: cutting the landing buffer into its slots and the accumulator's buffer into
  shares, one signal, the barrier wait, one transfer, one receive wait, one send wait, closing a cell. Each is the rounds
  discipline's rule at this protocol's cells, duties and payloads; a device's body applies each fifteen times.
-/
import proofs.«901083_g7700000000001084_dist_sum_ax0_shard0_i_m2048_n1024_v7x_i16_bf16_1_alg».proof.Proof.KernelIdeal.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-! ## Cutting the buffers -/

/-- The slot's elements are those of its rectangle. -/
theorem slot_set (k : Fin 15) :
    (slotM k).view.set = (Rect.unit (s := S15x1x1024) ![k.val, 0, 0] S1x1x1024.size (slot_inb k)).set := by
  simp only [Memref.view_squeeze, Memref.view_slice, Memref.view_whole, View.set_reshape, View.set_slice_whole]

/-- An element is in slot `k` exactly when its first coordinate is `k`. -/
theorem mem_slot (k : Fin 15) (i : S15x1x1024.Idx) : i ∈ (slotM k).view.set ↔ (i 0).val = k.val := by
  rw [slot_set, Rect.mem_set_unit]
  constructor
  · intro h; have := h 0; simp at this; omega
  · intro h a
    match a with
    | ⟨0, _⟩ => simp; omega
    | ⟨1, _⟩ => have := (i 1).isLt; simp at this ⊢; omega
    | ⟨2, _⟩ => have := (i 2).isLt; simp at this ⊢; omega

/-- The landing buffer is its fifteen slots. -/
theorem comm_split (c : Dev nD) (f : Buf (Elt F) ((commM : Memref sig .tc .vmem S15x1x1024 .f32).view.loc (c : Thread nD τ))) :
    (commPts c f : sProp 𝕄) = bigSep Finset.univ fun k : Fin 15 => slotPts c k f := by
  unfold commPts slotPts
  have hU : (commM : Memref sig .tc .vmem S15x1x1024 .f32).view.set
      = (Finset.univ : Finset (Fin 15)).biUnion fun k =>
          ((slotM k).view.set : Finset (Idx ((commM : Memref sig .tc .vmem S15x1x1024 .f32).view.loc (c : Thread nD τ)))) := by
    have hw : (commM : Memref sig .tc .vmem S15x1x1024 .f32).view.set = Finset.univ := View.set_whole _
    refine Finset.ext fun i => ⟨fun _ => Finset.mem_biUnion.mpr
      ⟨⟨(i 0).val, (i 0).isLt⟩, Finset.mem_univ _, (mem_slot _ i).mpr rfl⟩, fun _ => ?_⟩
    rw [hw]; exact Finset.mem_univ i
  rw [hU]
  exact pointsTo_biUnion (ℓ := (commM : Memref sig .tc .vmem S15x1x1024 .f32).view.loc (c : Thread nD τ)) (q := fullShare) (f := f)
    Finset.univ (fun k : Fin 15 => (slotM k).view.set) fun k _ k' _ hk =>
      Finset.disjoint_left.mpr fun i hi hi' =>
        hk (Fin.ext (((mem_slot k i).mp hi).symm.trans ((mem_slot k' i).mp hi')))

/-- A slot's contents matter only on the slot. -/
theorem slotPts_congr (c : Dev nD) (k : Fin 15) (f g : Buf (Elt F) ((slotM k).view.loc (c : Thread nD τ)))
    (h : ∀ i ∈ (slotM k).view.set, f i = g i) : (slotPts c k f : sProp 𝕄) = slotPts c k g := by
  unfold slotPts; exact pointsTo_congr h

/-- Where slot `k` places its index `y`: row `k`, column `y 1`. -/
theorem slot_emb (k : Fin 15) (y : S1x1024.Idx) :
    (slotM k).view.emb y = ValueIdx.ix3 (⟨k.val, k.isLt⟩ : Fin 15) (0 : Fin 1) (y 1 : Fin 1024) := by
  have hr : Shape.reshapeEquiv (squeezes_S1x1x1024_S1x1024).numel_eq y
      = (ValueIdx.ix3 (0 : Fin 1) (0 : Fin 1) (y 1 : Fin 1024) : S1x1x1024.Idx) := by
    apply Shape.reshapeEquiv_eq_of_rowMajor
    rw [Shape.rowMajor_val_three, Shape.rowMajor_val_two]
    have := (y 0).isLt
    simp at this ⊢
    omega
  have he : (slotM k).view.emb y
      = (Rect.unit (s := S15x1x1024) ![k.val, 0, 0] S1x1x1024.size (slot_inb k)).emb
          (Shape.reshapeEquiv (squeezes_S1x1x1024_S1x1024).numel_eq y) := rfl
  rw [he, hr]
  funext a
  apply Fin.ext
  rw [Rect.emb_apply]
  match a with
  | ⟨0, _⟩ => simp
  | ⟨1, _⟩ => simp
  | ⟨2, _⟩ => simp

/-- What a transfer of the accumulator of `peer t k` leaves in slot `k` of device `t`, whatever the buffer held: the slot of
    the final landing contents. -/
theorem landed_slot (t : Dev nD) (k : Fin 15) (fd : Buf (Elt F) ((slotM k).view.loc (t : Thread nD τ))) :
    ∀ i ∈ (slotM k).view.set,
      (slotM k).view.write (Elt F) fd ((mineM : Memref sig .tc .vmem S1x1024 .f32).view.read (Elt F) (mineF m (peer t k))) Finset.univ i
        = commF m t i := by
  intro i hi
  -- an element of the slot is the place of one of its indices
  obtain ⟨y, -, rfl⟩ := Finset.mem_map.mp hi
  rw [View.write_emb_of_mem _ _ (Finset.mem_univ y)]
  -- the one-row index `y` is `(0, y 1)`
  have hy : y = ValueIdx.ix2 (0 : Fin 1) (y 1 : Fin 1024) := by
    funext a
    match a with
    | ⟨0, _⟩ => exact Fin.ext (Nat.lt_one_iff.mp (y 0).isLt)
    | ⟨1, _⟩ => rfl
  unfold commF
  rw [slot_emb k y]
  -- both sides read the accumulator of `peer t k` at column `y 1`
  show mineF m (peer t k) y = mineF m (peer t (⟨k.val, k.isLt⟩ : Fin 15)) (ValueIdx.ix2 (0 : Fin 1) (y 1 : Fin 1024))
  exact congrArg (mineF m (peer t k)) hy

/-- Taking transfer `n`'s share off what is left of the accumulator's buffer, and putting it back. -/
theorem mine_share (c : Dev nD) (n : ℕ) (f : Buf (Elt F) ((mineM : Memref sig .tc .vmem S1x1024 .f32).view.loc (c : Thread nD τ))) :
    (minePts c (rst n) f : sProp 𝕄) ⊣⊢ iprop(minePts c (shr n) f ∗ minePts c (rst (n + 1)) f) := by
  unfold minePts; exact pointsTo_share (rst_split n)

/-! ## Levels: which waits are allowed owing what -/

/-- A transfer's credit sits on a receive cell. -/
theorem sendTally_pos {c : Dev nD} {n : ℕ} {g : GSem nD τ sig} {u : Unit} (h : 0 < sendTally c n g u) : ∃ t k, g = recvCell t k := by
  unfold sendTally at h; rw [tallyAt_apply] at h
  by_cases hg : g = recvCell (peer c (off n)) (rev (off n)) ∧ u = ()
  · exact ⟨_, _, hg.1⟩
  · rw [if_neg hg] at h; exact absurd h (Nat.lt_irrefl 0)
/-- A signal's unit sits on a barrier cell. -/
theorem sigTally_pos {c : Dev nD} {n : ℕ} {g : GSem nD τ sig} {u : Unit} (h : 0 < sigTally c n g u) : ∃ t, g = barCell t := by
  unfold sigTally at h; rw [tallyAt_apply] at h
  by_cases hg : g = barCell (peer c (off n)) ∧ u = ()
  · exact ⟨_, hg.1⟩
  · rw [if_neg hg] at h; exact absurd h (Nat.lt_irrefl 0)
/-- Whatever transfers are still to start, what is owed for them sits on receive cells. -/
theorem owedSend_pos (c : Dev nD) : ∀ (k : ℕ) (g : GSem nD τ sig) (u : Unit), 0 < owedSend c k g u → ∃ t j, g = recvCell t j
  | 0, g, u, h => absurd h (Nat.lt_irrefl 0)
  | k + 1, g, u, h => by
    unfold owedSend at h; rw [Pi.add_apply, Finsupp.add_apply] at h
    rcases Nat.add_pos_iff_pos_or_pos.mp h with h | h
    · exact owedSend_pos c k g u h
    · exact sendTally_pos h
/-- With signals still to send too, it sits on receive cells and barrier cells. -/
theorem owedSig_pos (c : Dev nD) : ∀ (k : ℕ) (g : GSem nD τ sig) (u : Unit), 0 < owedSig c k g u → (∃ t j, g = recvCell t j) ∨ ∃ t, g = barCell t
  | 0, g, u, h => Or.inl (owedSend_pos c 15 g u h)
  | k + 1, g, u, h => by
    unfold owedSig at h; rw [Pi.add_apply, Finsupp.add_apply] at h
    rcases Nat.add_pos_iff_pos_or_pos.mp h with h | h
    · exact owedSig_pos c k g u h
    · exact Or.inr (sigTally_pos h)

/-- A cell at level 0 (a staging cell of the pipeline, a send cell) may be waited on owing any of the launch debts. -/
theorem mayWait_low (c : Dev nD) (q : DmaSem sig) (hq : recvIdx (.dma q : SemLoc sig) = none) (O : CellTallies nD τ sig Unit)
    (hO : O = O₀ c ∨ O = owedSend c 15 ∨ O = 0) :
    (levAts L lv : sProp 𝕄) ⊢ MayWait (c : Thread nD τ) (.dma q) () O := by
  have hlow : lv ((c : Thread nD τ), (.dma q : SemLoc sig)) () = 0 := by
    unfold lv; rw [if_neg (fun h => by cases h), hq]; rfl
  have key : ∀ k, (levAts L lv : sProp 𝕄) ⊢ MayWait (c : Thread nD τ) (.dma q) () (owedSig c k) := fun k =>
    MayOwe.of_cut (L := L) (lev := lv) 0
      (fun p hp => by rw [Finset.mem_singleton.mp hp, L_tc]; exact Finset.mem_singleton_self _)
      (fun g u hg => by
        rcases owedSig_pos c k g u hg with ⟨t, j, rfl⟩ | ⟨t, rfl⟩ <;> (rw [L_tc]; exact Finset.mem_singleton_self _))
      (fun p hp => by rw [Finset.mem_singleton.mp hp]; exact hlow.le)
      (fun g u hg => by
        cases u
        rcases owedSig_pos c k g () hg with ⟨t, j, rfl⟩ | ⟨t, rfl⟩
        · rw [lv_recv]; decide
        · rw [lv_bar]; decide)
  rcases hO with rfl | rfl | rfl
  · exact key 15
  · exact key 0
  · rw [MayWait_zero]; iintro -; iempintro

/-- The barrier cell may be waited on owing only receive credits. -/
theorem mayWait_bar (c : Dev nD) : (levAts L lv : sProp 𝕄) ⊢ MayWait (c : Thread nD τ) (.reg barS) () (owedSend c 15) := by
  exact MayOwe.of_cut (L := L) (lev := lv) 1
    (fun p hp => by rw [Finset.mem_singleton.mp hp, L_tc]; exact Finset.mem_singleton_self _)
    (fun g u hg => by obtain ⟨t, j, rfl⟩ := owedSend_pos c 15 g u hg; rw [L_tc]; exact Finset.mem_singleton_self _)
    (fun p hp => by rw [Finset.mem_singleton.mp hp]; exact (lv_bar c).le)
    (fun g u hg => by cases u; obtain ⟨t, j, rfl⟩ := owedSend_pos c 15 g () hg; rw [lv_recv]; decide)

/-! ## One signal -/

/-- Signal `d`: to the barrier cell of `peer c d`, paying its duty `d` with slot `d` of the signaller's landing buffer. -/
theorem wp_signal_peer (K : Dev nD × Fin 31 → ℕ) (c : Dev nD) (d : Fin 15) (dev : Dev nD) (hdev : dev = peer c d) (k' : ℕ) (hk' : k' = 1)
    {α : Type} {Q : α → sProp 𝕄} {k : PUnit → Prog (TpuEff nD τ sig (Elt F) Λ₀ .tc) α}
    (R : CellTallies nD τ sig Unit) (W : Waits sig Unit) :
    iprop(records m K ∗ owes (c : Thread nD τ) (R + tallyAt (barCell (peer c d)) () 1) W
        ∗ dutyTok ER (barCell (peer c d)) 0 d ∗ (∃ f, slotPts c d f))
      ⊢ iprop((owes (c : Thread nD τ) R W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dev : Thread nD τ) barS k') k) Q) := by
  subst hdev; subst hk'
  iintro ⟨#HR, HO, Htok, Hslot⟩ Hk
  iapply (Rounds.wp_signal 𝒱₀ ER (ringRd m) (c : Thread nD τ) none (dst := (peer c d : Thread nD τ)) (κ := K (peer c d, barI))
      (d := d) (by rw [duties_bar]; exact Finset.mem_univ _) (amount_bar m (peer c d) d) () R rfl) $$ [HO Htok Hslot]
  · isplitr; · iapply (inv_bar m K (peer c d)); iexact HR
    isplitl [HO]; · iexact HO
    isplitl [Htok]; · iexact Htok
    isplitl [Hslot]
    · rw [payload_bar]; unfold barPay; rw [peer_peer_rev]
      isplitl [Hslot]; · iexact Hslot
      iapply (reached_recv m K c d); iexact HR
    · iapply (reached_bar m K (peer c d)); iexact HR
  iexact Hk

/-! ## The barrier wait -/

/-- The wait for all fifteen units on the device's own barrier cell, owing only receive credits: every other device's
    slot for this device comes with it. -/
theorem wp_wait_bar (K : Dev nD × Fin 31 → ℕ) (c : Dev nD) (k' : ℕ) (hk' : k' = 15)
    {α : Type} {Q : α → sProp 𝕄} {k : PUnit → Prog (TpuEff nD τ sig (Elt F) Λ₀ .tc) α} (W : Waits sig Unit) :
    iprop(records m K ∗ cred (tallyAt (barCell c) () 15) ∗ owes (c : Thread nD τ) (owedSend c 15) W ∗ levAts L lv
        ∗ atPos ER (barCell c) 0 ∅ 0)
      ⊢ iprop(((owes (c : Thread nD τ) (owedSend c 15) (insert (SemLoc.reg barS, ()) W) ∗ atPos ER (barCell c) 1 ∅ 0
              ∗ bigSep Finset.univ (fun d : Fin 15 => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, #Hlev, Hat⟩ Hk
  iapply (Rounds.wp_wait_rest_token 𝒱₀ ER (ringRd m) (c : Thread nD τ) none (κ := K (c, barI))
      (wpE_semWait_eq 𝒱₀ (c : Thread nD τ) none Set.univ) (Set.mem_univ _) () (O := owedSend c 15) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-! ## One transfer -/

/-- Transfer `d`: the accumulator, read at share `shr d`, into slot `rev d` of `peer c d`; it pays duty 0 of the device's send
    cell `d` and of the target's receive cell `rev d`, and takes the row's credit off what the device owes. -/
theorem wp_send_peer (K : Dev nD × Fin 31 → ℕ) (c : Dev nD) (d : Fin 15) (dev : Dev nD) (hdev : dev = peer c d)
    {hsc : ((slotM (rev d)) : Memref sig (Dev.tc dev : Thread nD τ).2.kind .vmem S1x1024 .f32).view.ref.isScScratch = false}
    {hsrc : (mineM : Memref sig .tc .vmem S1x1024 .f32).view.WordExact} {hdst : (slotM (rev d)).view.WordExact}
    {hsem : DmaTarget.Typed .vmem (.dma (recvSem (rev d))) (.remote (Dev.tc dev : Thread nD τ) (slotM (rev d)) (.dma (sendSem d)) hsc)}
    {α : Type} {Q : α → sProp 𝕄} {k : PUnit → Prog (TpuEff nD τ sig (Elt F) Λ₀ .tc) α}
    (fn : Buf (Elt F) ((slotM (rev d)).view.loc (peer c d : Thread nD τ))) (R : CellTallies nD τ sig Unit) (W : Waits sig Unit) :
    iprop(records m K ∗ minePts c (shr d.val) (mineF m c) ∗ slotPts (peer c d) (rev d) fn
        ∗ owes (c : Thread nD τ) (R + tallyAt (recvCell (peer c d) (rev d)) () N) W
        ∗ dutyTok ER (sendCell c d) 0 0 ∗ dutyTok ER (recvCell (peer c d) (rev d)) 0 0)
      ⊢ iprop(((cred (tallyAt (sendCell c d) () N) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mineM (.remote (Dev.tc dev : Thread nD τ) (slotM (rev d)) (.dma (sendSem d)) hsc) (.dma (recvSem (rev d))) hsrc hdst hsem) k) Q) := by
  subst hdev
  unfold minePts slotPts
  iintro ⟨#HR, Hsrc, Hdst, HO, Ht1, Ht2⟩ Hk
  iapply (Rounds.wp_send_pointsTo 𝒱₀ ER (ringRd m) (c : Thread nD τ) none (κ₁ := K (c, sendI d)) (κ₂ := K (peer c d, recvI (rev d)))
      (r₁ := 0) (r₂ := 0) (d₁ := 0) (d₂ := 0) (fd := fn)
      (by rw [duties_send]; exact Finset.mem_singleton_self _) (by rw [duties_recv]; exact Finset.mem_singleton_self _)
      () () N rfl (amount_send m c d 0) (amount_recv m (peer c d) (rev d) 0) R rfl (W := W)
      (by rw [payload_send]; unfold sendPay minePts; exact BI.Entails.refl _)
      (by
        rw [payload_recv]; unfold recvPay slotPts
        refine Entails.of_eq (pointsTo_congr fun i hi => ?_)
        have h := landed_slot m (peer c d) (rev d) fn i hi
        rw [peer_peer_rev] at h
        exact h)) $$ [Hsrc Hdst HO Ht1 Ht2]
  · isplitr; · iapply (inv_send m K c d); iexact HR
    isplitr; · iapply (inv_recv m K (peer c d) (rev d)); iexact HR
    isplitl [Hsrc]; · iexact Hsrc
    isplitl [Hdst]; · iexact Hdst
    isplitl [HO]; · iexact HO
    isplitl [Ht1]; · iexact Ht1
    isplitr; · iapply (reached_send m K c d); iexact HR
    isplitl [Ht2]; · iexact Ht2
    iapply (reached_recv m K (peer c d) (rev d)); iexact HR
  iexact Hk

/-! ## The DMA waits -/

/-- The wait on receive cell `k`, owing nothing: slot `k` comes back holding the accumulator of `peer c k`. -/
theorem wp_wait_recv (K : Dev nD × Fin 31 → ℕ) (c : Dev nD) (k : Fin 15)
    {hsrc : (mineM : Memref sig .tc .vmem S1x1024 .f32).view.WordExact} {hdst : (slotM k).view.WordExact}
    {α : Type} {Q : α → sProp 𝕄} {kk : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (recvSem k), ()) W) ∗ atPos ER (recvCell c k) 1 ∅ 0 ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvSem k) mineM (slotM k) hsrc hdst) kk) Q) := by
  iintro ⟨#HR, Hc, HO, Hat⟩ Hk
  iapply (Rounds.wp_wait_rest_token 𝒱₀ ER (ringRd m) (c : Thread nD τ) none (κ := K (c, recvI k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c k); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c k)); iexact Hpay

/-- The wait on send cell `d`, owing nothing: the share transfer `d` read comes back. -/
theorem wp_wait_send (K : Dev nD × Fin 31 → ℕ) (c : Dev nD) (d : Fin 15)
    {hsrc : (slotM (rev d)).view.WordExact} {hdst : (mineM : Memref sig .tc .vmem S1x1024 .f32).view.WordExact}
    {α : Type} {Q : α → sProp 𝕄} {kk : PUnit → Prog (TpuEff nD τ sig (Elt F) Λ₀ .tc) α} (W : Waits sig Unit) :
    iprop(records m K ∗ cred (tallyAt (sendCell c d) () N) ∗ owes (c : Thread nD τ) 0 W ∗ atPos ER (sendCell c d) 0 ∅ 0)
      ⊢ iprop(((owes (c : Thread nD τ) 0 (insert (SemLoc.dma (sendSem d), ()) W) ∗ atPos ER (sendCell c d) 1 ∅ 0 ∗ sendPay m c d)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendSem d) (slotM (rev d)) mineM hsrc hdst) kk) Q) := by
  iintro ⟨#HR, Hc, HO, Hat⟩ Hk
  iapply (Rounds.wp_wait_rest_token 𝒱₀ ER (ringRd m) (c : Thread nD τ) none (κ := K (c, sendI d))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c d); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c d)); iexact Hpay

/-! ## Closing the own cells -/

/-- Past its one round a send cell is closed: its counter, at zero, is the device's again. -/
theorem close_send (K : Dev nD × Fin 31 → ℕ) (c : Dev nD) (j : Fin 15) :
    iprop(records m K ∗ atPos ER (sendCell c j) 1 ∅ 0) ⊢ (|={Set.univ}=> semVal (sendCell c j) 0 : sProp 𝕄) := by
  iintro ⟨#HR, Hat⟩
  iapply (Rounds.cell_close ER (ringRd m) (Set.mem_univ (K (c, sendI j))) (fun h => h) (R := 1) (duties_later m (sendCell c j)))
  isplitr; · iapply (inv_send m K c j); iexact HR
  iexact Hat
/-- Past its one round a receive cell is closed. -/
theorem close_recv (K : Dev nD × Fin 31 → ℕ) (c : Dev nD) (k : Fin 15) :
    iprop(records m K ∗ atPos ER (recvCell c k) 1 ∅ 0) ⊢ (|={Set.univ}=> semVal (recvCell c k) 0 : sProp 𝕄) := by
  iintro ⟨#HR, Hat⟩
  iapply (Rounds.cell_close ER (ringRd m) (Set.mem_univ (K (c, recvI k))) (fun h => h) (R := 1) (duties_later m (recvCell c k)))
  isplitr; · iapply (inv_recv m K c k); iexact HR
  iexact Hat

end Cert.KernelIdeal.Hand

end
-- ==== Proof.KernelIdeal.Oblig.lean ====
/-
  What a device's body owes the pipeline at one grid point: from the invariant before the point, what the device then owes and
  the two staging buffers as the pipeline hands them over, the body runs to the invariant after the point, what the device
  owes then, and the staging buffers as it leaves them.
-/
import proofs.«901083_g7700000000001084_dist_sum_ax0_shard0_i_m2048_n1024_v7x_i16_bf16_1_alg».proof.Proof.KernelIdeal.Steps

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body obligation of device `c` at point `t`. -/
def ObligAt (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) 𝒱₀ (c : Thread nD τ) none) Set.univ (defs₀ (F := F) .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true => owns (c : Thread nD τ) ((cfg0.win w).stage (cfg0.slots t w)) fullShare ((dats m 0 c).after w t)
              | false => owns (c : Thread nD τ) ((cfg0.win w).stage (cfg0.slots t w)) fullShare ((dats m 0 c).after w t))

/-- The obligation at every point is the pipeline's body obligation. -/
theorem bodyObligation_of (c : Dev nD) (h : ∀ t, ObligAt m c t) :
    BodyObligation (dats (F := F) m 0 c) (defs₀ (F := F)) 𝒱₀ () Set.univ := fun t => h t

end Cert.KernelIdeal.Hand

end
-- ==== Proof.KernelIdeal.Fifteen.lean ====
/-
  Fifteen at a time: the exchange's steps come in fifteens, and so do the resources they use and return.
-/
import proofs.«901083_g7700000000001084_dist_sum_ax0_shard0_i_m2048_n1024_v7x_i16_bf16_1_alg».proof.Proof.KernelIdeal.Steps

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

omit [FloatOps F] in
/-- A product over the fifteen offsets, written out. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The accumulator's buffer, held outright, is the fifteen transfers' shares and the rest. -/
theorem mine_split_upto (c : Dev nD) (f : Buf (Elt F) ((mineM : Memref sig .tc .vmem S1x1024 .f32).view.loc (c : Thread nD τ))) :
    ∀ n : ℕ, (minePts c fullShare f : sProp 𝕄) ⊣⊢ iprop((bigSep (Finset.range n) fun d => minePts c (shr d) f) ∗ minePts c (rst n) f)
  | 0 => by
    rw [Finset.range_zero, bigSep_empty]
    exact ⟨(emp_sep (PROP := sProp 𝕄)).2, (emp_sep (PROP := sProp 𝕄)).1⟩
  | n + 1 => by
    have ih := mine_split_upto c f n
    have hs := mine_share (F := F) c n f
    rw [Finset.range_add_one, bigSep_insert Finset.notMem_range_self]
    constructor
    · refine ih.1.trans (show iprop((bigSep (Finset.range n) fun d => minePts c (shr d) f) ∗ minePts c (rst n) f)
        ⊢ iprop((minePts c (shr n) f ∗ bigSep (Finset.range n) fun d => minePts c (shr d) f) ∗ minePts c (rst (n + 1)) f) from ?_)
      iintro ⟨HS, Hr⟩
      ihave H := hs.1 $$ Hr
      icases H with ⟨Hn, Hr⟩
      isplitl [Hn HS]
      · isplitl [Hn]; · iexact Hn
        iexact HS
      iexact Hr
    · refine BI.Entails.trans (show iprop((minePts c (shr n) f ∗ bigSep (Finset.range n) fun d => minePts c (shr d) f) ∗ minePts c (rst (n + 1)) f)
        ⊢ iprop((bigSep (Finset.range n) fun d => minePts c (shr d) f) ∗ minePts c (rst n) f) from ?_) ih.2
      iintro ⟨⟨Hn, HS⟩, Hr⟩
      isplitl [HS]; · iexact HS
      iapply hs.2
      isplitl [Hn]; · iexact Hn
      iexact Hr

/-- Every own send cell closed at once. -/
theorem close_sends (K : Dev nD × Fin 31 → ℕ) (c : Dev nD) :
    iprop(records m K ∗ bigSep Finset.univ fun j : Fin 15 => atPos ER (sendCell c j) 1 ∅ 0)
      ⊢ (|={Set.univ}=> bigSep Finset.univ fun j : Fin 15 => semVal (sendCell c j) 0 : sProp 𝕄) := by
  refine BI.Entails.trans ?_ (bigSep_fupd _ _)
  refine (sep_mono_left (BI.bigSep_of_persistent (Finset.univ : Finset (Fin 15)) (records m K))).trans ?_
  rw [← bigSep_sep']
  exact bigSep_mono fun j _ => close_send m K c j
/-- Every own receive cell closed at once. -/
theorem close_recvs (K : Dev nD × Fin 31 → ℕ) (c : Dev nD) :
    iprop(records m K ∗ bigSep Finset.univ fun k : Fin 15 => atPos ER (recvCell c k) 1 ∅ 0)
      ⊢ (|={Set.univ}=> bigSep Finset.univ fun k : Fin 15 => semVal (recvCell c k) 0 : sProp 𝕄) := by
  refine BI.Entails.trans ?_ (bigSep_fupd _ _)
  refine (sep_mono_left (BI.bigSep_of_persistent (Finset.univ : Finset (Fin 15)) (records m K))).trans ?_
  rw [← bigSep_sep']
  exact bigSep_mono fun k _ => close_recv m K c k

/-- The fifteen slots, each as its transfer left it, are the landing buffer at its final contents. -/
theorem comm_join (c : Dev nD) : (bigSep Finset.univ fun k : Fin 15 => recvPay m c k) ⊢ (commPts c (commF m c) : sProp 𝕄) := by
  rw [comm_split]; unfold recvPay; exact BI.Entails.refl _

end Cert.KernelIdeal.Hand

end
-- ==== Proof.KernelIdeal.BodyEarly.lean ====
/-
  A device's body at the early points of the grid. At point 0 the device signals each of the fifteen others once, handing
  over with each signal one slot of its landing buffer, then stores the column sums of block 0 in its accumulator. At
  points 1 to 6 it adds the column sums of the point's block to the accumulator; nothing of the exchange moves there.
-/
import proofs.«901083_g7700000000001084_dist_sum_ax0_shard0_i_m2048_n1024_v7x_i16_bf16_1_alg».proof.Proof.KernelIdeal.Oblig
import proofs.«901083_g7700000000001084_dist_sum_ax0_shard0_i_m2048_n1024_v7x_i16_bf16_1_alg».proof.Proof.KernelIdeal.Fifteen
import proofs.«901083_g7700000000001084_dist_sum_ax0_shard0_i_m2048_n1024_v7x_i16_bf16_1_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open PCS URA

variable {F : FTy → Type} [FloatOps F]

local notation "𝕄" => MT nD τ sig Unit (Elt F) ℕ UU ℕ

variable (m : (ℓ : Loc nD τ sig) → Buf (Elt F) ℓ)

/-! ## Reading and writing whole buffers at their zero offsets -/

theorem hz2 : (![0, 0] : Fin 2 → Nat) = fun _ => 0 := funext fun a => by fin_cases a <;> rfl

omit [FloatOps F] in
theorem rd_stg0 (f : (cc0_stg0_0 : Ref sig .tc).ty.Contents (Elt F)) :
    (Memref.whole cc0_stg0_0 : Memref sig .tc .vmem S256x1024 .f32).view.readAt (Elt F)
      (Rect.unit (s := S256x1024) ![0, 0] S256x1024.size inb_S256x1024_S256x1024_0_0).toLoadRect f = f :=
  Memref.readAt_unit_zero (Elt F) cc0_stg0_0 hz2 _ f
omit [FloatOps F] in
theorem rd_stg1 (f : (cc0_stg0_1 : Ref sig .tc).ty.Contents (Elt F)) :
    (Memref.whole cc0_stg0_1 : Memref sig .tc .vmem S256x1024 .f32).view.readAt (Elt F)
      (Rect.unit (s := S256x1024) ![0, 0] S256x1024.size inb_S256x1024_S256x1024_0_0).toLoadRect f = f :=
  Memref.readAt_unit_zero (Elt F) cc0_stg0_1 hz2 _ f
omit [FloatOps F] in
theorem rd_mine (f : (cc0_scratch0 : Ref sig .tc).ty.Contents (Elt F)) :
    (mineM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 hz2 _ f
omit [FloatOps F] in
theorem wr_mine (f w : (cc0_scratch0 : Ref sig .tc).ty.Contents (Elt F)) :
    (mineM : Memref sig .tc .vmem S1x1024 .f32).view.writes (Elt F) f
      [⟨Rect.unit (s := S1x1024) ![0, 0] S1x1024.size inb_S1x1024_S1x1024_0_0, w⟩] = w :=
  (View.writes_singleton _ _ _ _).trans (Memref.write_access_unit_zero_univ (Elt F) cc0_scratch0 hz2 _ f w)

/-! ## The printed conditions, decided over the grid -/

theorem cond1_mid : ∀ t : Fin grid0.N, 1 ≤ t.val → ¬ k0_cond1 (grid0.coords t) = 1#1 := by decide +kernel
theorem cond4_mid : ∀ t : Fin grid0.N, t.val ≤ 6 → ¬ k0_cond4 (grid0.coords t) = 1#1 := by decide +kernel
theorem v13_mid : ∀ t : Fin grid0.N, 1 ≤ t.val →
    ¬ Scalar.cmpi .ne (Scalar.extui (Scalar.cmpi .eq (BitVec.ofNat 32 ((grid0.coords t) 0).val) 0#32)) 0#32 = 1#1 := by decide +kernel
theorem v16_mid : ∀ t : Fin grid0.N, 1 ≤ t.val →
    Scalar.cmpi .ne (Scalar.extui (Scalar.cmpi .sgt (BitVec.ofNat 32 ((grid0.coords t) 0).val) 0#32)) 0#32 = 1#1 := by decide +kernel
theorem idle0_all (t : Fin grid0.N) : idle0 0 (grid0.coords t) = false := rfl
theorem idle1_early : ∀ t : Fin grid0.N, t.val ≤ 6 → idle0 1 (grid0.coords t) = true := by decide +kernel
theorem flush1_early : ∀ t : Fin grid0.N, t.val ≤ 6 → (cfg0.win 1).flush t = false := by decide +kernel

/-- The input window's staging buffer is one of its two buffers. -/
theorem stage0_cases (j : Fin 2) : stage0_0 j = Memref.whole cc0_stg0_0 ∨ stage0_0 j = Memref.whole cc0_stg0_1 :=
  match j with
  | 0 => Or.inl rfl
  | 1 => Or.inr rfl

/-- What the input window's buffer holds when the body runs: the block just fetched. -/
theorem before_in (c : Dev nD) (t : Fin cfg0.N) (d) : (dats m 0 c).before 0 t d = xblk m c t := by
  unfold Dat.before; rw [if_pos (fetch0_0 t)]; rfl
set_option maxHeartbeats 1600000 in
theorem body_mid (c : Dev nD) (i : grid0.Coords)
    (arg1 : Memref sig .tc .vmem S256x1024 .f32) (harg1 : arg1.IsWhole)
    (h1 : arg1 = Memref.whole cc0_stg0_0 ∨ arg1 = Memref.whole cc0_stg0_1)
    (arg2 : Memref sig .tc .vmem S1x1024 .f32) (harg2 : arg2.IsWhole)
    (hc1 : ¬ k0_cond1 i = 1#1)
    (h13 : ¬ Scalar.cmpi .ne (Scalar.extui (Scalar.cmpi .eq (BitVec.ofNat 32 (i 0).val) 0#32)) 0#32 = 1#1)
    (h16 : Scalar.cmpi .ne (Scalar.extui (Scalar.cmpi .sgt (BitVec.ofNat 32 (i 0).val) 0#32)) 0#32 = 1#1)
    (hc4 : ¬ k0_cond4 i = 1#1)
    (X : Vec F S256x1024 .f32) (A : Vec F S1x1024 .f32) (Kt : PUnit → sProp 𝕄) :
    iprop(owns (c : Thread nD τ) arg1 fullShare X ∗ minePts c fullShare A
        ∗ ((owns (c : Thread nD τ) arg1 fullShare X ∗ minePts c fullShare (k0_pay3 X A)) -∗ Kt ⟨⟩))
      ⊢ wp frame (wpE (defs₀ (F := F)) 𝒱₀ (c : Thread nD τ) none) Set.univ
          (cc0_body i arg1 harg1 arg2 harg2 (Memref.whole cc0_scratch0) (Memref.isWhole_whole _) (Memref.whole cc0_scratch1) (Memref.isWhole_whole _) cc0_scratch2 cc0_scratch3) Kt := by
  simp only [cc0_body_eq_skeleton]; unfold cc0_body_skel
  simp only [dif_neg hc1, dif_neg h13, dif_pos h16, dif_neg hc4]
  simp only [Prog.lift, Prog.bind_op, Prog.bind_ret, Prog.pure_eq_ret, wp_deviceId]
  rcases h1 with rfl | rfl
  · unfold owns minePts
    iintro ⟨⟨%f, %hf, Hx⟩, Hm, Hk⟩
    simp only [Memref.view_whole, View.read_whole] at hf; subst hf
    sl_exec
    sl_step
    rw [wr_mine, rd_stg0, rd_mine]
    iapply Hk
    isplitl [Hx]
    · iexists f; isplitr; · ipureintro; simp only [Memref.view_whole, View.read_whole]
      iexact Hx
    · iexact Hm
  · unfold owns minePts
    iintro ⟨⟨%f, %hf, Hx⟩, Hm, Hk⟩
    simp only [Memref.view_whole, View.read_whole] at hf; subst hf
    sl_exec
    sl_step
    rw [wr_mine, rd_stg1, rd_mine]
    iapply Hk
    isplitl [Hx]
    · iexists f; isplitr; · ipureintro; simp only [Memref.view_whole, View.read_whole]
      iexact Hx
    · iexact Hm

/-- Point `t` of the grid is point number `t.val`. -/
theorem pt_eq (t : Fin cfg0.N) : pt t.val = t := by unfold pt; rw [dif_pos t.isLt]

set_option maxHeartbeats 1600000 in
/-- A middle point, from the invariant numbered `n` to the one numbered `n + 1`: the block's column sums are added to the accumulator. -/
theorem oblig_mid_core (c : Dev nD) (t : Fin cfg0.N) (n : ℕ) (hn : t.val = n) (h1 : 1 ≤ n) (h6 : n ≤ 6)
    (hΦ : (dats m 0 c).Φ t.castSucc = Φmid m c n) (hΦ' : (dats m 0 c).Φ t.succ = Φmid m c (n + 1))
    (ho : (dats m 0 c).owed t.castSucc = owedSend c 15) (ho' : (dats m 0 c).owed t.succ = owedSend c 15) :
    ObligAt m c t := by
  have h1' : 1 ≤ t.val := hn ▸ h1
  have h6' : t.val ≤ 6 := hn ▸ h6
  have hacc : acc m c n = k0_pay3 (xblk m c t) (acc m c (n - 1)) := by
    obtain ⟨k, rfl⟩ : ∃ k, n = k + 1 := ⟨n - 1, by omega⟩
    rw [Nat.add_sub_cancel]
    show k0_pay3 (xblk m c (pt (k + 1))) (acc m c k) = _
    rw [← hn, pt_eq]
  unfold ObligAt
  rw [bigSep_W0, bigSep_W0, hΦ, hΦ']
  simp only [Dat.owesAt]
  rw [ho, ho']
  simp only [idle0_all t, idle1_early t h6', flush1_early t h6']
  unfold Φmid
  iintro ⟨⟨Hg, Hcr, Hlev, Hmine⟩, Ho, ⟨%d0, Hx⟩, Hout⟩
  rw [before_in]
  iapply (body_mid c (grid0.coords t) _ _ (stage0_cases _) _ _ (cond1_mid t h1') (v13_mid t h1') (v16_mid t h1') (cond4_mid t h6')
    (xblk m c t) (acc m c (n - 1)) _)
  isplitl [Hx]; · iexact Hx
  isplitl [Hmine]; · iexact Hmine
  iintro ⟨Hx, Hmine⟩
  isplitl [Hg Hcr Hlev Hmine]
  · isplitl [Hg]; · iexact Hg
    isplitl [Hcr]; · iexact Hcr
    isplitl [Hlev]; · iexact Hlev
    rw [Nat.add_sub_cancel, hacc]; iexact Hmine
  isplitl [Ho]; · iexact Ho
  isplitl [Hx]
  · dsimp only [dats]; iexact Hx
  iexact Hout

/-- The body obligation at the middle points 1 to 6. -/
theorem oblig_mid (c : Dev nD) (t : Fin cfg0.N) (h1 : 1 ≤ t.val) (h6 : t.val ≤ 6) : ObligAt m c t := by
  rcases fin_N0 t with rfl | rfl | rfl | rfl | rfl | rfl | rfl | rfl
  · exact absurd h1 (by decide)
  · exact oblig_mid_core m c t0_1 1 rfl (by decide) (by decide) rfl rfl rfl rfl
  · exact oblig_mid_core m c t0_2 2 rfl (by decide) (by decide) rfl rfl rfl rfl
  · exact oblig_mid_core m c t0_3 3 rfl (by decide) (by decide) rfl rfl rfl rfl
  · exact oblig_mid_core m c t0_4 4 rfl (by decide) (by decide) rfl rfl rfl rfl
  · exact oblig_mid_core m c t0_5 5 rfl (by decide) (by decide) rfl rfl rfl rfl
  · exact oblig_mid_core m c t0_6 6 rfl (by decide) (by decide) rfl rfl rfl rfl
  · exact absurd h6 (by decide)

/-! ## Point 0: the fifteen signals, then the first block's column sums -/

theorem cond1_0 : ∀ t : Fin grid0.N, t.val = 0 → k0_cond1 (grid0.coords t) = 1#1 := by decide +kernel
theorem v13_0 : ∀ t : Fin grid0.N, t.val = 0 →
    Scalar.cmpi .ne (Scalar.extui (Scalar.cmpi .eq (BitVec.ofNat 32 ((grid0.coords t) 0).val) 0#32)) 0#32 = 1#1 := by decide +kernel
theorem v16_0 : ∀ t : Fin grid0.N, t.val = 0 →
    ¬ Scalar.cmpi .ne (Scalar.extui (Scalar.cmpi .sgt (BitVec.ofNat 32 ((grid0.coords t) 0).val) 0#32)) 0#32 = 1#1 := by decide +kernel

/-! Signal number `d` goes to the device `d + 1` places further round the ring. -/

theorem dev_sig1 (c : Dev nD) (h : k0_dev1 c < nD) : (⟨k0_dev1 c, h⟩ : Dev nD) = peer c 0 := Fin.ext (k0_dev1_eq c)
theorem dev_sig2 (c : Dev nD) (h : k0_dev2 c < nD) : (⟨k0_dev2 c, h⟩ : Dev nD) = peer c 1 := Fin.ext (k0_dev2_eq c)
theorem dev_sig3 (c : Dev nD) (h : k0_dev3 c < nD) : (⟨k0_dev3 c, h⟩ : Dev nD) = peer c 2 := Fin.ext (k0_dev3_eq c)
theorem dev_sig4 (c : Dev nD) (h : k0_dev4 c < nD) : (⟨k0_dev4 c, h⟩ : Dev nD) = peer c 3 := Fin.ext (k0_dev4_eq c)
theorem dev_sig5 (c : Dev nD) (h : k0_dev5 c < nD) : (⟨k0_dev5 c, h⟩ : Dev nD) = peer c 4 := Fin.ext (k0_dev5_eq c)
theorem dev_sig6 (c : Dev nD) (h : k0_dev6 c < nD) : (⟨k0_dev6 c, h⟩ : Dev nD) = peer c 5 := Fin.ext (k0_dev6_eq c)
theorem dev_sig7 (c : Dev nD) (h : k0_dev7 c < nD) : (⟨k0_dev7 c, h⟩ : Dev nD) = peer c 6 := Fin.ext (k0_dev7_eq c)
theorem dev_sig8 (c : Dev nD) (h : k0_dev8 c < nD) : (⟨k0_dev8 c, h⟩ : Dev nD) = peer c 7 := Fin.ext (k0_dev8_eq c)
theorem dev_sig9 (c : Dev nD) (h : k0_dev9 c < nD) : (⟨k0_dev9 c, h⟩ : Dev nD) = peer c 8 := Fin.ext (k0_dev9_eq c)
theorem dev_sig10 (c : Dev nD) (h : k0_dev10 c < nD) : (⟨k0_dev10 c, h⟩ : Dev nD) = peer c 9 := Fin.ext (k0_dev10_eq c)
theorem dev_sig11 (c : Dev nD) (h : k0_dev11 c < nD) : (⟨k0_dev11 c, h⟩ : Dev nD) = peer c 10 := Fin.ext (k0_dev11_eq c)
theorem dev_sig12 (c : Dev nD) (h : k0_dev12 c < nD) : (⟨k0_dev12 c, h⟩ : Dev nD) = peer c 11 := Fin.ext (k0_dev12_eq c)
theorem dev_sig13 (c : Dev nD) (h : k0_dev13 c < nD) : (⟨k0_dev13 c, h⟩ : Dev nD) = peer c 12 := Fin.ext (k0_dev13_eq c)
theorem dev_sig14 (c : Dev nD) (h : k0_dev14 c < nD) : (⟨k0_dev14 c, h⟩ : Dev nD) = peer c 13 := Fin.ext (k0_dev14_eq c)
theorem dev_sig15 (c : Dev nD) (h : k0_dev15 c < nD) : (⟨k0_dev15 c, h⟩ : Dev nD) = peer c 14 := Fin.ext (k0_dev15_eq c)

/-- One signal, with what it takes and what it leaves side by side: the unit on the target's barrier cell comes off what
    the device owes, the duty's token and the slot handed over with it are spent. -/
theorem sig_rule (K : Dev nD × Fin 31 → ℕ) (c : Dev nD) (d : Fin 15) (dev : Dev nD) (hdev : dev = peer c d) (k' : ℕ) (hk' : k' = 1)
    (R : CellTallies nD τ sig Unit) (W : Waits sig Unit)
    {α : Type} {Q : α → sProp 𝕄} {k : PUnit → Prog (TpuEff nD τ sig (Elt F) Λ₀ .tc) α} :
    iprop(records m K ∗ owes (c : Thread nD τ) (R + tallyAt (barCell (peer c d)) () 1) W
        ∗ dutyTok ER (barCell (peer c d)) 0 d ∗ (∃ f, slotPts c d f)
        ∗ (owes (c : Thread nD τ) R W -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (dev : Thread nD τ) barS k') k) Q := by
  iintro ⟨HR, HO, Ht, Hs, Hk⟩
  iapply (wp_signal_peer m K c d dev hdev k' hk' R W) $$ [HR HO Ht Hs]
  · isplitl [HR]; · iexact HR
    isplitl [HO]; · iexact HO
    isplitl [Ht]; · iexact Ht
    iexact Hs
  iexact Hk

set_option hygiene false in
/-- Signal `d`, after which the last `r` signals are still owed (`owedSig c (r + 1)` is `owedSig c r` and this signal's unit,
    by definition): its token `ht`, the slot `hs` it hands over. -/
local macro "sig_step" d:num r:num hd:term:max ht:ident hs:ident : tactic => `(tactic| (
  iapply (sig_rule m K c $d _ $hd _ rfl (owedSig c $r) W)
  isplitr
  · iexact HR
  isplitl [HO]
  · iexact HO
  isplitl [$ht]
  · iexact $ht
  isplitl [$hs]
  · iexists _; iexact $hs
  iintro HO))

set_option maxHeartbeats 3200000 in
/-- The body at point 0, from the cells' records, the signals' tokens, everything still owed, the block and the two scratch
    buffers: the landing buffer is cut into its slots, each signal hands one over, and the accumulator ends at the block's
    column sums with only the transfers' credits still owed. -/
theorem body_pt0 (K : Dev nD × Fin 31 → ℕ) (c : Dev nD) (i : grid0.Coords)
    (arg1 : Memref sig .tc .vmem S256x1024 .f32) (harg1 : arg1.IsWhole)
    (h1 : arg1 = Memref.whole cc0_stg0_0 ∨ arg1 = Memref.whole cc0_stg0_1)
    (arg2 : Memref sig .tc .vmem S1x1024 .f32) (harg2 : arg2.IsWhole)
    (hc1 : k0_cond1 i = 1#1)
    (h13 : Scalar.cmpi .ne (Scalar.extui (Scalar.cmpi .eq (BitVec.ofNat 32 (i 0).val) 0#32)) 0#32 = 1#1)
    (h16 : ¬ Scalar.cmpi .ne (Scalar.extui (Scalar.cmpi .sgt (BitVec.ofNat 32 (i 0).val) 0#32)) 0#32 = 1#1)
    (hc4 : ¬ k0_cond4 i = 1#1)
    (X : Vec F S256x1024 .f32) (W : Waits sig Unit) (Kt : PUnit → sProp 𝕄) :
    iprop(records m K ∗ sigToks c ∗ owes (c : Thread nD τ) (owedSig c 15) W ∗ owns (c : Thread nD τ) arg1 fullShare X
        ∗ (∃ f, minePts c fullShare f) ∗ (∃ f, commPts c f)
        ∗ ((owes (c : Thread nD τ) (owedSend c 15) W ∗ owns (c : Thread nD τ) arg1 fullShare X ∗ minePts c fullShare (k0_pay2 X)) -∗ Kt ⟨⟩))
      ⊢ wp frame (wpE (defs₀ (F := F)) 𝒱₀ (c : Thread nD τ) none) Set.univ
          (cc0_body i arg1 harg1 arg2 harg2 (Memref.whole cc0_scratch0) (Memref.isWhole_whole _) (Memref.whole cc0_scratch1) (Memref.isWhole_whole _) cc0_scratch2 cc0_scratch3) Kt := by
  simp only [cc0_body_eq_skeleton]; unfold cc0_body_skel
  simp only [dif_pos hc1, dif_pos h13, dif_neg h16, dif_neg hc4]
  simp only [k0_part1_eq_skeleton, k0_part2_eq_skeleton]; unfold k0_part1_skel k0_part2_skel
  simp only [semSignalWord, Prog.lift, Prog.bind_op, Prog.bind_ret, Prog.pure_eq_ret, wp_deviceId]
  unfold sigToks
  rw [bigSep_fin15]
  iintro ⟨#HR, ⟨Ht0, Ht1, Ht2, Ht3, Ht4, Ht5, Ht6, Ht7, Ht8, Ht9, Ht10, Ht11, Ht12, Ht13, Ht14⟩, HO, Hx, ⟨%fm, Hm⟩, ⟨%fc, Hc⟩, Hk⟩
  -- the landing buffer, slot by slot
  ihave Hc := (Entails.of_eq ((comm_split c fc).trans (bigSep_fin15 _))) $$ Hc
  icases Hc with ⟨Hs0, Hs1, Hs2, Hs3, Hs4, Hs5, Hs6, Hs7, Hs8, Hs9, Hs10, Hs11, Hs12, Hs13, Hs14⟩
  -- the fifteen signals, in program order
  sig_step 0 14 (dev_sig1 c _) Ht0 Hs0
  sig_step 1 13 (dev_sig2 c _) Ht1 Hs1
  sig_step 2 12 (dev_sig3 c _) Ht2 Hs2
  sig_step 3 11 (dev_sig4 c _) Ht3 Hs3
  sig_step 4 10 (dev_sig5 c _) Ht4 Hs4
  sig_step 5 9 (dev_sig6 c _) Ht5 Hs5
  sig_step 6 8 (dev_sig7 c _) Ht6 Hs6
  sig_step 7 7 (dev_sig8 c _) Ht7 Hs7
  sig_step 8 6 (dev_sig9 c _) Ht8 Hs8
  sig_step 9 5 (dev_sig10 c _) Ht9 Hs9
  sig_step 10 4 (dev_sig11 c _) Ht10 Hs10
  sig_step 11 3 (dev_sig12 c _) Ht11 Hs11
  sig_step 12 2 (dev_sig13 c _) Ht12 Hs12
  sig_step 13 1 (dev_sig14 c _) Ht13 Hs13
  sig_step 14 0 (dev_sig15 c _) Ht14 Hs14
  -- the block's column sums into the accumulator
  rcases h1 with rfl | rfl
  · unfold owns minePts
    icases Hx with ⟨%f, %hf, Hx⟩
    simp only [Memref.view_whole, View.read_whole] at hf; subst hf
    sl_exec
    sl_step
    rw [wr_mine, rd_stg0]
    iapply Hk
    isplitl [HO]; · iexact HO
    isplitl [Hx]
    · iexists f; isplitr; · ipureintro; simp only [Memref.view_whole, View.read_whole]
      iexact Hx
    · iexact Hm
  · unfold owns minePts
    icases Hx with ⟨%f, %hf, Hx⟩
    simp only [Memref.view_whole, View.read_whole] at hf; subst hf
    sl_exec
    sl_step
    rw [wr_mine, rd_stg1]
    iapply Hk
    isplitl [HO]; · iexact HO
    isplitl [Hx]
    · iexists f; isplitr; · ipureintro; simp only [Memref.view_whole, View.read_whole]
      iexact Hx
    · iexact Hm

set_option maxHeartbeats 1600000 in
/-- Point 0, from everything dealt at launch to the first middle invariant. -/
theorem oblig_pt0_core (c : Dev nD) (t : Fin cfg0.N) (ht : t.val = 0)
    (hΦ : (dats m 0 c).Φ t.castSucc = Φ₀ m c) (hΦ' : (dats m 0 c).Φ t.succ = Φmid m c 1)
    (ho : (dats m 0 c).owed t.castSucc = owedSig c 15) (ho' : (dats m 0 c).owed t.succ = owedSend c 15) :
    ObligAt m c t := by
  have h6 : t.val ≤ 6 := by omega
  -- the accumulator after point 0 is the column sums of block 0
  have hacc : acc m c (1 - 1) = k0_pay2 (xblk m c t) := by
    show k0_pay2 (xblk m c (pt 0)) = _
    rw [← ht, pt_eq]
  unfold ObligAt
  rw [bigSep_W0, bigSep_W0, hΦ, hΦ']
  simp only [Dat.owesAt]
  rw [ho, ho']
  simp only [idle0_all t, idle1_early t h6, flush1_early t h6]
  unfold Φ₀ Φmid
  iintro ⟨⟨⟨%K, #HR, Hpos, Hsig, Hxf⟩, Hcr, Hlev, Hmine, Hcomm⟩, ⟨%W, %hW, HO⟩, ⟨%d0, Hx⟩, Hout⟩
  rw [before_in]
  iapply (body_pt0 m K c (grid0.coords t) _ _ (stage0_cases _) _ _ (cond1_0 t ht) (v13_0 t ht) (v16_0 t ht) (cond4_mid t h6) (xblk m c t) W _)
  isplitr; · iexact HR
  isplitl [Hsig]; · iexact Hsig
  isplitl [HO]; · iexact HO
  isplitl [Hx]; · iexact Hx
  isplitl [Hmine]; · iexact Hmine
  isplitl [Hcomm]; · iexact Hcomm
  iintro ⟨HO, Hx, Hmine⟩
  isplitl [Hpos Hxf Hcr Hlev Hmine]
  · isplitl [Hpos Hxf]
    · iexists K; isplitr; · iexact HR
      isplitl [Hpos]; · iexact Hpos
      iexact Hxf
    isplitl [Hcr]; · iexact Hcr
    isplitl [Hlev]; · iexact Hlev
    rw [hacc]; iexact Hmine
  isplitl [HO]
  · iexists W; isplitr; · ipureintro; exact hW
    iexact HO
  isplitl [Hx]
  · dsimp only [dats]; iexact Hx
  iexact Hout

/-- The body obligation at point 0. -/
theorem oblig_pt0 (c : Dev nD) : ObligAt m c t0_0 := oblig_pt0_core m c t0_0 rfl rfl rfl rfl rfl

/-- info: 'Cert.KernelIdeal.Hand.oblig_mid' depends on axioms: [propext, Classical.choice, Quot.sound] -/
#guard_msgs in #print axioms oblig_mid

/-- info: 'Cert.KernelIdeal.Hand.oblig_pt0' depends on axioms: [propext, Classical.choice, Quot.sound] -/
#guard_msgs in #print axioms oblig_pt0

end Cert.KernelIdeal.Hand

end
-- ==== Proof.KernelIdeal.BodyLast.lean ====
/-
  The last grid point on one device: the whole exchange.

  The device adds its last block into its accumulator, waits on its barrier cell for the fifteen units the other devices
  signalled (each brings the signaller's landing slot for this device), sends its accumulator into that slot of each of the
  fifteen other devices, waits for the fifteen transfers into its own landing buffer, stores its accumulator plus the sum of
  the fifteen slots into the output's staging buffer, and waits for its own fifteen transfers to have been read out. It
  leaves both scratch buffers whole at their final contents, its thirty own semaphores at zero, and owes nothing.
-/
import proofs.«901083_g7700000000001084_dist_sum_ax0_shard0_i_m2048_n1024_v7x_i16_bf16_1_alg».proof.Proof.KernelIdeal.Oblig
import proofs.«901083_g7700000000001084_dist_sum_ax0_shard0_i_m2048_n1024_v7x_i16_bf16_1_alg».proof.Proof.KernelIdeal.Fifteen
import proofs.«901083_g7700000000001084_dist_sum_ax0_shard0_i_m2048_n1024_v7x_i16_bf16_1_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA
open Idealize.ShloMosaic.Tactic

variable {F : FTy → Type} [FloatOps F]

local notation "𝕄" => MT nD τ sig Unit (Elt F) ℕ UU ℕ

variable (m : (ℓ : Loc nD τ sig) → Buf (Elt F) ℓ)

/-! ## What the point leaves -/

/-- What the last point leaves: both scratch buffers whole at their final contents, the own semaphores at zero, nothing owed,
    the input block in place and the result in the output's staging buffer. -/
def lastPost (c : Dev nD) (arg1 : Memref sig .tc .vmem S256x1024 .f32) (arg2 : Memref sig .tc .vmem S1x1024 .f32) : sProp 𝕄 :=
  iprop(Φend m c ∗ (∃ W, owes (c : Thread nD τ) 0 W)
    ∗ owns (c : Thread nD τ) arg1 fullShare (xblk m c t0_7) ∗ owns (c : Thread nD τ) arg2 fullShare (outF m c))

/-! ## The proof data at the last point -/

/-- The proof data at the last point, written out: the invariant before and after, what is owed before and after, what the
    two windows' staging buffers hold after, and that neither window is idle there. -/
theorem Φ_at7 (c : Dev nD) : (dats m 0 c).Φ t0_7.castSucc = Φmid m c 7 := by
  dsimp only [dats, t0_7, Fin.castSucc, Fin.castAdd, Fin.castLE]
theorem Φ_at8 (c : Dev nD) : (dats m 0 c).Φ t0_7.succ = Φend m c := by
  dsimp only [dats, t0_7, Fin.succ]
theorem owed_at7 (c : Dev nD) : (dats m 0 c).owed t0_7.castSucc = owedSend c 15 := by
  dsimp only [dats, t0_7, Fin.castSucc, Fin.castAdd, Fin.castLE]
theorem owed_at8 (c : Dev nD) : (dats m 0 c).owed t0_7.succ = 0 := by
  dsimp only [dats, t0_7, Fin.succ]
theorem after0_at7 (c : Dev nD) : (dats m 0 c).after 0 t0_7 = xblk m c t0_7 := by
  dsimp only [dats]
theorem after1_at7 (c : Dev nD) : (dats m 0 c).after 1 t0_7 = outF m c := by
  dsimp only [dats]
theorem idle0_at7 : cfg0.idle 0 (cfg0.grid.coords t0_7) = false := rfl
theorem idle1_at7 : cfg0.idle 1 (cfg0.grid.coords t0_7) = false := by decide +kernel
theorem cond1_at7 : ¬ k0_cond1 (grid0.coords t0_7) = 1#1 := by decide +kernel
theorem cond4_at7 : k0_cond4 (grid0.coords t0_7) = 1#1 := by decide +kernel
theorem idle1_at7' : idle0 1 (grid0.coords t0_7) = false := by decide +kernel
theorem idle0_at7' : idle0 0 (grid0.coords t0_7) = false := rfl

/-! ## Values: whole-buffer loads and stores, the accumulator and the result -/

omit [FloatOps F] in
theorem hz2_last : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
/-- A load of a whole buffer through the rectangle of its own sizes at zero offsets reads the buffer. -/
theorem isWhole_readAt {sp : Space} {s : Shape} {e : EltTy} {mm : Memref sig .tc sp s e} (h : mm.IsWhole) {off : Fin s.rank → Nat}
    (hoff : off = fun _ => 0) (inb : ∀ a, off a + s.size a ≤ s.size a) (f : mm.view.ty.Contents (Elt F)) :
    mm.view.readAt (Elt F) (Rect.unit off s.size inb).toLoadRect f = mm.view.read (Elt F) f := by
  obtain ⟨b, rfl, rfl, rfl, h⟩ := h; cases h
  exact Memref.readAt_unit_zero (Elt F) b hoff inb f

omit [FloatOps F] in
/-- A full store into a whole buffer through that rectangle leaves the stored value, whatever it held. -/
theorem isWhole_read_writes {sp : Space} {s : Shape} {e : EltTy} {mm : Memref sig .tc sp s e} (h : mm.IsWhole) {off : Fin s.rank → Nat}
    (hoff : off = fun _ => 0) (inb : ∀ a, off a + s.size a ≤ s.size a) (f : mm.view.ty.Contents (Elt F)) (w : s.Idx → Elt F e) :
    mm.view.read (Elt F) (mm.view.writes (Elt F) f [⟨Rect.unit off s.size inb, w⟩]) = w := by
  obtain ⟨b, rfl, rfl, rfl, h⟩ := h; cases h
  exact Memref.write_access_unit_zero_univ (Elt F) b hoff inb f w

theorem pt7 : pt 7 = t0_7 := by unfold pt; rw [dif_pos (by decide)]; rfl

/-- The accumulator after the last point's store: the block's column sums added to what it held. -/
theorem mine_val (c : Dev nD) (arg1 : Memref sig .tc .vmem S256x1024 .f32) (harg1 : arg1.IsWhole) (f1 : arg1.view.ty.Contents (Elt F))
    (hf1 : View.read (Elt F) arg1.view f1 = xblk m c t0_7) :
    (mineM : Memref sig .tc .vmem S1x1024 .f32).view.writes (Elt F) (acc m c (7 - 1))
      [⟨Rect.unit ![0, 0] S1x1024.size inb_S1x1024_S1x1024_0_0,
        k0_pay3 (View.readAt (Elt F) arg1.view (Rect.unit ![0, 0] S256x1024.size inb_S256x1024_S256x1024_0_0).toLoadRect f1)
          (View.readAt (Elt F) (mineM : Memref sig .tc .vmem S1x1024 .f32).view (Rect.unit ![0, 0] S1x1024.size inb_S1x1024_S1x1024_0_0).toLoadRect (acc m c (7 - 1)))⟩]
      = mineF m c := by
  rw [isWhole_readAt harg1 hz2_last, hf1, isWhole_readAt (mm := (mineM : Memref sig .tc .vmem S1x1024 .f32)) (Memref.isWhole_whole cc0_scratch0) hz2_last, View.writes_singleton]
  refine (Memref.write_access_unit_zero_univ (Elt F) cc0_scratch0 hz2_last inb_S1x1024_S1x1024_0_0 _ _).trans ?_
  unfold mineF
  show _ = k0_pay3 (xblk m c (pt 7)) (acc m c 6)
  rw [pt7]; rfl

/-- What the last point stores into the output's staging buffer: the device's accumulator plus the sum of the fifteen slots. -/
theorem out_val (c : Dev nD) (arg2 : Memref sig .tc .vmem S1x1024 .f32) (harg2 : arg2.IsWhole) (f2 : arg2.view.ty.Contents (Elt F)) :
    View.read (Elt F) arg2.view (arg2.view.writes (Elt F) f2
      [⟨Rect.unit ![0, 0] S1x1024.size inb_S1x1024_S1x1024_0_0,
        k0_pay4
          (View.readAt (Elt F) (mineM : Memref sig .tc .vmem S1x1024 .f32).view (Rect.unit ![0, 0] S1x1024.size inb_S1x1024_S1x1024_0_0).toLoadRect (mineF m c))
          (View.readAt (Elt F) (commM : Memref sig .tc .vmem S15x1x1024 .f32).view
            (Rect.unit ![0, 0, 0] S15x1x1024.size inb_S15x1x1024_S15x1x1024_0_0_0).toLoadRect (commF m c))⟩])
      = outF m c := by
  rw [isWhole_read_writes harg2 hz2_last, isWhole_readAt (mm := (mineM : Memref sig .tc .vmem S1x1024 .f32)) (Memref.isWhole_whole cc0_scratch0) hz2_last,
    isWhole_readAt (mm := (commM : Memref sig .tc .vmem S15x1x1024 .f32)) (Memref.isWhole_whole cc0_scratch1) hz3]
  rfl

/-! ## The fifteen-fold steps -/

set_option hygiene false in
open Lean in
/-- Transfer `d`: its share comes off what is left of the accumulator's buffer, and the transfer is started by its rule. -/
macro "xfer_step " d:num : tactic => do
  let n := d.getNat
  let id (s : String) : Ident := mkIdent (Name.mkSimple s)
  let devFn := id s!"k0_dev{16 + n}"
  let devLt := id s!"k0_dev{16 + n}_lt"
  let devEq := id s!"k0_dev{16 + n}_eq"
  let r := Syntax.mkNumLit (toString (14 - n))
  let Hs := id s!"Hs{14 - n}"
  let g := id s!"g{14 - n}"
  let Hsh := id s!"Hsh{n}"
  let HtS := id s!"HtS{n}"
  let HtR := id s!"HtR{n}"
  let HcS := id s!"HcS{n}"
  `(tactic| (
    ihave Hm := (mine_share (F := F) c $d (mineF m c)).1 $$ Hmine
    icases Hm with ⟨$Hsh:ident, Hmine⟩
    iapply (wp_send_peer m K c $d ⟨$devFn c, $devLt (grid0.coords t0_7) c h4⟩ (Fin.ext (($devEq c).trans rfl)) $g (owedSend c $r) _) $$ [$Hsh:ident $Hs:ident HO $HtS:ident $HtR:ident]
    · isplitr; · iexact Hrec
      isplitl [$Hsh:ident]; · iexact $Hsh:ident
      isplitl [$Hs:ident]; · iexact $Hs:ident
      isplitl [HO]; · iexact HO
      isplitl [$HtS:ident]; · iexact $HtS:ident
      iexact $HtR:ident
    iintro ⟨$HcS:ident, HO⟩))

set_option hygiene false in
open Lean in
/-- The records of the device's own receive cell `k`: its invariant, and that its round 0 is open. -/
macro "recv_facts " k:num : tactic => do
  let n := k.getNat
  let id (s : String) : Ident := mkIdent (Name.mkSimple s)
  let HIR := id s!"HIR{n}"
  let HRR := id s!"HRR{n}"
  `(tactic| (
    ihave #$HIR:ident := (inv_recv m K c $k) $$ Hrec
    ihave #$HRR:ident := (reached_recv m K c $k) $$ Hrec))

set_option hygiene false in
open Lean in
/-- The records of the device's own send cell `j`: its invariant, and that its round 0 is open. -/
macro "send_facts " j:num : tactic => do
  let n := j.getNat
  let id (s : String) : Ident := mkIdent (Name.mkSimple s)
  let HIS := id s!"HIS{n}"
  let HRS := id s!"HRS{n}"
  `(tactic| (
    ihave #$HIS:ident := (inv_send m K c $j) $$ Hrec
    ihave #$HRS:ident := (reached_send m K c $j) $$ Hrec))

set_option hygiene false in
open Lean in
/-- Share `d`, handed back by its send cell's round, goes back onto what is left of the accumulator's buffer. -/
macro "rejoin_pay " d:num : tactic => do
  let n := d.getNat
  let Hsh : Ident := mkIdent (Name.mkSimple s!"HpS{n}_pay1")
  `(tactic| (
    ihave Hmine := (mine_share (F := F) c $d (mineF m c)).2 $$ [$Hsh:ident Hmine]
    · unfold minePts
      isplitl [$Hsh:ident]; · iexact $Hsh:ident
      iexact Hmine))

/-! ## The body -/

-- the schedule's tables, as rewrites for the waits' steps
attribute [local sl_rounds] duties_bar duties_send duties_recv amount_bar amount_send amount_recv expect_bar expect_send expect_recv payload_bar payload_send payload_recv rest_bar rest_send rest_recv

set_option maxHeartbeats 1600000 in
/-- The body at the last point, on any whole staging buffers: from the invariant before the point, the receive credits owed,
    the input block in its staging buffer and the output's staging buffer at any contents, to `lastPost`. The waits are the
    rounds discipline's steps at the cells' recorded invariants; each transfer is started by its rule. -/
theorem body_last (c : Dev nD) (arg1 : Memref sig .tc .vmem S256x1024 .f32) (harg1 : arg1.IsWhole)
    (arg2 : Memref sig .tc .vmem S1x1024 .f32) (harg2 : arg2.IsWhole) (W : Waits sig Unit)
    (X2 : S1x1024.Idx → Elt F .f32) (Kt : PUnit → sProp 𝕄) :
    iprop(Φmid m c 7 ∗ owes (c : Thread nD τ) (owedSend c 15) W
        ∗ owns (c : Thread nD τ) arg1 fullShare (xblk m c t0_7) ∗ owns (c : Thread nD τ) arg2 fullShare X2
        ∗ (lastPost m c arg1 arg2 -∗ Kt ⟨⟩))
      ⊢ wp frame (wpE (defs₀ (F := F)) 𝒱₀ (c : Thread nD τ) none) Set.univ
          (cc0_body (grid0.coords t0_7) arg1 harg1 arg2 harg2 (Memref.whole cc0_scratch0) (Memref.isWhole_whole _)
            (Memref.whole cc0_scratch1) (Memref.isWhole_whole _) cc0_scratch2 cc0_scratch3) Kt := by
  simp only [cc0_body_eq_skeleton]; unfold cc0_body_skel
  unfold Φmid minePts owns creds posAll
  iintro ⟨⟨⟨%K, #Hrec, ⟨HpB, HpS, HpR⟩, Htok⟩, ⟨HcB, HcR⟩, #Hlev, Hmine⟩, HO, ⟨%f1, %hf1, Hx⟩, ⟨%f2, %hf2, Hy⟩, Hk⟩
  have h1 := cond1_at7
  have h4 := cond4_at7

  have hmw := mayWait_bar (F := F) c
  ihave #HIbar := (inv_bar m K c) $$ Hrec
  ihave #HRbar := (reached_bar m K c) $$ Hrec
  sl_exec
  ihave Hpay := (Entails.of_eq (bigSep_fin15 _)) $$ HpB_pay1
  unfold barPay
  icases Hpay with ⟨⟨⟨%g0, Hs0⟩, -⟩, ⟨⟨%g1, Hs1⟩, -⟩, ⟨⟨%g2, Hs2⟩, -⟩, ⟨⟨%g3, Hs3⟩, -⟩, ⟨⟨%g4, Hs4⟩, -⟩, ⟨⟨%g5, Hs5⟩, -⟩, ⟨⟨%g6, Hs6⟩, -⟩, ⟨⟨%g7, Hs7⟩, -⟩, ⟨⟨%g8, Hs8⟩, -⟩, ⟨⟨%g9, Hs9⟩, -⟩, ⟨⟨%g10, Hs10⟩, -⟩, ⟨⟨%g11, Hs11⟩, -⟩, ⟨⟨%g12, Hs12⟩, -⟩, ⟨⟨%g13, Hs13⟩, -⟩, ⟨%g14, Hs14⟩, -⟩

  ihave Hmine := (show _ ⊢ (minePts c (rst 0) (mineF m c) : sProp 𝕄) from
    Entails.of_eq (congrArg (fun g => ((mineM : Memref sig .tc .vmem S1x1024 .f32).view.loc (c : Thread nD τ) ↦[(mineM : Memref sig .tc .vmem S1x1024 .f32).view.set]{fullShare} g : sProp 𝕄)) (mine_val m c arg1 harg1 f1 hf1))) $$ Hmine
  unfold xferToks
  ihave Htok := (Entails.of_eq (bigSep_fin15 _)) $$ Htok
  icases Htok with ⟨⟨HtS0, HtR0⟩, ⟨HtS1, HtR1⟩, ⟨HtS2, HtR2⟩, ⟨HtS3, HtR3⟩, ⟨HtS4, HtR4⟩, ⟨HtS5, HtR5⟩, ⟨HtS6, HtR6⟩, ⟨HtS7, HtR7⟩, ⟨HtS8, HtR8⟩, ⟨HtS9, HtR9⟩, ⟨HtS10, HtR10⟩, ⟨HtS11, HtR11⟩, ⟨HtS12, HtR12⟩, ⟨HtS13, HtR13⟩, ⟨HtS14, HtR14⟩⟩
  xfer_step 0
  sl_exec
  xfer_step 1
  sl_exec
  xfer_step 2
  sl_exec
  xfer_step 3
  sl_exec
  xfer_step 4
  sl_exec
  xfer_step 5
  sl_exec
  xfer_step 6
  sl_exec
  xfer_step 7
  sl_exec
  xfer_step 8
  sl_exec
  xfer_step 9
  sl_exec
  xfer_step 10
  sl_exec
  xfer_step 11
  sl_exec
  xfer_step 12
  sl_exec
  xfer_step 13
  sl_exec
  xfer_step 14
  recv_facts 0
  recv_facts 1
  recv_facts 2
  recv_facts 3
  recv_facts 4
  recv_facts 5
  recv_facts 6
  recv_facts 7
  recv_facts 8
  recv_facts 9
  recv_facts 10
  recv_facts 11
  recv_facts 12
  recv_facts 13
  recv_facts 14
  ihave HcR := (Entails.of_eq (bigSep_fin15 _)) $$ HcR
  icases HcR with ⟨HcR0, HcR1, HcR2, HcR3, HcR4, HcR5, HcR6, HcR7, HcR8, HcR9, HcR10, HcR11, HcR12, HcR13, HcR14⟩
  ihave HpR := (Entails.of_eq (bigSep_fin15 _)) $$ HpR
  icases HpR with ⟨HpR0, HpR1, HpR2, HpR3, HpR4, HpR5, HpR6, HpR7, HpR8, HpR9, HpR10, HpR11, HpR12, HpR13, HpR14⟩
  sl_exec

  ihave Hcomm := ((Entails.of_eq (bigSep_fin15 (fun k => recvPay m c k)).symm).trans (comm_join m c)) $$ [HpR0_pay1 HpR1_pay1 HpR2_pay1 HpR3_pay1 HpR4_pay1 HpR5_pay1 HpR6_pay1 HpR7_pay1 HpR8_pay1 HpR9_pay1 HpR10_pay1 HpR11_pay1 HpR12_pay1 HpR13_pay1 HpR14_pay1]
  · isplitl [HpR0_pay1]; · iexact HpR0_pay1
    isplitl [HpR1_pay1]; · iexact HpR1_pay1
    isplitl [HpR2_pay1]; · iexact HpR2_pay1
    isplitl [HpR3_pay1]; · iexact HpR3_pay1
    isplitl [HpR4_pay1]; · iexact HpR4_pay1
    isplitl [HpR5_pay1]; · iexact HpR5_pay1
    isplitl [HpR6_pay1]; · iexact HpR6_pay1
    isplitl [HpR7_pay1]; · iexact HpR7_pay1
    isplitl [HpR8_pay1]; · iexact HpR8_pay1
    isplitl [HpR9_pay1]; · iexact HpR9_pay1
    isplitl [HpR10_pay1]; · iexact HpR10_pay1
    isplitl [HpR11_pay1]; · iexact HpR11_pay1
    isplitl [HpR12_pay1]; · iexact HpR12_pay1
    isplitl [HpR13_pay1]; · iexact HpR13_pay1
    iexact HpR14_pay1
  send_facts 0
  send_facts 1
  send_facts 2
  send_facts 3
  send_facts 4
  send_facts 5
  send_facts 6
  send_facts 7
  send_facts 8
  send_facts 9
  send_facts 10
  send_facts 11
  send_facts 12
  send_facts 13
  send_facts 14
  ihave HpS := (Entails.of_eq (bigSep_fin15 _)) $$ HpS
  icases HpS with ⟨HpS0, HpS1, HpS2, HpS3, HpS4, HpS5, HpS6, HpS7, HpS8, HpS9, HpS10, HpS11, HpS12, HpS13, HpS14⟩
  unfold commPts minePts
  sl_exec
  unfold sendPay minePts
  rejoin_pay 14
  rejoin_pay 13
  rejoin_pay 12
  rejoin_pay 11
  rejoin_pay 10
  rejoin_pay 9
  rejoin_pay 8
  rejoin_pay 7
  rejoin_pay 6
  rejoin_pay 5
  rejoin_pay 4
  rejoin_pay 3
  rejoin_pay 2
  rejoin_pay 1
  rejoin_pay 0
  ihave Hmine := (show (minePts c (rst 0) (mineF m c) : sProp 𝕄) ⊢ minePts c fullShare (mineF m c) from BI.Entails.refl _) $$ Hmine
  ihave HpS := (Entails.of_eq (bigSep_fin15 (fun j : Fin 15 => (atPos ER (sendCell c j) 1 ∅ 0 : sProp 𝕄))).symm) $$ [HpS0 HpS1 HpS2 HpS3 HpS4 HpS5 HpS6 HpS7 HpS8 HpS9 HpS10 HpS11 HpS12 HpS13 HpS14]
  · isplitl [HpS0]; · iexact HpS0
    isplitl [HpS1]; · iexact HpS1
    isplitl [HpS2]; · iexact HpS2
    isplitl [HpS3]; · iexact HpS3
    isplitl [HpS4]; · iexact HpS4
    isplitl [HpS5]; · iexact HpS5
    isplitl [HpS6]; · iexact HpS6
    isplitl [HpS7]; · iexact HpS7
    isplitl [HpS8]; · iexact HpS8
    isplitl [HpS9]; · iexact HpS9
    isplitl [HpS10]; · iexact HpS10
    isplitl [HpS11]; · iexact HpS11
    isplitl [HpS12]; · iexact HpS12
    isplitl [HpS13]; · iexact HpS13
    iexact HpS14
  ihave HpR := (Entails.of_eq (bigSep_fin15 (fun k : Fin 15 => (atPos ER (recvCell c k) 1 ∅ 0 : sProp 𝕄))).symm) $$ [HpR0 HpR1 HpR2 HpR3 HpR4 HpR5 HpR6 HpR7 HpR8 HpR9 HpR10 HpR11 HpR12 HpR13 HpR14]
  · isplitl [HpR0]; · iexact HpR0
    isplitl [HpR1]; · iexact HpR1
    isplitl [HpR2]; · iexact HpR2
    isplitl [HpR3]; · iexact HpR3
    isplitl [HpR4]; · iexact HpR4
    isplitl [HpR5]; · iexact HpR5
    isplitl [HpR6]; · iexact HpR6
    isplitl [HpR7]; · iexact HpR7
    isplitl [HpR8]; · iexact HpR8
    isplitl [HpR9]; · iexact HpR9
    isplitl [HpR10]; · iexact HpR10
    isplitl [HpR11]; · iexact HpR11
    isplitl [HpR12]; · iexact HpR12
    isplitl [HpR13]; · iexact HpR13
    iexact HpR14
  imod (close_sends m K c) $$ [HpS] with HzS
  · isplitr; · iexact Hrec
    iexact HpS
  imod (close_recvs m K c) $$ [HpR] with HzR
  · isplitr; · iexact Hrec
    iexact HpR
  sl_step
  iapply Hk
  unfold lastPost Φend owns minePts commPts
  isplitl [Hmine Hcomm HzS HzR]
  · isplitl [Hmine]; · iexact Hmine
    isplitl [Hcomm]; · iexact Hcomm
    isplitl [HzS]; · iexact HzS
    iexact HzR
  isplitl [HO]
  · iexists _; iexact HO
  isplitl [Hx]
  · iexists f1; isplitr; · (ipureintro; exact hf1)
    iexact Hx
  iexists _; isplitr
  · ipureintro; exact out_val m c arg2 harg2 f2
  iexact Hy

/-! ## The obligation -/

theorem before_in_last (c : Dev nD) (d) : (dats m 0 c).before 0 t0_7 d = xblk m c t0_7 := by
  unfold Dat.before; rw [if_pos (fetch0_0 t0_7)]
  rfl

/-- The obligation at the last point: the body lemma at the staging buffers the pipeline hands over there. -/
theorem oblig_last (c : Dev nD) : ObligAt m c t0_7 := by
  unfold ObligAt
  rw [Gen.bigSep_W0, Gen.bigSep_W0]
  unfold Dat.owesAt Pipeline.owesWithin
  rw [idle0_at7, idle1_at7, Φ_at7, owed_at7, Φ_at8, owed_at8, after0_at7, after1_at7]
  iintro ⟨HΦ, ⟨%W, %hW, HO⟩, ⟨%d0, Hx⟩, ⟨%d1, Hy⟩⟩
  rw [before_in_last]
  iapply (body_last m c ((cfg0.win 0).stage (cfg0.slots t0_7 0)) (hstage0_0 ((cfg0.slots t0_7 0).cast nbuf0_0)) ((cfg0.win 1).stage (cfg0.slots t0_7 1)) (hstage0_1 ((cfg0.slots t0_7 1).cast nbuf0_1)) W _ _)
  isplitl [HΦ]; · iexact HΦ
  isplitl [HO]; · iexact HO
  isplitl [Hx]; · iexact Hx
  isplitl [Hy]; · iexact Hy
  unfold lastPost
  iintro ⟨HΦ, ⟨%W', HO⟩, Hx, Hy⟩
  isplitl [HΦ]; · iexact HΦ
  isplitl [HO]
  · iexists W'; isplitr; · (ipureintro; exact fun _ _ => Or.inl trivial)
    iexact HO
  isplitl [Hx]; · iexact Hx
  iexact Hy

/-- info: 'Cert.KernelIdeal.Hand.oblig_last' depends on axioms: [propext, Classical.choice, Quot.sound] -/
#guard_msgs in #print axioms oblig_last

end Cert.KernelIdeal.Hand

end
-- ==== Proof.KernelIdeal.Launch.lean ====
/-
  The launch: from "every device's body meets its obligation at every grid point" to the run of the whole program.

  The exchange's ghost state is funded once for all sixteen devices: thirty-one cells a device (its barrier cell, fifteen
  send cells, fifteen receive cells), each opened at round 0 with its owner's position, and forty-five duty tokens a
  device. The tokens are minted at the cells' owners and dealt to the payers: duty `d` of a barrier cell goes to the
  device `d + 1` places before its owner, the token of receive cell `k` to the device `k + 1` places after its owner, a
  send cell's token stays. Every device `p` owes one unit to the barrier cell of each other device and a row's credit to
  one receive cell of each other device; summed over `p`, each barrier cell is owed fifteen units and each receive cell
  one row's credit, which is the credit the launch deals the cells' owners.
-/
import proofs.«901083_g7700000000001084_dist_sum_ax0_shard0_i_m2048_n1024_v7x_i16_bf16_1_alg».proof.Proof.KernelIdeal.Oblig
import Mathlib.Algebra.BigOperators.Group.Finset.Basic
import Mathlib.Algebra.BigOperators.Group.Finset.Sigma
import Mathlib.Algebra.BigOperators.Fin
import Mathlib.Logic.Equiv.Defs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-! ## The kernel's own semaphores: the fifteen send and the fifteen receive semaphores -/

abbrev osem : Fin 15 ⊕ Fin 15 → SemLoc sig
  | .inl j => .dma (sendSem j)
  | .inr k => .dma (recvSem k)

theorem ownSemFacts : Pipeline.OwnSemFacts cfg0.spec osem where
  isScoped := by
    rintro (j | k)
    · revert j; decide
    · revert k; decide
  inj := by
    rintro (a | a) (b | b) h
    · exact congrArg Sum.inl (sendSem_inj (SemLoc.dma.inj h))
    · exact absurd (SemLoc.dma.inj h) (sendSem_ne_recvSem a b)
    · exact absurd (SemLoc.dma.inj h).symm (sendSem_ne_recvSem b a)
    · exact congrArg Sum.inr (recvSem_inj (SemLoc.dma.inj h))
  disj := by
    rintro (j | k)
    · revert j; decide
    · revert k; decide

theorem share_eq (c : Dev nD) (w : Fin cfg0.W) : (dats m 0 c).share w = fullShare := by unfold Dat.share; split <;> rfl

/-! ## The ring's bijections -/

/-- Stepping `d + 1` places round the ring is a bijection of the devices; stepping `(14 - d) + 1` places undoes it. -/
def peerE (d : Fin 15) : Dev nD ≃ Dev nD := ⟨fun c => peer c d, fun c => peer c (rev d), fun c => peer_peer_rev c d, fun c => peer_rev_peer c d⟩
/-- The mirror of the offsets. -/
def revE : Fin 15 ≃ Fin 15 := ⟨rev, rev, rev_rev, rev_rev⟩

/-! ## The cells and tokens of the exchange -/

theorem kcell_injective : Function.Injective (kcell : Dev nD × Fin 31 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

theorem kcell_send (c : Dev nD) (j : Fin 15) : kcell (c, sendI j) = sendCell c j :=
  show ((c : Thread nD τ), csem (sendI j)) = ((c : Thread nD τ), SemLoc.dma (sendSem j)) from congrArg _ (csem_send j)
theorem kcell_recv (c : Dev nD) (k : Fin 15) : kcell (c, recvI k) = recvCell c k :=
  show ((c : Thread nD τ), csem (recvI k)) = ((c : Thread nD τ), SemLoc.dma (recvSem k)) from congrArg _ (csem_recv k)

/-- The thirty-one cell numbers: the barrier's, the send cells', the receive cells'. -/
def cellIx : Unit ⊕ (Fin 15 ⊕ Fin 15) → Fin 31
  | .inl _ => barI
  | .inr (.inl j) => sendI j
  | .inr (.inr k) => recvI k
theorem cellIx_bijective : Function.Bijective cellIx := by decide
def cellE : Unit ⊕ (Fin 15 ⊕ Fin 15) ≃ Fin 31 := Equiv.ofBijective cellIx cellIx_bijective

omit [FloatOps F] in
theorem bigSep_fin31 (Φ : Fin 31 → sProp 𝕄) :
    bigSep Finset.univ Φ = iprop(Φ barI ∗ (bigSep Finset.univ fun j : Fin 15 => Φ (sendI j)) ∗ bigSep Finset.univ fun k : Fin 15 => Φ (recvI k)) := by
  rw [bigSep_univ_equiv cellE Φ, bigSep_univ_sum, bigSep_univ_sum, bigSep_univ_of_subsingleton ()]
  rfl

omit [FloatOps F] in
/-- Anything said of a device's thirty-one cells, cell kind by cell kind. -/
theorem bigSep_kcells (c : Dev nD) (Φ : GSem nD τ sig → sProp 𝕄) :
    (bigSep Finset.univ fun k : Fin 31 => Φ (kcell (c, k)))
      = iprop(Φ (barCell c) ∗ (bigSep Finset.univ fun j : Fin 15 => Φ (sendCell c j)) ∗ bigSep Finset.univ fun k : Fin 15 => Φ (recvCell c k)) := by
  rw [bigSep_fin31]; simp only [kcell_send, kcell_recv]; rfl

/-- The duty tokens as minted, at the cells' owners: a barrier cell's fifteen, a send cell's one, a receive cell's one. -/
abbrev tokOf (cj : Dev nD × (Fin 15 ⊕ (Fin 15 ⊕ Fin 15))) : GSem nD τ sig × ℕ × Fin 15 := match cj.2 with
  | .inl d => (barCell cj.1, 0, d)
  | .inr (.inl j) => (sendCell cj.1 j, 0, 0)
  | .inr (.inr k) => (recvCell cj.1 k, 0, 0)

theorem tokOf_injective : Function.Injective (tokOf : Dev nD × (Fin 15 ⊕ (Fin 15 ⊕ Fin 15)) → GSem nD τ sig × ℕ × Fin 15) := by
  rintro ⟨c, j⟩ ⟨c', j'⟩ h
  have h1 : c = c' := by
    have := congrArg (fun x : GSem nD τ sig × ℕ × Fin 15 => x.1.1.1) h
    rcases j with d | j | k <;> rcases j' with d' | j' | k' <;> exact this
  subst h1
  have hs := congrArg (fun x : GSem nD τ sig × ℕ × Fin 15 => x.1.2) h
  have hd := congrArg (fun x : GSem nD τ sig × ℕ × Fin 15 => x.2.2) h
  rcases j with d | j | k <;> rcases j' with d' | j' | k'
  · have : d = d' := hd
    rw [this]
  · have : (SemLoc.reg barS : SemLoc sig) = .dma (sendSem j') := hs
    cases this
  · have : (SemLoc.reg barS : SemLoc sig) = .dma (recvSem k') := hs
    cases this
  · have : (SemLoc.dma (sendSem j) : SemLoc sig) = .reg barS := hs
    cases this
  · have : (SemLoc.dma (sendSem j) : SemLoc sig) = .dma (sendSem j') := hs
    rw [sendSem_inj (SemLoc.dma.inj this)]
  · have : (SemLoc.dma (sendSem j) : SemLoc sig) = .dma (recvSem k') := hs
    exact absurd (SemLoc.dma.inj this) (sendSem_ne_recvSem j k')
  · have : (SemLoc.dma (recvSem k) : SemLoc sig) = .reg barS := hs
    cases this
  · have : (SemLoc.dma (recvSem k) : SemLoc sig) = .dma (sendSem j') := hs
    exact absurd (SemLoc.dma.inj this).symm (sendSem_ne_recvSem j' k)
  · have : (SemLoc.dma (recvSem k) : SemLoc sig) = .dma (recvSem k') := hs
    rw [recvSem_inj (SemLoc.dma.inj this)]
def ringToks : Finset (GSem nD τ sig × ℕ × Fin 15) := Finset.univ.map ⟨tokOf, tokOf_injective⟩

/-- The launch element: the pipeline's staging cells beside the exchange's cells and tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 15 => dutyTok ER (barCell c) 0 d)
    ∗ (bigSep Finset.univ fun j : Fin 15 => dutyTok ER (sendCell c j) 0 0)
    ∗ bigSep Finset.univ fun k : Fin 15 => dutyTok ER (recvCell c k) 0 0)

/-- What the launch element deals device `c`: its cells' round states, its positions and marks, its cells' tokens. -/
def G (c : Dev nD) : sProp 𝕄 :=
  iprop((bigSep Finset.univ fun k : Fin 31 => roundState ER (ringRd m) (kcell (c, k)) 0)
    ∗ (bigSep Finset.univ fun k : Fin 31 => iprop(atPos ER (kcell (c, k)) 0 ∅ 0 ∗ reached ER (kcell (c, k)) 0)) ∗ toks c)

/-- What the global step makes of it: the records, the device's positions, and the tokens of the duties it pays. -/
def G' (c : Dev nD) : sProp 𝕄 := iprop(∃ K, records m K ∗ posAll c ∗ sigToks c ∗ xferToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The send and receive semaphores are the kernel's own thirty; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun k : Fin 15 => semVal (recvCell c k) 0) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [ownSems0_eq, unscopedSems0_eq, bigSep_kcells c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 31 => iprop(∃ κ : ℕ, cellInv ER (ringRd m) κ (kcell (c, k))))
          ∗ (bigSep Finset.univ fun k : Fin 31 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (ringRd m) (kcell (c, k)) 0)
      ⊢ (|={Set.univ}=> bigSep Finset.univ fun k : Fin 31 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(posAll c ∗ sigToks c ∗ xferToks c)

theorem ghost_intro (K : Dev nD × Fin 31 → ℕ) (c : Dev nD) : iprop(records m K ∗ linear c) ⊢ G' m c := by
  unfold linear G'
  iintro ⟨HR, HL⟩
  iexists K
  isplitl [HR] <;> iassumption

omit [FloatOps F] in
/-- Dealing round the ring: what is indexed by (owner, offset) is, device by device, what is indexed by (the device
    the offset's number of places before the owner, offset). -/
theorem deal (Φ : Dev nD → Fin 15 → sProp 𝕄) :
    (bigSep Finset.univ fun t : Dev nD => bigSep Finset.univ fun d : Fin 15 => Φ t d)
      = bigSep Finset.univ fun c : Dev nD => bigSep Finset.univ fun d : Fin 15 => Φ (peer c d) d := by
  rw [bigSep_univ_comm (fun t d => Φ t d), bigSep_univ_comm (fun c d => Φ (peer c d) d)]
  exact bigSep_congr fun d _ => bigSep_univ_equiv (peerE d) (fun t => Φ t d)

omit [FloatOps F] in
/-- The tokens dealt: duty `d` of a barrier cell to the device whose signal `d` targets it, a receive cell's token to the
    device whose transfer lands in it, a send cell's token to its owner. -/
theorem toks_around : (bigSep Finset.univ fun c : Dev nD => (toks c : sProp 𝕄)) ⊢ bigSep Finset.univ fun c : Dev nD => iprop(sigToks c ∗ xferToks c) := by
  have h1 : (bigSep Finset.univ fun t : Dev nD => bigSep Finset.univ fun d : Fin 15 => (dutyTok ER (barCell t) 0 d : sProp 𝕄))
      = bigSep Finset.univ fun c : Dev nD => sigToks c := deal (fun t d => dutyTok ER (barCell t) 0 d)
  have h3 : (bigSep Finset.univ fun t : Dev nD => bigSep Finset.univ fun k : Fin 15 => (dutyTok ER (recvCell t k) 0 0 : sProp 𝕄))
      = bigSep Finset.univ fun c : Dev nD => bigSep Finset.univ fun d : Fin 15 => (dutyTok ER (recvCell (peer c d) (rev d)) 0 0 : sProp 𝕄) :=
    (bigSep_congr fun (t : Dev nD) _ => bigSep_univ_equiv revE (fun k : Fin 15 => (dutyTok ER (recvCell t k) 0 0 : sProp 𝕄))).trans
      (deal (fun t d => dutyTok ER (recvCell t (rev d)) 0 0))
  unfold toks xferToks
  rw [bigSep_sep', bigSep_sep', bigSep_sep', h1, h3,
    bigSep_congr (s := Finset.univ) (fun (c : Dev nD) _ => bigSep_sep' Finset.univ (fun d : Fin 15 => (dutyTok ER (sendCell c d) 0 0 : sProp 𝕄)) (fun d => dutyTok ER (recvCell (peer c d) (rev d)) 0 0)),
    bigSep_sep']

theorem regroup :
    (bigSep Finset.univ fun c : Dev nD => iprop((bigSep Finset.univ fun k : Fin 31 => iprop(∃ κ : ℕ, cellInv ER (ringRd m) κ (kcell (c, k))))
          ∗ (bigSep Finset.univ fun k : Fin 31 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 31 => iprop(∃ κ : ℕ, cellInv ER (ringRd m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 31 => (atPos ER (kcell (c, k)) 0 ∅ 0 : sProp 𝕄)) (fun c => iprop(sigToks c ∗ xferToks c))).symm).trans
      (bigSep_mono fun c _ => show _ ⊢ linear c from Entails.of_eq (by unfold linear posAll; rw [bigSep_kcells c (fun g => atPos ER g 0 ∅ 0)])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem off_val (d : Fin 15) : off d.val = d := Fin.ext (Nat.mod_eq_of_lt d.isLt)

omit [FloatOps F] in
theorem owedSend_eq (p : Dev nD) (n : ℕ) : owedSend p n = ∑ i ∈ Finset.range n, sendTally p (14 - i) := by
  induction n with
  | zero => rfl
  | succ k ih => rw [Finset.sum_range_succ, ← ih]; rfl
omit [FloatOps F] in
theorem owedSig_eq (p : Dev nD) (n : ℕ) : owedSig p n = owedSend p 15 + ∑ i ∈ Finset.range n, sigTally p (14 - i) := by
  induction n with
  | zero => rw [Finset.sum_range_zero, add_zero]; rfl
  | succ k ih => rw [Finset.sum_range_succ, ← add_assoc, ← ih]; rfl

omit [FloatOps F] in
/-- What device `p` owes at launch: for every offset `d`, a row's credit on receive cell `14 - d` of the device `d + 1` places on,
    and a unit on that device's barrier cell. -/
theorem O₀_eq (p : Dev nD) :
    O₀ p = (∑ d : Fin 15, tallyAt (recvCell (peer p d) (rev d)) () N) + ∑ d : Fin 15, tallyAt (barCell (peer p d)) () 1 := by
  have hS : (∑ i ∈ Finset.range 15, sendTally p (14 - i)) = ∑ d : Fin 15, tallyAt (recvCell (peer p d) (rev d)) () N := by
    rw [Finset.sum_range (fun i => sendTally p (14 - i))]
    rw [← Equiv.sum_comp revE (fun d : Fin 15 => (tallyAt (recvCell (peer p d) (rev d)) () N : CellTallies nD τ sig Unit))]
    refine Finset.sum_congr rfl fun i _ => ?_
    show sendTally p (rev i).val = _
    unfold sendTally; rw [off_val]; rfl
  have hG : (∑ i ∈ Finset.range 15, sigTally p (14 - i)) = ∑ d : Fin 15, tallyAt (barCell (peer p d)) () 1 := by
    rw [Finset.sum_range (fun i => sigTally p (14 - i))]
    rw [← Equiv.sum_comp revE (fun d : Fin 15 => (tallyAt (barCell (peer p d)) () 1 : CellTallies nD τ sig Unit))]
    refine Finset.sum_congr rfl fun i _ => ?_
    show sigTally p (rev i).val = _
    unfold sigTally; rw [off_val]; rfl
  unfold O₀; rw [owedSig_eq, owedSend_eq, hS, hG]

omit [FloatOps F] in
theorem nsmul_tallyAt (g : GSem nD τ sig) (n : ℕ) : n • (tallyAt g () 1 : CellTallies nD τ sig Unit) = tallyAt g () n := by
  induction n with
  | zero => rw [zero_smul, tallyAt_zero]
  | succ k ih => rw [succ_nsmul, ih, tallyAt_add]

/-- The credit device `c` waits with: fifteen units on its barrier cell, a row's credit on each receive cell. -/
def T₀ (c : Dev nD) : CellTallies nD τ sig Unit := tallyAt (barCell c) () 15 + ∑ k : Fin 15, tallyAt (recvCell c k) () N

omit [FloatOps F] in
/-- Summed over the devices, what is owed is what is waited for. -/
theorem owed_total : (∑ p : Dev nD, O₀ p) = ∑ c : Dev nD, T₀ c := by
  have hR : (∑ p : Dev nD, ∑ d : Fin 15, (tallyAt (recvCell (peer p d) (rev d)) () N : CellTallies nD τ sig Unit))
      = ∑ c : Dev nD, ∑ k : Fin 15, tallyAt (recvCell c k) () N := by
    rw [Finset.sum_comm, Finset.sum_comm (f := fun (c : Dev nD) (k : Fin 15) => (tallyAt (recvCell c k) () N : CellTallies nD τ sig Unit)),
      ← Equiv.sum_comp revE (fun k : Fin 15 => ∑ c : Dev nD, (tallyAt (recvCell c k) () N : CellTallies nD τ sig Unit))]
    exact Finset.sum_congr rfl fun d _ => Equiv.sum_comp (peerE d) (fun c : Dev nD => (tallyAt (recvCell c (rev d)) () N : CellTallies nD τ sig Unit))
  have hB : (∑ p : Dev nD, ∑ d : Fin 15, (tallyAt (barCell (peer p d)) () 1 : CellTallies nD τ sig Unit))
      = ∑ c : Dev nD, tallyAt (barCell c) () 15 := by
    rw [Finset.sum_comm]
    refine (Finset.sum_congr rfl fun (d : Fin 15) _ =>
      Equiv.sum_comp (peerE d) (fun c : Dev nD => (tallyAt (barCell c) () 1 : CellTallies nD τ sig Unit))).trans ?_
    rw [Finset.sum_comm]
    exact Finset.sum_congr rfl fun c _ => by rw [Finset.sum_const, Finset.card_univ, Fintype.card_fin, nsmul_tallyAt]
  unfold T₀
  rw [Finset.sum_congr rfl fun p _ => O₀_eq p, Finset.sum_add_distrib, Finset.sum_add_distrib, hR, hB, add_comm]

omit [FloatOps F] in
theorem T₀_own (d : Dev nD) (g : GSem nD τ sig) (h : T₀ d g ≠ 0) : g.1 = (d : Thread nD τ) := by
  by_contra hne
  refine h ?_
  unfold T₀
  rw [Pi.add_apply, Finset.sum_apply, tallyAt_ne_cell (fun e => hne (congrArg Prod.fst e)),
    Finset.sum_eq_zero fun k _ => tallyAt_ne_cell (fun e => hne (congrArg Prod.fst e)) () N, add_zero]

omit [FloatOps F] in
theorem creds_intro (c : Dev nD) : (Pipeline.launchCred O₀ c : sProp 𝕄) ⊢ creds c := by
  rw [Pipeline.launchCred_of_sum O₀ T₀ owed_total T₀_own c]
  unfold T₀ creds
  refine (cred_add _ _).1.trans (sep_mono_right ?_)
  rw [Pipeline.cred_finsetSum]

/-! ## The launch theorem's side conditions -/

/-- What a device holds between the global step and its first point, apart from the scratch buffers. -/
def X (c : Dev nD) : sProp 𝕄 := iprop(G' m c ∗ creds c ∗ levAts L lv)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  iintro ⟨-, Hlev, Hcr, -, HG⟩
  ihave Hc := (creds_intro (F := F) c) $$ Hcr
  imodintro
  unfold X
  isplitl
  · isplitl [HG]; · iexact HG
    isplitl [Hc]; · iexact Hc
    iexact Hlev
  · iempintro

omit [FloatOps F] in
theorem minePts_eq (c : Dev nD) (f : Buf (Elt F) ((c : Thread nD τ).loc cc0_scratch0)) :
    minePts c fullShare f = (((c : Thread nD τ).loc cc0_scratch0) ↦{fullShare} f : sProp 𝕄) := by unfold minePts; rw [View.set_whole]
omit [FloatOps F] in
theorem commPts_eq (c : Dev nD) (f : Buf (Elt F) ((c : Thread nD τ).loc cc0_scratch1)) :
    commPts c f = (((c : Thread nD τ).loc cc0_scratch1) ↦{fullShare} f : sProp 𝕄) := by unfold commPts; rw [View.set_whole]

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X G'
  iintro ⟨⟨HG, Hc, Hl⟩, -, ⟨%f, Hm⟩, ⟨%g, Hk⟩⟩
  isplitl [HG]; · iexact HG
  isplitl [Hc]; · iexact Hc
  isplitl [Hl]; · iexact Hl
  isplitl [Hm]
  · iexists f; rw [minePts_eq]; iexact Hm
  · iexists g; rw [commPts_eq]; iexact Hk

theorem phiN_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φend m c from rfl, scopedRest0_eq, ownSems0_eq]
  unfold Φend
  iintro ⟨Hm, Hk, HzS, HzV⟩
  isplitr; · iempintro
  isplitl [HzS HzV]
  · isplitl [HzS] <;> iassumption
  isplitl [Hm]
  · iexists (mineF m c); rw [← minePts_eq]; iexact Hm
  · iexists (commF m c); rw [← commPts_eq]; iexact Hk

/-- The pipeline's waits on its staging cells: allowed at every point, whatever of the launch debts is still owed. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _ | _ | _ | _ | _ | _ | _ | n, ht⟩
      · exact Or.inl rfl
      · exact Or.inr (Or.inl rfl)
      · exact Or.inr (Or.inl rfl)
      · exact Or.inr (Or.inl rfl)
      · exact Or.inr (Or.inl rfl)
      · exact Or.inr (Or.inl rfl)
      · exact Or.inr (Or.inl rfl)
      · exact Or.inr (Or.inl rfl)
      · exact Or.inr (Or.inr rfl))

/-! ## The run -/

set_option maxRecDepth 8000 in
/-- At the compiled mesh of sixteen devices, for any float values, from any memory with zero counters: if every device's body
    meets its obligation at every grid point, every weakly fair execution of the program terminates, and every final state has
    each device's arrays at the contents the proof data computes. -/
theorem run_main (ρ : Dev nD → PrngReg) (hbody : ∀ c t, ObligAt m c t) :
    θ_run (defs (F := F)) (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => bodyObligation_of m c (hbody c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := X m) (Y := fun _ => iprop(emp)) (Z := fun _ => iprop(emp))
    (hX := start_intro m ρ) (hin := phi0_intro m) (hout := phiN_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

end Cert.KernelIdeal.Hand

end
-- ==== Proof.KernelIdeal.Final.lean ====
/-
  The final arrays, read off the pipeline's proof data.

  The input window's array is never written back, so after the last point it is the device's argument array as
  launched. The output window's block is the whole one-row array at every point and is written back at the last point
  only: the array stays as launched through the first seven points, and the last write-back overwrites all of it with
  what the body left there, the device's result.
-/
import proofs.«901083_g7700000000001084_dist_sum_ax0_shard0_i_m2048_n1024_v7x_i16_bf16_1_alg».proof.Proof.KernelIdeal.Data
import Idealize.ShloMosaic.Lib.Pipeline.Cells
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The input window's array is never written: after the last point it is the device's array as launched. -/
theorem arr_in (c : Dev nD) : (dats m 0 c).arrAt (0 : Fin 2) cfg0.N = m ((c : Thread nD τ).loc main_arg0) :=
  (dats m 0 c).arrAt_in 0 rfl cfg0.N

/-- The output window is written back at the last point only: below it the array is as launched. -/
theorem arr_out_keep (c : Dev nD) : ∀ n, n ≤ 7 → (dats m 0 c).arrAt (1 : Fin 2) n = (dats m 0 c).A 1
  | 0, _ => rfl
  | n + 1, h => by
    have hn : n < cfg0.N := by show n < grid0.N; rw [N_0]; omega
    refine ((dats m 0 c).arrAt_succ 1 ⟨n, hn⟩).trans ?_
    have hf : (cfg0.win 1).flush ⟨n, hn⟩ = false := by
      cases hb : (cfg0.win 1).flush ⟨n, hn⟩ with
      | false => rfl
      | true => exact absurd ((flush0_1 ⟨n, hn⟩).mp hb) (by show ¬ n % 8 = 7; omega)
    rw [hf, if_neg Bool.false_ne_true]
    exact arr_out_keep c n (by omega)

/-- The output window's index map, decided over the grid: every point's block is block (0, 0). -/
theorem index_out : ∀ (t : Fin cfg0.N) (a : Fin 2), win0_1.index t a = 0 :=
  (by decide +kernel : ∀ (t : Fin grid0.N) (a : Fin 2), _)

/-- After the last point the output array holds the result: the last point's write-back covers the whole array. -/
theorem arr_out (c : Dev nD) : (dats m 0 c).arrAt (1 : Fin 2) cfg0.N = outF m c := by
  have h7 : 7 < cfg0.N := by show 7 < grid0.N; rw [N_0]; decide
  have h8 : cfg0.N = 7 + 1 := N_0
  refine (congrArg ((dats m 0 c).arrAt 1) h8).trans (((dats m 0 c).arrAt_succ 1 ⟨7, h7⟩).trans ?_)
  rw [if_pos ((flush0_1 ⟨7, h7⟩).mpr rfl)]
  generalize (dats m 0 c).arrAt 1 (⟨7, h7⟩ : Fin cfg0.N).val = prev
  have hz : (fun a => win0_1.index ⟨7, h7⟩ a * S1x1024.size a) = fun _ => 0 :=
    funext fun a => by rw [(index_out ⟨7, h7⟩ a)]; exact Nat.zero_mul _
  have key : ∀ G : Buf (Elt F) ((cfg0.win 1).arr.view.loc (c : Thread nD τ)),
      ((cfg0.win 1).blk ⟨7, h7⟩).view.read (Elt F) G = G := fun G =>
    Memref.read_access_unit_zero (Elt F) main_v1 hz _ G
  refine (key _).symm.trans ?_
  refine (View.read_write_univ _ _).trans ?_
  rfl

end Cert.KernelIdeal.Hand

end

/-- info: 'Cert.KernelIdeal.Hand.arr_out' depends on axioms: [propext, Classical.choice, Quot.sound] -/
#guard_msgs in #print axioms Cert.KernelIdeal.Hand.arr_out
/-- info: 'Cert.KernelIdeal.Hand.arr_in' depends on axioms: [propext, Classical.choice, Quot.sound] -/
#guard_msgs in #print axioms Cert.KernelIdeal.Hand.arr_in
-- ==== Proof.KernelIdeal.Run.lean ====
/-
  The kernel's run, with values: every device ends with the whole sum in its result array and its block of the argument
  unchanged.

  Each device's body meets the pipeline's obligation at every one of the eight points; the launch turns that into a run of
  all sixteen devices together; the final arrays read off the pipeline's data are the result and the argument.
-/
import proofs.«901083_g7700000000001084_dist_sum_ax0_shard0_i_m2048_n1024_v7x_i16_bf16_1_alg».proof.Proof.KernelIdeal.BodyEarly
import proofs.«901083_g7700000000001084_dist_sum_ax0_shard0_i_m2048_n1024_v7x_i16_bf16_1_alg».proof.Proof.KernelIdeal.BodyLast
import proofs.«901083_g7700000000001084_dist_sum_ax0_shard0_i_m2048_n1024_v7x_i16_bf16_1_alg».proof.Proof.KernelIdeal.Launch
import proofs.«901083_g7700000000001084_dist_sum_ax0_shard0_i_m2048_n1024_v7x_i16_bf16_1_alg».proof.Proof.KernelIdeal.Final

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ)

/-- The body obligation at every point: the first, the six in the middle, the last. -/
theorem oblig_all (c : Dev nD) (t : Fin cfg0.N) : ObligAt m c t := by
  rcases fin_N0 t with rfl | rfl | rfl | rfl | rfl | rfl | rfl | rfl
  · exact oblig_pt0 m c
  · exact oblig_mid m c t0_1 (by decide) (by decide)
  · exact oblig_mid m c t0_2 (by decide) (by decide)
  · exact oblig_mid m c t0_3 (by decide) (by decide)
  · exact oblig_mid m c t0_4 (by decide) (by decide)
  · exact oblig_mid m c t0_5 (by decide) (by decide)
  · exact oblig_mid m c t0_6 (by decide) (by decide)
  · exact oblig_last m c

/-- At the compiled mesh of sixteen devices, for any float values, from any memory with zero counters: every weakly fair
    execution of @main terminates without a fault; every device's result array ends holding its accumulator plus the fifteen
    it received, and its argument array as it was. -/
theorem run_vals (ρ : Dev nD → PrngReg) :
    θ_run (defs (F := F)) (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  (θ_run (defs (F := F)) _ _).mono (fun r h c => ⟨(h c 1).trans (arr_out m c), (h c 0).trans (arr_in m c)⟩)
    (run_main m ρ (oblig_all m))

/-- info: 'Cert.KernelIdeal.Hand.run_vals' depends on axioms: [propext, Classical.choice, Quot.sound] -/
#guard_msgs in #print axioms run_vals

end Cert.KernelIdeal.Hand

end
-- ==== Proof.Kernel.Vals.lean ====
/-
  The values the all-reduce computes, as pure functions of the devices' argument arrays, at any float instance.

  Device `c` holds 2048 rows of the whole array, cut into 8 blocks of 256 rows. Point `t` of the grid adds the
  column sums of block `t` into a one-row accumulator; after the last point the accumulator of device `c` is the
  column sum of all its rows. Every device then sends its accumulator to the fifteen others: slot `k` of device
  `c`'s landing buffer receives the accumulator of the device `k + 1` places further round the ring, and the result
  is the device's own accumulator plus the sum over the fifteen slots.
-/
import proofs.«901083_g7700000000001084_dist_sum_ax0_shard0_i_m2048_n1024_v7x_i16_bf16_1_alg».proof.Proof.Gen.Kernel.Skeleton
import proofs.«901083_g7700000000001084_dist_sum_ax0_shard0_i_m2048_n1024_v7x_i16_bf16_1_alg».proof.Proof.Gen.Kernel.Frame
import Idealize.ShloMosaic.Lib.ValueIdx

noncomputable section

namespace Cert.Kernel.Hand

open Cert.Kernel Cert.Kernel.Gen
open Idealize.ShloMosaic Idealize.ShloMosaic.TcCoe
open Idealize.SL Idealize.SL.RA
open PCS URA

variable {F : FTy → Type} [FloatOps F]

/-! ## The ring -/

/-- The device `d + 1` places after `c` round the ring of sixteen. -/
def peer (c : Dev nD) (d : Fin 15) : Dev nD := ⟨(c.val + d.val + 1) % 16, Nat.mod_lt _ (by decide)⟩
/-- The mirror offset: `peer (peer c d) (rev d) = c`. -/
def rev (d : Fin 15) : Fin 15 := ⟨14 - d.val, by omega⟩

theorem rev_rev (d : Fin 15) : rev (rev d) = d := by revert d; decide
theorem peer_peer_rev (c : Dev nD) (d : Fin 15) : peer (peer c d) (rev d) = c := by revert c d; decide
theorem peer_rev_peer (c : Dev nD) (d : Fin 15) : peer (peer c (rev d)) d = c := by revert c d; decide
theorem peer_ne (c : Dev nD) (d : Fin 15) : peer c d ≠ c := by revert c d; decide
theorem peer_inj (c : Dev nD) : Function.Injective (peer c) := by revert c; decide
theorem peer_left_inj (d : Fin 15) : Function.Injective (fun c => peer c d) := by revert d; decide

variable (m : (ℓ : Loc nD τ sig) → Buf (Elt F) ℓ)

/-! ## Blocks and the accumulator -/

/-- Point `n` of the grid (point 0 past the end, never used there). -/
def pt (n : ℕ) : Fin cfg0.N := if h : n < cfg0.N then ⟨n, h⟩ else t0_0

/-- Block `t` of device `c`'s rows: 256 rows of 1024 columns. -/
abbrev xblk (c : Dev nD) (t : Fin cfg0.N) : Vec F S256x1024 .f32 := iblk m c 0 t

/-- The accumulator of device `c` after point `n`: the column sums of block 0, then one block added per point. -/
def acc (c : Dev nD) : ℕ → Vec F S1x1024 .f32
  | 0 => k0_pay2 (xblk m c (pt 0))
  | n + 1 => k0_pay3 (xblk m c (pt (n + 1))) (acc c n)

/-- The accumulator after the last point: the column sums of all of device `c`'s rows. -/
def mineF (c : Dev nD) : Vec F S1x1024 .f32 := acc m c 7

/-- The landing buffer of device `c` once every transfer has landed: slot `k` holds the accumulator of `peer c k`. -/
def commF (c : Dev nD) : Vec F S15x1x1024 .f32 :=
  fun i => mineF m (peer c (i 0 : Fin 15)) (ValueIdx.ix2 (0 : Fin 1) (i 2 : Fin 1024))

/-- The result on device `c`: its accumulator plus the sum of the fifteen slots. -/
def outF (c : Dev nD) : Vec F S1x1024 .f32 := k0_pay4 (mineF m c) (commF m c)

/-! ## Shares of the accumulator's buffer: one per transfer, and the rest -/

/-- What is left of the full share after `n` transfers have taken theirs. -/
def rst : ℕ → PosShare TreeShare
  | 0 => fullShare
  | n + 1 => (rst n).right
/-- The share transfer `n` reads the accumulator at. -/
def shr (n : ℕ) : PosShare TreeShare := (rst n).left

theorem rst_split (n : ℕ) : rst n ∈ shr n ·? rst (n + 1) := PosShare.mem_left_op_right (rst n)

end Cert.Kernel.Hand

end
-- ==== Proof.Kernel.Cells.lean ====
/-
  The buffers and semaphore cells of the exchange, as the kernel names them.

  Each device has its accumulator (one row), a landing buffer of fifteen one-row slots, fifteen send semaphores and
  fifteen receive semaphores, and the runtime's barrier semaphore. Transfer `d` of device `c` (to `peer c d`) completes on
  send semaphore `d` of `c` and on receive semaphore `rev d` of the target, and fills the target's slot `rev d`.
-/
import proofs.«901083_g7700000000001084_dist_sum_ax0_shard0_i_m2048_n1024_v7x_i16_bf16_1_alg».proof.Proof.Kernel.Vals
import proofs.«901083_g7700000000001084_dist_sum_ax0_shard0_i_m2048_n1024_v7x_i16_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties numbered 0 to 14) -/

abbrev UB : Type := URounds (GSem nD τ sig) (Fin 15)
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## Buffers -/

abbrev mineM : Memref sig .tc .vmem S1x1024 .f32 := Memref.whole cc0_scratch0
abbrev commM : Memref sig .tc .vmem S15x1x1024 .f32 := Memref.whole cc0_scratch1

theorem slot_inb (k : Fin 15) : ∀ a, (![k.val, 0, 0] : Fin 3 → Nat) a + S1x1x1024.size a ≤ S15x1x1024.size a := by
  revert k; decide

/-- Slot `k` of the landing buffer: one row of it, addressed as a one-row buffer. -/
abbrev slotM (k : Fin 15) : Memref sig .tc .vmem S1x1024 .f32 :=
  (commM.slice (Rect.unit (s := S15x1x1024) ![k.val, 0, 0] S1x1x1024.size (slot_inb k)) (fun _ => rfl)).squeeze S1x1024 squeezes_S1x1x1024_S1x1024

/-! ## Semaphores -/

abbrev barS : Sem sig := (SemArray.scalar (sig.barrier 0 rfl) : Sems sig S_).sem

theorem sem_inb (j : Fin 15) : ∀ a, (![j.val] : Fin 1 → Nat) a + S1.size a ≤ S15.size a := by revert j; decide

abbrev sendSem (j : Fin 15) : DmaSem sig :=
  ((cc0_scratch2.slice (Rect.unit (s := S15) ![j.val] S1.size (sem_inb j))).squeeze S_ squeezes_S1_S_).sem
abbrev recvSem (k : Fin 15) : DmaSem sig :=
  ((cc0_scratch3.slice (Rect.unit (s := S15) ![k.val] S1.size (sem_inb k))).squeeze S_ squeezes_S1_S_).sem

theorem sendSem_val (j : Fin 15) : (sendSem j).val = 3 + j.val := by revert j; decide
theorem recvSem_val (k : Fin 15) : (recvSem k).val = 18 + k.val := by revert k; decide

theorem sendSem_inj : Function.Injective sendSem := fun a b h => Fin.ext (by have := congrArg Fin.val h; rw [sendSem_val, sendSem_val] at this; omega)
theorem recvSem_inj : Function.Injective recvSem := fun a b h => Fin.ext (by have := congrArg Fin.val h; rw [recvSem_val, recvSem_val] at this; omega)
theorem sendSem_ne_recvSem (j k : Fin 15) : sendSem j ≠ recvSem k := fun h => by
  have := congrArg Fin.val h; rw [sendSem_val, recvSem_val] at this; have := j.isLt; omega

/-! ## Cells -/

abbrev barCell (c : Dev nD) : GSem nD τ sig := ((c : Thread nD τ), .reg barS)
abbrev sendCell (c : Dev nD) (j : Fin 15) : GSem nD τ sig := ((c : Thread nD τ), .dma (sendSem j))
abbrev recvCell (c : Dev nD) (k : Fin 15) : GSem nD τ sig := ((c : Thread nD τ), .dma (recvSem k))

/-- The units one transfer of a row credits. -/
abbrev N : ℕ := (mineM : Memref sig .tc .vmem S1x1024 .f32).view.dmaCredit
theorem N_pos : 0 < N := View.dmaCredit_pos _ (by decide)

-- the generic spellings meet the printed literal ones
example : slotM (14 : Fin 15) = ((Memref.whole cc0_scratch1 : Memref sig .tc .vmem S15x1x1024 .f32).slice (Rect.unit (s := S15x1x1024) ![14, 0, 0] S1x1x1024.size inb_S15x1x1024_S1x1x1024_14_0_0) (fun _ => rfl)).squeeze S1x1024 squeezes_S1x1x1024_S1x1024 := rfl
example : sendSem (12 : Fin 15) = ((cc0_scratch2.slice (Rect.unit (s := S15) ![12] S1.size inb_S15_S1_12)).squeeze S_ squeezes_S1_S_).sem := rfl
example (k : Fin 15) : (slotM k).view.amount (.dma (recvSem k)) = N := rfl

end Cert.Kernel.Hand

end
-- ==== Proof.Kernel.Sched.lean ====
/-
  The protocol of the exchange, as a schedule of rounds.

  Every cell has one round. A device's barrier cell has fifteen duties of one unit, duty `d` paid by the device whose
  signal number `d` targets it, `peer t (rev d)`; with its unit that device hands over slot `d` of its own landing buffer
  and the fact that it has opened round 0 of its receive cell `d`: exactly what the barrier's owner needs to send into
  that slot. Receive cell `k` of device `t` has one duty of a row's credit, paid by the transfer from `peer t k`: it
  hands `t` its slot `k` holding that device's accumulator. Send cell `j` of device `c` has one duty of a row's credit:
  it hands `c` back the share of its accumulator that transfer `j` read.
-/
import proofs.«901083_g7700000000001084_dist_sum_ax0_shard0_i_m2048_n1024_v7x_i16_bf16_1_alg».proof.Proof.Kernel.Cells

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is held of the buffers -/

/-- The accumulator's buffer on device `c`, at share `q`, holding `f`. -/
def minePts (c : Dev nD) (q : PosShare TreeShare) (f : Buf (Elt F) ((mineM : Memref sig .tc .vmem S1x1024 .f32).view.loc (c : Thread nD τ))) : sProp 𝕄 :=
  (mineM : Memref sig .tc .vmem S1x1024 .f32).view.loc (c : Thread nD τ) ↦[(mineM : Memref sig .tc .vmem S1x1024 .f32).view.set]{q} f
/-- Slot `k` of device `c`'s landing buffer, outright: the buffer's elements under the slot, at the valuation `f` of the whole buffer. -/
def slotPts (c : Dev nD) (k : Fin 15) (f : Buf (Elt F) ((slotM k).view.loc (c : Thread nD τ))) : sProp 𝕄 :=
  (slotM k).view.loc (c : Thread nD τ) ↦[(slotM k).view.set]{fullShare} f
/-- The whole landing buffer of device `c`, outright. -/
def commPts (c : Dev nD) (f : Buf (Elt F) ((commM : Memref sig .tc .vmem S15x1x1024 .f32).view.loc (c : Thread nD τ))) : sProp 𝕄 :=
  (commM : Memref sig .tc .vmem S15x1x1024 .f32).view.loc (c : Thread nD τ) ↦[(commM : Memref sig .tc .vmem S15x1x1024 .f32).view.set]{fullShare} f

omit [FloatOps F] in
instance minePts_storable (c : Dev nD) (q) (f) : BI.Storable (upEmb : UEmb _ 𝕄) (minePts (F := F) c q f) := by unfold minePts; infer_instance
omit [FloatOps F] in
instance slotPts_storable (c : Dev nD) (k) (f) : BI.Storable (upEmb : UEmb _ 𝕄) (slotPts (F := F) c k f) := by unfold slotPts; infer_instance
omit [FloatOps F] in
instance commPts_storable (c : Dev nD) (f) : BI.Storable (upEmb : UEmb _ 𝕄) (commPts (F := F) c f) := by unfold commPts; infer_instance

/-! ## The payloads -/

/-- What the signal paying duty `d` of device `t`'s barrier cell hands `t`: the signaller's slot `d`, at some contents, and that
    the signaller has opened round 0 of its receive cell `d`. -/
def barPay (t : Dev nD) (d : Fin 15) : sProp 𝕄 :=
  iprop((∃ f, slotPts (peer t (rev d)) d f) ∗ reached ER (recvCell (peer t (rev d)) d) 0)
/-- What the transfer into slot `k` of device `t` hands `t`: the slot, holding the sender's accumulator. -/
def recvPay (t : Dev nD) (k : Fin 15) : sProp 𝕄 := slotPts t k (commF m t)
/-- What transfer `j` of device `c` hands back on its send cell: the share of the accumulator it read. -/
def sendPay (c : Dev nD) (j : Fin 15) : sProp 𝕄 := minePts c (shr j.val) (mineF m c)

/-! ## Which cell is which -/

/-- The receive semaphore's number, read off a cell. -/
def recvIdx : SemLoc sig → Option (Fin 15)
  | .dma q => if h : 18 ≤ q.val ∧ q.val < 33 then some ⟨q.val - 18, by omega⟩ else none
  | .reg _ => none
/-- The send semaphore's number, read off a cell. -/
def sendIdx : SemLoc sig → Option (Fin 15)
  | .dma q => if h : 3 ≤ q.val ∧ q.val < 18 then some ⟨q.val - 3, by omega⟩ else none
  | .reg _ => none

theorem recvIdx_recv (k : Fin 15) : recvIdx (.dma (recvSem k)) = some k := by revert k; decide
theorem sendIdx_send (j : Fin 15) : sendIdx (.dma (sendSem j)) = some j := by revert j; decide
theorem recvIdx_send (j : Fin 15) : recvIdx (.dma (sendSem j)) = none := by revert j; decide
theorem recvIdx_bar : recvIdx (.reg barS) = none := rfl
theorem sendIdx_bar : sendIdx (.reg barS) = none := rfl
theorem send_ne_bar (j : Fin 15) : (SemLoc.dma (sendSem j) : SemLoc sig) ≠ .reg barS := fun h => by cases h
theorem recv_ne_bar (k : Fin 15) : (SemLoc.dma (recvSem k) : SemLoc sig) ≠ .reg barS := fun h => by cases h

/-! ## The schedule -/

/-- One round, round 0: a barrier cell's fifteen unit duties; a send or receive cell's one duty of a row's credit. -/
def ringRd : Rounds.Schedule (GSem nD τ sig) (Fin 15) 𝕄 where
  duties g r :=
    if r = 0 ∧ g.1.2 = .tc then
      (if g.2 = .reg barS then Finset.univ else if (recvIdx g.2).isSome ∨ (sendIdx g.2).isSome then {0} else ∅)
    else ∅
  unitless _ := False
  amount g _ _ := if g.2 = .reg barS then 1 else N
  payload g _ d :=
    if g.2 = .reg barS then barPay g.1.1 d
    else match recvIdx g.2 with
      | some k => recvPay m g.1.1 k
      | none => match sendIdx g.2 with
        | some j => sendPay m g.1.1 j
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 15) :
    BI.Storable (upEmb : UEmb _ 𝕄) ((ringRd (F := F) m).payload g r d) := by
  show BI.Storable upEmb (if g.2 = .reg barS then barPay g.1.1 d
    else match recvIdx g.2 with
      | some k => recvPay m g.1.1 k
      | none => match sendIdx g.2 with
        | some j => sendPay m g.1.1 j
        | none => iprop(emp))
  unfold barPay recvPay sendPay
  (repeat' split) <;> infer_instance

section Tables
variable (c : Dev nD) (j k d : Fin 15)

theorem duties_bar : (ringRd (F := F) m).duties (barCell c) 0 = Finset.univ := by
  dsimp only [ringRd]; rw [if_pos ⟨rfl, rfl⟩, if_pos rfl]
theorem duties_send : (ringRd (F := F) m).duties (sendCell c j) 0 = {0} := by
  dsimp only [ringRd]; rw [if_pos ⟨rfl, rfl⟩, if_neg (send_ne_bar j), if_pos (Or.inr (by rw [sendIdx_send]; rfl))]
theorem duties_recv : (ringRd (F := F) m).duties (recvCell c k) 0 = {0} := by
  dsimp only [ringRd]; rw [if_pos ⟨rfl, rfl⟩, if_neg (recv_ne_bar k), if_pos (Or.inl (by rw [recvIdx_recv]; rfl))]
theorem duties_later (g : GSem nD τ sig) : ∀ r, 1 ≤ r → (ringRd (F := F) m).duties g r = ∅ :=
  fun r hr => by dsimp only [ringRd]; rw [if_neg fun h => by omega]

theorem amount_bar : (ringRd (F := F) m).amount (barCell c) 0 d = 1 := by dsimp only [ringRd]; exact if_pos rfl
theorem amount_send : (ringRd (F := F) m).amount (sendCell c j) 0 d = N := by dsimp only [ringRd]; exact if_neg (send_ne_bar j)
theorem amount_recv : (ringRd (F := F) m).amount (recvCell c k) 0 d = N := by dsimp only [ringRd]; exact if_neg (recv_ne_bar k)

theorem expect_bar : (ringRd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c k) 0 = N := by
  unfold Schedule.expect Schedule.amountOf; rw [duties_recv, Finset.sum_singleton, amount_recv]

theorem payload_bar : (ringRd (F := F) m).payload (barCell c) 0 d = barPay c d := by dsimp only [ringRd]; rw [if_pos rfl]
theorem payload_send : (ringRd (F := F) m).payload (sendCell c j) 0 d = sendPay m c j := by
  dsimp only [ringRd]; rw [if_neg (send_ne_bar j)]; simp only [recvIdx_send, sendIdx_send]
theorem payload_recv : (ringRd (F := F) m).payload (recvCell c k) 0 d = recvPay m c k := by
  dsimp only [ringRd]; rw [if_neg (recv_ne_bar k)]; simp only [recvIdx_recv]

/-- The whole of a barrier cell's round: every signaller's slot and mark. -/
theorem rest_bar : bigSep ((ringRd (F := F) m).duties (barCell c) 0 \ ∅) (fun d => (ringRd (F := F) m).payload (barCell c) 0 d)
    = bigSep Finset.univ (fun d : Fin 15 => barPay (F := F) c d) := by
  rw [Finset.sdiff_empty, duties_bar]; exact bigSep_congr fun d _ => payload_bar m c d
theorem rest_send : bigSep ((ringRd (F := F) m).duties (sendCell c j) 0 \ ∅) (fun d => (ringRd (F := F) m).payload (sendCell c j) 0 d) = sendPay m c j := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Tables

end Cert.Kernel.Hand

end
-- ==== Proof.Kernel.Data.lean ====
/-
  The proof data of the pipeline: what a device owes at each point, the levels that order the waits, the ghost state of
  the exchange and the invariant between grid points.

  A device owes, at launch, one unit to each other device's barrier cell and a row's credit to one receive cell of each
  other device. The signals of point 0 pay the barrier units; the credits stay owed until the transfers of the last point.
  Waits are ordered by level: the pipeline's own cells and the send cells at 0, the barrier cells at 1, the receive cells
  at 2; a device waits on its barrier cell owing only receive credits, and on its receive cells owing nothing.
-/
import proofs.«901083_g7700000000001084_dist_sum_ax0_shard0_i_m2048_n1024_v7x_i16_bf16_1_alg».proof.Proof.Kernel.Sched

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Offsets as naturals (so that the unrolled steps name them by numerals) -/

/-- Offset number `n` as a duty: `n` itself below 15. -/
def off (n : ℕ) : Fin 15 := ⟨n % 15, Nat.mod_lt _ (by decide)⟩

/-! ## What a device owes -/

/-- The credit transfer `n` owes: a row's credit on receive cell `rev n` of `peer c n`. -/
def sendTally (c : Dev nD) (n : ℕ) : CellTallies nD τ sig Unit := tallyAt (recvCell (peer c (off n)) (rev (off n))) () N
/-- The unit signal `n` owes: one on the barrier cell of `peer c n`. -/
def sigTally (c : Dev nD) (n : ℕ) : CellTallies nD τ sig Unit := tallyAt (barCell (peer c (off n))) () 1

/-- What is owed with the LAST `k` transfers still to start (numbers `15 - k` to `14`), summed so that each transfer peels
    the outermost summand. -/
def owedSend (c : Dev nD) : ℕ → CellTallies nD τ sig Unit
  | 0 => 0
  | k + 1 => owedSend c k + sendTally c (14 - k)
/-- What is owed with every transfer and the LAST `k` signals still to come. -/
def owedSig (c : Dev nD) : ℕ → CellTallies nD τ sig Unit
  | 0 => owedSend c 15
  | k + 1 => owedSig c k + sigTally c (14 - k)

/-- At launch: everything. -/
def O₀ (c : Dev nD) : CellTallies nD τ sig Unit := owedSig c 15

/-! ## Levels -/

def L (g : GSem nD τ sig) : Finset Unit := if g.1.2 = .tc then {()} else ∅
/-- Barrier cells at 1, receive cells at 2, everything else (the pipeline's staging cells, the send cells) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 15) : lv (recvCell c k) () = 2 := by
  unfold lv; rw [if_neg (recv_ne_bar k), recvIdx_recv]; rfl
theorem lv_send (c : Dev nD) (j : Fin 15) : lv (sendCell c j) () = 0 := by
  unfold lv; rw [if_neg (send_ne_bar j), recvIdx_send]; rfl

/-! ## The cells of the exchange, numbered: the barrier, the fifteen send cells, the fifteen receive cells -/

def csem (i : Fin 31) : SemLoc sig :=
  if i.val = 0 then .reg barS else if h : i.val < 16 then .dma (sendSem ⟨i.val - 1, by omega⟩) else .dma (recvSem ⟨i.val - 16, by omega⟩)
abbrev kcell (ck : Dev nD × Fin 31) : GSem nD τ sig := ((ck.1 : Thread nD τ), csem ck.2)

def barI : Fin 31 := 0
def sendI (j : Fin 15) : Fin 31 := ⟨j.val + 1, by omega⟩
def recvI (k : Fin 15) : Fin 31 := ⟨k.val + 16, by omega⟩

theorem csem_bar : csem barI = .reg barS := rfl
theorem csem_send (j : Fin 15) : csem (sendI j) = .dma (sendSem j) := by revert j; decide
theorem csem_recv (k : Fin 15) : csem (recvI k) = .dma (recvSem k) := by revert k; decide
theorem csem_injective : Function.Injective csem := by decide

/-! ## The ghost state -/

/-- The cells' invariants under the names the launch allocated them at, and that each cell's round 0 is open:
    persistent, the same for every device. -/
def records (K : Dev nD × Fin 31 → ℕ) : sProp 𝕄 :=
  iprop((bigSep Finset.univ fun ck : Dev nD × Fin 31 => cellInv ER (ringRd m) (K ck) (kcell ck))
    ∗ bigSep Finset.univ fun ck : Dev nD × Fin 31 => reached ER (kcell ck) 0)

instance records_persistent (K : Dev nD × Fin 31 → ℕ) : BI.Persistent (records m K) := by unfold records; infer_instance

theorem inv_at (K : Dev nD × Fin 31 → ℕ) (ck : Dev nD × Fin 31) : records m K ⊢ cellInv ER (ringRd m) (K ck) (kcell ck) := by
  unfold records; iintro ⟨H, -⟩
  iapply (show (bigSep Finset.univ fun ck : Dev nD × Fin 31 => (cellInv ER (ringRd m) (K ck) (kcell ck) : sProp 𝕄))
    ⊢ cellInv ER (ringRd m) (K ck) (kcell ck) from bigSep_elim (Finset.mem_univ ck))
  iexact H
theorem reached_at (K : Dev nD × Fin 31 → ℕ) (ck : Dev nD × Fin 31) : records m K ⊢ reached ER (kcell ck) 0 := by
  unfold records; iintro ⟨-, H⟩
  iapply (show (bigSep Finset.univ fun ck : Dev nD × Fin 31 => (reached ER (kcell ck) 0 : sProp 𝕄))
    ⊢ reached ER (kcell ck) 0 from bigSep_elim (Finset.mem_univ ck))
  iexact H

theorem inv_bar (K : Dev nD × Fin 31 → ℕ) (c : Dev nD) : records m K ⊢ cellInv ER (ringRd m) (K (c, barI)) (barCell c) := inv_at m K (c, barI)
theorem inv_send (K : Dev nD × Fin 31 → ℕ) (c : Dev nD) (j : Fin 15) : records m K ⊢ cellInv ER (ringRd m) (K (c, sendI j)) (sendCell c j) := by
  have := inv_at m K (c, sendI j); unfold kcell at this; rw [csem_send] at this; exact this
theorem inv_recv (K : Dev nD × Fin 31 → ℕ) (c : Dev nD) (k : Fin 15) : records m K ⊢ cellInv ER (ringRd m) (K (c, recvI k)) (recvCell c k) := by
  have := inv_at m K (c, recvI k); unfold kcell at this; rw [csem_recv] at this; exact this
theorem reached_bar (K : Dev nD × Fin 31 → ℕ) (c : Dev nD) : records m K ⊢ reached ER (barCell c) 0 := reached_at m K (c, barI)
theorem reached_send (K : Dev nD × Fin 31 → ℕ) (c : Dev nD) (j : Fin 15) : records m K ⊢ reached ER (sendCell c j) 0 := by
  have := reached_at m K (c, sendI j); unfold kcell at this; rw [csem_send] at this; exact this
theorem reached_recv (K : Dev nD × Fin 31 → ℕ) (c : Dev nD) (k : Fin 15) : records m K ⊢ reached ER (recvCell c k) 0 := by
  have := reached_at m K (c, recvI k); unfold kcell at this; rw [csem_recv] at this; exact this

/-- Device `c`'s positions: at the start of round 0 of its own thirty-one cells. -/
def posAll (c : Dev nD) : sProp 𝕄 :=
  iprop(atPos ER (barCell c) 0 ∅ 0 ∗ (bigSep Finset.univ fun j : Fin 15 => atPos ER (sendCell c j) 0 ∅ 0)
    ∗ bigSep Finset.univ fun k : Fin 15 => atPos ER (recvCell c k) 0 ∅ 0)
/-- The tokens of the barrier duties device `c` pays: duty `d` of `peer c d`'s barrier cell. -/
def sigToks (c : Dev nD) : sProp 𝕄 := bigSep Finset.univ fun d : Fin 15 => dutyTok ER (barCell (peer c d)) 0 d
/-- The tokens of the duties device `c`'s transfers pay: its own send cell `d`'s, and receive cell `rev d` of `peer c d`'s. -/
def xferToks (c : Dev nD) : sProp 𝕄 :=
  bigSep Finset.univ fun d : Fin 15 => iprop(dutyTok ER (sendCell c d) 0 0 ∗ dutyTok ER (recvCell (peer c d) (rev d)) 0 0)
/-- The credit dealt at launch: the fifteen units others owe its barrier cell, a row's credit on each receive cell. -/
def creds (c : Dev nD) : sProp 𝕄 :=
  iprop(cred (tallyAt (barCell c) () 15) ∗ bigSep Finset.univ fun k : Fin 15 => cred (tallyAt (recvCell c k) () N))

/-! ## The invariant between points -/

/-- Before point 0: everything dealt at launch, and the two scratch buffers at some contents. -/
def Φ₀ (c : Dev nD) : sProp 𝕄 :=
  iprop((∃ K, records m K ∗ posAll c ∗ sigToks c ∗ xferToks c) ∗ creds c ∗ levAts L lv
    ∗ (∃ f, minePts c fullShare f) ∗ (∃ f, commPts c f))
/-- Before point `n`, `1 ≤ n ≤ 7`: the signals are sent and the slots handed over; the accumulator holds the sum of blocks
    `0` to `n - 1`. -/
def Φmid (c : Dev nD) (n : ℕ) : sProp 𝕄 :=
  iprop((∃ K, records m K ∗ posAll c ∗ xferToks c) ∗ creds c ∗ levAts L lv ∗ minePts c fullShare (acc m c (n - 1)))
/-- After the last point: both scratch buffers back, whole, at their final contents; the thirty own semaphores at zero. -/
def Φend (c : Dev nD) : sProp 𝕄 :=
  iprop(minePts c fullShare (mineF m c) ∗ commPts c (commF m c)
    ∗ (bigSep Finset.univ fun j : Fin 15 => semVal (sendCell c j) 0) ∗ bigSep Finset.univ fun k : Fin 15 => semVal (recvCell c k) 0)

/-! ## The pipeline's proof data -/

def dats (_ : Fin 1) (c : Dev nD) : Dat τ (Elt F) Unit ℕ UU ℕ cfg0 c where
  A w := m ((cfg0.win w).arr.view.loc (c : Thread nD τ))
  after w t := match w with
    | ⟨0, _⟩ => xblk m c t
    | ⟨1, _⟩ => outF m c
  Φ t := match t with
    | ⟨0, _⟩ => Φ₀ m c
    | ⟨1, _⟩ => Φmid m c 1
    | ⟨2, _⟩ => Φmid m c 2
    | ⟨3, _⟩ => Φmid m c 3
    | ⟨4, _⟩ => Φmid m c 4
    | ⟨5, _⟩ => Φmid m c 5
    | ⟨6, _⟩ => Φmid m c 6
    | ⟨7, _⟩ => Φmid m c 7
    | ⟨_ + 8, _⟩ => Φend m c
  q _ := fullShare
  owed t := match t with
    | ⟨0, _⟩ => O₀ c
    | ⟨1, _⟩ => owedSend c 15
    | ⟨2, _⟩ => owedSend c 15
    | ⟨3, _⟩ => owedSend c 15
    | ⟨4, _⟩ => owedSend c 15
    | ⟨5, _⟩ => owedSend c 15
    | ⟨6, _⟩ => owedSend c 15
    | ⟨7, _⟩ => owedSend c 15
    | ⟨_ + 8, _⟩ => 0

abbrev 𝒱₀ : Variants := Variants.none

end Cert.Kernel.Hand

end
-- ==== Proof.Kernel.Steps.lean ====
/-
  The steps of the exchange, one rule each: cutting the landing buffer into its slots and the accumulator's buffer into
  shares, one signal, the barrier wait, one transfer, one receive wait, one send wait, closing a cell. Each is the rounds
  discipline's rule at this protocol's cells, duties and payloads; a device's body applies each fifteen times.
-/
import proofs.«901083_g7700000000001084_dist_sum_ax0_shard0_i_m2048_n1024_v7x_i16_bf16_1_alg».proof.Proof.Kernel.Data

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-! ## Cutting the buffers -/

/-- The slot's elements are those of its rectangle. -/
theorem slot_set (k : Fin 15) :
    (slotM k).view.set = (Rect.unit (s := S15x1x1024) ![k.val, 0, 0] S1x1x1024.size (slot_inb k)).set := by
  simp only [Memref.view_squeeze, Memref.view_slice, Memref.view_whole, View.set_reshape, View.set_slice_whole]

/-- An element is in slot `k` exactly when its first coordinate is `k`. -/
theorem mem_slot (k : Fin 15) (i : S15x1x1024.Idx) : i ∈ (slotM k).view.set ↔ (i 0).val = k.val := by
  rw [slot_set, Rect.mem_set_unit]
  constructor
  · intro h; have := h 0; simp at this; omega
  · intro h a
    match a with
    | ⟨0, _⟩ => simp; omega
    | ⟨1, _⟩ => have := (i 1).isLt; simp at this ⊢; omega
    | ⟨2, _⟩ => have := (i 2).isLt; simp at this ⊢; omega

/-- The landing buffer is its fifteen slots. -/
theorem comm_split (c : Dev nD) (f : Buf (Elt F) ((commM : Memref sig .tc .vmem S15x1x1024 .f32).view.loc (c : Thread nD τ))) :
    (commPts c f : sProp 𝕄) = bigSep Finset.univ fun k : Fin 15 => slotPts c k f := by
  unfold commPts slotPts
  have hU : (commM : Memref sig .tc .vmem S15x1x1024 .f32).view.set
      = (Finset.univ : Finset (Fin 15)).biUnion fun k =>
          ((slotM k).view.set : Finset (Idx ((commM : Memref sig .tc .vmem S15x1x1024 .f32).view.loc (c : Thread nD τ)))) := by
    have hw : (commM : Memref sig .tc .vmem S15x1x1024 .f32).view.set = Finset.univ := View.set_whole _
    refine Finset.ext fun i => ⟨fun _ => Finset.mem_biUnion.mpr
      ⟨⟨(i 0).val, (i 0).isLt⟩, Finset.mem_univ _, (mem_slot _ i).mpr rfl⟩, fun _ => ?_⟩
    rw [hw]; exact Finset.mem_univ i
  rw [hU]
  exact pointsTo_biUnion (ℓ := (commM : Memref sig .tc .vmem S15x1x1024 .f32).view.loc (c : Thread nD τ)) (q := fullShare) (f := f)
    Finset.univ (fun k : Fin 15 => (slotM k).view.set) fun k _ k' _ hk =>
      Finset.disjoint_left.mpr fun i hi hi' =>
        hk (Fin.ext (((mem_slot k i).mp hi).symm.trans ((mem_slot k' i).mp hi')))

/-- A slot's contents matter only on the slot. -/
theorem slotPts_congr (c : Dev nD) (k : Fin 15) (f g : Buf (Elt F) ((slotM k).view.loc (c : Thread nD τ)))
    (h : ∀ i ∈ (slotM k).view.set, f i = g i) : (slotPts c k f : sProp 𝕄) = slotPts c k g := by
  unfold slotPts; exact pointsTo_congr h

/-- Where slot `k` places its index `y`: row `k`, column `y 1`. -/
theorem slot_emb (k : Fin 15) (y : S1x1024.Idx) :
    (slotM k).view.emb y = ValueIdx.ix3 (⟨k.val, k.isLt⟩ : Fin 15) (0 : Fin 1) (y 1 : Fin 1024) := by
  have hr : Shape.reshapeEquiv (squeezes_S1x1x1024_S1x1024).numel_eq y
      = (ValueIdx.ix3 (0 : Fin 1) (0 : Fin 1) (y 1 : Fin 1024) : S1x1x1024.Idx) := by
    apply Shape.reshapeEquiv_eq_of_rowMajor
    rw [Shape.rowMajor_val_three, Shape.rowMajor_val_two]
    have := (y 0).isLt
    simp at this ⊢
    omega
  have he : (slotM k).view.emb y
      = (Rect.unit (s := S15x1x1024) ![k.val, 0, 0] S1x1x1024.size (slot_inb k)).emb
          (Shape.reshapeEquiv (squeezes_S1x1x1024_S1x1024).numel_eq y) := rfl
  rw [he, hr]
  funext a
  apply Fin.ext
  rw [Rect.emb_apply]
  match a with
  | ⟨0, _⟩ => simp
  | ⟨1, _⟩ => simp
  | ⟨2, _⟩ => simp

/-- What a transfer of the accumulator of `peer t k` leaves in slot `k` of device `t`, whatever the buffer held: the slot of
    the final landing contents. -/
theorem landed_slot (t : Dev nD) (k : Fin 15) (fd : Buf (Elt F) ((slotM k).view.loc (t : Thread nD τ))) :
    ∀ i ∈ (slotM k).view.set,
      (slotM k).view.write (Elt F) fd ((mineM : Memref sig .tc .vmem S1x1024 .f32).view.read (Elt F) (mineF m (peer t k))) Finset.univ i
        = commF m t i := by
  intro i hi
  -- an element of the slot is the place of one of its indices
  obtain ⟨y, -, rfl⟩ := Finset.mem_map.mp hi
  rw [View.write_emb_of_mem _ _ (Finset.mem_univ y)]
  -- the one-row index `y` is `(0, y 1)`
  have hy : y = ValueIdx.ix2 (0 : Fin 1) (y 1 : Fin 1024) := by
    funext a
    match a with
    | ⟨0, _⟩ => exact Fin.ext (Nat.lt_one_iff.mp (y 0).isLt)
    | ⟨1, _⟩ => rfl
  unfold commF
  rw [slot_emb k y]
  -- both sides read the accumulator of `peer t k` at column `y 1`
  show mineF m (peer t k) y = mineF m (peer t (⟨k.val, k.isLt⟩ : Fin 15)) (ValueIdx.ix2 (0 : Fin 1) (y 1 : Fin 1024))
  exact congrArg (mineF m (peer t k)) hy

/-- Taking transfer `n`'s share off what is left of the accumulator's buffer, and putting it back. -/
theorem mine_share (c : Dev nD) (n : ℕ) (f : Buf (Elt F) ((mineM : Memref sig .tc .vmem S1x1024 .f32).view.loc (c : Thread nD τ))) :
    (minePts c (rst n) f : sProp 𝕄) ⊣⊢ iprop(minePts c (shr n) f ∗ minePts c (rst (n + 1)) f) := by
  unfold minePts; exact pointsTo_share (rst_split n)

/-! ## Levels: which waits are allowed owing what -/

/-- A transfer's credit sits on a receive cell. -/
theorem sendTally_pos {c : Dev nD} {n : ℕ} {g : GSem nD τ sig} {u : Unit} (h : 0 < sendTally c n g u) : ∃ t k, g = recvCell t k := by
  unfold sendTally at h; rw [tallyAt_apply] at h
  by_cases hg : g = recvCell (peer c (off n)) (rev (off n)) ∧ u = ()
  · exact ⟨_, _, hg.1⟩
  · rw [if_neg hg] at h; exact absurd h (Nat.lt_irrefl 0)
/-- A signal's unit sits on a barrier cell. -/
theorem sigTally_pos {c : Dev nD} {n : ℕ} {g : GSem nD τ sig} {u : Unit} (h : 0 < sigTally c n g u) : ∃ t, g = barCell t := by
  unfold sigTally at h; rw [tallyAt_apply] at h
  by_cases hg : g = barCell (peer c (off n)) ∧ u = ()
  · exact ⟨_, hg.1⟩
  · rw [if_neg hg] at h; exact absurd h (Nat.lt_irrefl 0)
/-- Whatever transfers are still to start, what is owed for them sits on receive cells. -/
theorem owedSend_pos (c : Dev nD) : ∀ (k : ℕ) (g : GSem nD τ sig) (u : Unit), 0 < owedSend c k g u → ∃ t j, g = recvCell t j
  | 0, g, u, h => absurd h (Nat.lt_irrefl 0)
  | k + 1, g, u, h => by
    unfold owedSend at h; rw [Pi.add_apply, Finsupp.add_apply] at h
    rcases Nat.add_pos_iff_pos_or_pos.mp h with h | h
    · exact owedSend_pos c k g u h
    · exact sendTally_pos h
/-- With signals still to send too, it sits on receive cells and barrier cells. -/
theorem owedSig_pos (c : Dev nD) : ∀ (k : ℕ) (g : GSem nD τ sig) (u : Unit), 0 < owedSig c k g u → (∃ t j, g = recvCell t j) ∨ ∃ t, g = barCell t
  | 0, g, u, h => Or.inl (owedSend_pos c 15 g u h)
  | k + 1, g, u, h => by
    unfold owedSig at h; rw [Pi.add_apply, Finsupp.add_apply] at h
    rcases Nat.add_pos_iff_pos_or_pos.mp h with h | h
    · exact owedSig_pos c k g u h
    · exact Or.inr (sigTally_pos h)

/-- A cell at level 0 (a staging cell of the pipeline, a send cell) may be waited on owing any of the launch debts. -/
theorem mayWait_low (c : Dev nD) (q : DmaSem sig) (hq : recvIdx (.dma q : SemLoc sig) = none) (O : CellTallies nD τ sig Unit)
    (hO : O = O₀ c ∨ O = owedSend c 15 ∨ O = 0) :
    (levAts L lv : sProp 𝕄) ⊢ MayWait (c : Thread nD τ) (.dma q) () O := by
  have hlow : lv ((c : Thread nD τ), (.dma q : SemLoc sig)) () = 0 := by
    unfold lv; rw [if_neg (fun h => by cases h), hq]; rfl
  have key : ∀ k, (levAts L lv : sProp 𝕄) ⊢ MayWait (c : Thread nD τ) (.dma q) () (owedSig c k) := fun k =>
    MayOwe.of_cut (L := L) (lev := lv) 0
      (fun p hp => by rw [Finset.mem_singleton.mp hp, L_tc]; exact Finset.mem_singleton_self _)
      (fun g u hg => by
        rcases owedSig_pos c k g u hg with ⟨t, j, rfl⟩ | ⟨t, rfl⟩ <;> (rw [L_tc]; exact Finset.mem_singleton_self _))
      (fun p hp => by rw [Finset.mem_singleton.mp hp]; exact hlow.le)
      (fun g u hg => by
        cases u
        rcases owedSig_pos c k g () hg with ⟨t, j, rfl⟩ | ⟨t, rfl⟩
        · rw [lv_recv]; decide
        · rw [lv_bar]; decide)
  rcases hO with rfl | rfl | rfl
  · exact key 15
  · exact key 0
  · rw [MayWait_zero]; iintro -; iempintro

/-- The barrier cell may be waited on owing only receive credits. -/
theorem mayWait_bar (c : Dev nD) : (levAts L lv : sProp 𝕄) ⊢ MayWait (c : Thread nD τ) (.reg barS) () (owedSend c 15) := by
  exact MayOwe.of_cut (L := L) (lev := lv) 1
    (fun p hp => by rw [Finset.mem_singleton.mp hp, L_tc]; exact Finset.mem_singleton_self _)
    (fun g u hg => by obtain ⟨t, j, rfl⟩ := owedSend_pos c 15 g u hg; rw [L_tc]; exact Finset.mem_singleton_self _)
    (fun p hp => by rw [Finset.mem_singleton.mp hp]; exact (lv_bar c).le)
    (fun g u hg => by cases u; obtain ⟨t, j, rfl⟩ := owedSend_pos c 15 g () hg; rw [lv_recv]; decide)

/-! ## One signal -/

/-- Signal `d`: to the barrier cell of `peer c d`, paying its duty `d` with slot `d` of the signaller's landing buffer. -/
theorem wp_signal_peer (K : Dev nD × Fin 31 → ℕ) (c : Dev nD) (d : Fin 15) (dev : Dev nD) (hdev : dev = peer c d) (k' : ℕ) (hk' : k' = 1)
    {α : Type} {Q : α → sProp 𝕄} {k : PUnit → Prog (TpuEff nD τ sig (Elt F) Λ₀ .tc) α}
    (R : CellTallies nD τ sig Unit) (W : Waits sig Unit) :
    iprop(records m K ∗ owes (c : Thread nD τ) (R + tallyAt (barCell (peer c d)) () 1) W
        ∗ dutyTok ER (barCell (peer c d)) 0 d ∗ (∃ f, slotPts c d f))
      ⊢ iprop((owes (c : Thread nD τ) R W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dev : Thread nD τ) barS k') k) Q) := by
  subst hdev; subst hk'
  iintro ⟨#HR, HO, Htok, Hslot⟩ Hk
  iapply (Rounds.wp_signal 𝒱₀ ER (ringRd m) (c : Thread nD τ) none (dst := (peer c d : Thread nD τ)) (κ := K (peer c d, barI))
      (d := d) (by rw [duties_bar]; exact Finset.mem_univ _) (amount_bar m (peer c d) d) () R rfl) $$ [HO Htok Hslot]
  · isplitr; · iapply (inv_bar m K (peer c d)); iexact HR
    isplitl [HO]; · iexact HO
    isplitl [Htok]; · iexact Htok
    isplitl [Hslot]
    · rw [payload_bar]; unfold barPay; rw [peer_peer_rev]
      isplitl [Hslot]; · iexact Hslot
      iapply (reached_recv m K c d); iexact HR
    · iapply (reached_bar m K (peer c d)); iexact HR
  iexact Hk

/-! ## The barrier wait -/

/-- The wait for all fifteen units on the device's own barrier cell, owing only receive credits: every other device's
    slot for this device comes with it. -/
theorem wp_wait_bar (K : Dev nD × Fin 31 → ℕ) (c : Dev nD) (k' : ℕ) (hk' : k' = 15)
    {α : Type} {Q : α → sProp 𝕄} {k : PUnit → Prog (TpuEff nD τ sig (Elt F) Λ₀ .tc) α} (W : Waits sig Unit) :
    iprop(records m K ∗ cred (tallyAt (barCell c) () 15) ∗ owes (c : Thread nD τ) (owedSend c 15) W ∗ levAts L lv
        ∗ atPos ER (barCell c) 0 ∅ 0)
      ⊢ iprop(((owes (c : Thread nD τ) (owedSend c 15) (insert (SemLoc.reg barS, ()) W) ∗ atPos ER (barCell c) 1 ∅ 0
              ∗ bigSep Finset.univ (fun d : Fin 15 => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, #Hlev, Hat⟩ Hk
  iapply (Rounds.wp_wait_rest_token 𝒱₀ ER (ringRd m) (c : Thread nD τ) none (κ := K (c, barI))
      (wpE_semWait_eq 𝒱₀ (c : Thread nD τ) none Set.univ) (Set.mem_univ _) () (O := owedSend c 15) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-! ## One transfer -/

/-- Transfer `d`: the accumulator, read at share `shr d`, into slot `rev d` of `peer c d`; it pays duty 0 of the device's send
    cell `d` and of the target's receive cell `rev d`, and takes the row's credit off what the device owes. -/
theorem wp_send_peer (K : Dev nD × Fin 31 → ℕ) (c : Dev nD) (d : Fin 15) (dev : Dev nD) (hdev : dev = peer c d)
    {hsc : ((slotM (rev d)) : Memref sig (Dev.tc dev : Thread nD τ).2.kind .vmem S1x1024 .f32).view.ref.isScScratch = false}
    {hsrc : (mineM : Memref sig .tc .vmem S1x1024 .f32).view.WordExact} {hdst : (slotM (rev d)).view.WordExact}
    {hsem : DmaTarget.Typed .vmem (.dma (recvSem (rev d))) (.remote (Dev.tc dev : Thread nD τ) (slotM (rev d)) (.dma (sendSem d)) hsc)}
    {α : Type} {Q : α → sProp 𝕄} {k : PUnit → Prog (TpuEff nD τ sig (Elt F) Λ₀ .tc) α}
    (fn : Buf (Elt F) ((slotM (rev d)).view.loc (peer c d : Thread nD τ))) (R : CellTallies nD τ sig Unit) (W : Waits sig Unit) :
    iprop(records m K ∗ minePts c (shr d.val) (mineF m c) ∗ slotPts (peer c d) (rev d) fn
        ∗ owes (c : Thread nD τ) (R + tallyAt (recvCell (peer c d) (rev d)) () N) W
        ∗ dutyTok ER (sendCell c d) 0 0 ∗ dutyTok ER (recvCell (peer c d) (rev d)) 0 0)
      ⊢ iprop(((cred (tallyAt (sendCell c d) () N) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mineM (.remote (Dev.tc dev : Thread nD τ) (slotM (rev d)) (.dma (sendSem d)) hsc) (.dma (recvSem (rev d))) hsrc hdst hsem) k) Q) := by
  subst hdev
  unfold minePts slotPts
  iintro ⟨#HR, Hsrc, Hdst, HO, Ht1, Ht2⟩ Hk
  iapply (Rounds.wp_send_pointsTo 𝒱₀ ER (ringRd m) (c : Thread nD τ) none (κ₁ := K (c, sendI d)) (κ₂ := K (peer c d, recvI (rev d)))
      (r₁ := 0) (r₂ := 0) (d₁ := 0) (d₂ := 0) (fd := fn)
      (by rw [duties_send]; exact Finset.mem_singleton_self _) (by rw [duties_recv]; exact Finset.mem_singleton_self _)
      () () N rfl (amount_send m c d 0) (amount_recv m (peer c d) (rev d) 0) R rfl (W := W)
      (by rw [payload_send]; unfold sendPay minePts; exact BI.Entails.refl _)
      (by
        rw [payload_recv]; unfold recvPay slotPts
        refine Entails.of_eq (pointsTo_congr fun i hi => ?_)
        have h := landed_slot m (peer c d) (rev d) fn i hi
        rw [peer_peer_rev] at h
        exact h)) $$ [Hsrc Hdst HO Ht1 Ht2]
  · isplitr; · iapply (inv_send m K c d); iexact HR
    isplitr; · iapply (inv_recv m K (peer c d) (rev d)); iexact HR
    isplitl [Hsrc]; · iexact Hsrc
    isplitl [Hdst]; · iexact Hdst
    isplitl [HO]; · iexact HO
    isplitl [Ht1]; · iexact Ht1
    isplitr; · iapply (reached_send m K c d); iexact HR
    isplitl [Ht2]; · iexact Ht2
    iapply (reached_recv m K (peer c d) (rev d)); iexact HR
  iexact Hk

/-! ## The DMA waits -/

/-- The wait on receive cell `k`, owing nothing: slot `k` comes back holding the accumulator of `peer c k`. -/
theorem wp_wait_recv (K : Dev nD × Fin 31 → ℕ) (c : Dev nD) (k : Fin 15)
    {hsrc : (mineM : Memref sig .tc .vmem S1x1024 .f32).view.WordExact} {hdst : (slotM k).view.WordExact}
    {α : Type} {Q : α → sProp 𝕄} {kk : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (recvSem k), ()) W) ∗ atPos ER (recvCell c k) 1 ∅ 0 ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvSem k) mineM (slotM k) hsrc hdst) kk) Q) := by
  iintro ⟨#HR, Hc, HO, Hat⟩ Hk
  iapply (Rounds.wp_wait_rest_token 𝒱₀ ER (ringRd m) (c : Thread nD τ) none (κ := K (c, recvI k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c k); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c k)); iexact Hpay

/-- The wait on send cell `d`, owing nothing: the share transfer `d` read comes back. -/
theorem wp_wait_send (K : Dev nD × Fin 31 → ℕ) (c : Dev nD) (d : Fin 15)
    {hsrc : (slotM (rev d)).view.WordExact} {hdst : (mineM : Memref sig .tc .vmem S1x1024 .f32).view.WordExact}
    {α : Type} {Q : α → sProp 𝕄} {kk : PUnit → Prog (TpuEff nD τ sig (Elt F) Λ₀ .tc) α} (W : Waits sig Unit) :
    iprop(records m K ∗ cred (tallyAt (sendCell c d) () N) ∗ owes (c : Thread nD τ) 0 W ∗ atPos ER (sendCell c d) 0 ∅ 0)
      ⊢ iprop(((owes (c : Thread nD τ) 0 (insert (SemLoc.dma (sendSem d), ()) W) ∗ atPos ER (sendCell c d) 1 ∅ 0 ∗ sendPay m c d)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendSem d) (slotM (rev d)) mineM hsrc hdst) kk) Q) := by
  iintro ⟨#HR, Hc, HO, Hat⟩ Hk
  iapply (Rounds.wp_wait_rest_token 𝒱₀ ER (ringRd m) (c : Thread nD τ) none (κ := K (c, sendI d))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c d); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c d)); iexact Hpay

/-! ## Closing the own cells -/

/-- Past its one round a send cell is closed: its counter, at zero, is the device's again. -/
theorem close_send (K : Dev nD × Fin 31 → ℕ) (c : Dev nD) (j : Fin 15) :
    iprop(records m K ∗ atPos ER (sendCell c j) 1 ∅ 0) ⊢ (|={Set.univ}=> semVal (sendCell c j) 0 : sProp 𝕄) := by
  iintro ⟨#HR, Hat⟩
  iapply (Rounds.cell_close ER (ringRd m) (Set.mem_univ (K (c, sendI j))) (fun h => h) (R := 1) (duties_later m (sendCell c j)))
  isplitr; · iapply (inv_send m K c j); iexact HR
  iexact Hat
/-- Past its one round a receive cell is closed. -/
theorem close_recv (K : Dev nD × Fin 31 → ℕ) (c : Dev nD) (k : Fin 15) :
    iprop(records m K ∗ atPos ER (recvCell c k) 1 ∅ 0) ⊢ (|={Set.univ}=> semVal (recvCell c k) 0 : sProp 𝕄) := by
  iintro ⟨#HR, Hat⟩
  iapply (Rounds.cell_close ER (ringRd m) (Set.mem_univ (K (c, recvI k))) (fun h => h) (R := 1) (duties_later m (recvCell c k)))
  isplitr; · iapply (inv_recv m K c k); iexact HR
  iexact Hat

end Cert.Kernel.Hand

end
-- ==== Proof.Kernel.Oblig.lean ====
/-
  What a device's body owes the pipeline at one grid point: from the invariant before the point, what the device then owes and
  the two staging buffers as the pipeline hands them over, the body runs to the invariant after the point, what the device
  owes then, and the staging buffers as it leaves them.
-/
import proofs.«901083_g7700000000001084_dist_sum_ax0_shard0_i_m2048_n1024_v7x_i16_bf16_1_alg».proof.Proof.Kernel.Steps

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body obligation of device `c` at point `t`. -/
def ObligAt (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) 𝒱₀ (c : Thread nD τ) none) Set.univ (defs₀ (F := F) .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true => owns (c : Thread nD τ) ((cfg0.win w).stage (cfg0.slots t w)) fullShare ((dats m 0 c).after w t)
              | false => owns (c : Thread nD τ) ((cfg0.win w).stage (cfg0.slots t w)) fullShare ((dats m 0 c).after w t))

/-- The obligation at every point is the pipeline's body obligation. -/
theorem bodyObligation_of (c : Dev nD) (h : ∀ t, ObligAt m c t) :
    BodyObligation (dats (F := F) m 0 c) (defs₀ (F := F)) 𝒱₀ () Set.univ := fun t => h t

end Cert.Kernel.Hand

end
-- ==== Proof.Kernel.Fifteen.lean ====
/-
  Fifteen at a time: the exchange's steps come in fifteens, and so do the resources they use and return.
-/
import proofs.«901083_g7700000000001084_dist_sum_ax0_shard0_i_m2048_n1024_v7x_i16_bf16_1_alg».proof.Proof.Kernel.Steps

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

omit [FloatOps F] in
/-- A product over the fifteen offsets, written out. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The accumulator's buffer, held outright, is the fifteen transfers' shares and the rest. -/
theorem mine_split_upto (c : Dev nD) (f : Buf (Elt F) ((mineM : Memref sig .tc .vmem S1x1024 .f32).view.loc (c : Thread nD τ))) :
    ∀ n : ℕ, (minePts c fullShare f : sProp 𝕄) ⊣⊢ iprop((bigSep (Finset.range n) fun d => minePts c (shr d) f) ∗ minePts c (rst n) f)
  | 0 => by
    rw [Finset.range_zero, bigSep_empty]
    exact ⟨(emp_sep (PROP := sProp 𝕄)).2, (emp_sep (PROP := sProp 𝕄)).1⟩
  | n + 1 => by
    have ih := mine_split_upto c f n
    have hs := mine_share (F := F) c n f
    rw [Finset.range_add_one, bigSep_insert Finset.notMem_range_self]
    constructor
    · refine ih.1.trans (show iprop((bigSep (Finset.range n) fun d => minePts c (shr d) f) ∗ minePts c (rst n) f)
        ⊢ iprop((minePts c (shr n) f ∗ bigSep (Finset.range n) fun d => minePts c (shr d) f) ∗ minePts c (rst (n + 1)) f) from ?_)
      iintro ⟨HS, Hr⟩
      ihave H := hs.1 $$ Hr
      icases H with ⟨Hn, Hr⟩
      isplitl [Hn HS]
      · isplitl [Hn]; · iexact Hn
        iexact HS
      iexact Hr
    · refine BI.Entails.trans (show iprop((minePts c (shr n) f ∗ bigSep (Finset.range n) fun d => minePts c (shr d) f) ∗ minePts c (rst (n + 1)) f)
        ⊢ iprop((bigSep (Finset.range n) fun d => minePts c (shr d) f) ∗ minePts c (rst n) f) from ?_) ih.2
      iintro ⟨⟨Hn, HS⟩, Hr⟩
      isplitl [HS]; · iexact HS
      iapply hs.2
      isplitl [Hn]; · iexact Hn
      iexact Hr

/-- Every own send cell closed at once. -/
theorem close_sends (K : Dev nD × Fin 31 → ℕ) (c : Dev nD) :
    iprop(records m K ∗ bigSep Finset.univ fun j : Fin 15 => atPos ER (sendCell c j) 1 ∅ 0)
      ⊢ (|={Set.univ}=> bigSep Finset.univ fun j : Fin 15 => semVal (sendCell c j) 0 : sProp 𝕄) := by
  refine BI.Entails.trans ?_ (bigSep_fupd _ _)
  refine (sep_mono_left (BI.bigSep_of_persistent (Finset.univ : Finset (Fin 15)) (records m K))).trans ?_
  rw [← bigSep_sep']
  exact bigSep_mono fun j _ => close_send m K c j
/-- Every own receive cell closed at once. -/
theorem close_recvs (K : Dev nD × Fin 31 → ℕ) (c : Dev nD) :
    iprop(records m K ∗ bigSep Finset.univ fun k : Fin 15 => atPos ER (recvCell c k) 1 ∅ 0)
      ⊢ (|={Set.univ}=> bigSep Finset.univ fun k : Fin 15 => semVal (recvCell c k) 0 : sProp 𝕄) := by
  refine BI.Entails.trans ?_ (bigSep_fupd _ _)
  refine (sep_mono_left (BI.bigSep_of_persistent (Finset.univ : Finset (Fin 15)) (records m K))).trans ?_
  rw [← bigSep_sep']
  exact bigSep_mono fun k _ => close_recv m K c k

/-- The fifteen slots, each as its transfer left it, are the landing buffer at its final contents. -/
theorem comm_join (c : Dev nD) : (bigSep Finset.univ fun k : Fin 15 => recvPay m c k) ⊢ (commPts c (commF m c) : sProp 𝕄) := by
  rw [comm_split]; unfold recvPay; exact BI.Entails.refl _

end Cert.Kernel.Hand

end
-- ==== Proof.Kernel.BodyEarly.lean ====
/-
  A device's body at the early points of the grid. At point 0 the device signals each of the fifteen others once, handing
  over with each signal one slot of its landing buffer, then stores the column sums of block 0 in its accumulator. At
  points 1 to 6 it adds the column sums of the point's block to the accumulator; nothing of the exchange moves there.
-/
import proofs.«901083_g7700000000001084_dist_sum_ax0_shard0_i_m2048_n1024_v7x_i16_bf16_1_alg».proof.Proof.Kernel.Oblig
import proofs.«901083_g7700000000001084_dist_sum_ax0_shard0_i_m2048_n1024_v7x_i16_bf16_1_alg».proof.Proof.Kernel.Fifteen
import proofs.«901083_g7700000000001084_dist_sum_ax0_shard0_i_m2048_n1024_v7x_i16_bf16_1_alg».proof.Proof.Gen.Kernel.Points

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open PCS URA

variable {F : FTy → Type} [FloatOps F]

local notation "𝕄" => MT nD τ sig Unit (Elt F) ℕ UU ℕ

variable (m : (ℓ : Loc nD τ sig) → Buf (Elt F) ℓ)

/-! ## Reading and writing whole buffers at their zero offsets -/

theorem hz2 : (![0, 0] : Fin 2 → Nat) = fun _ => 0 := funext fun a => by fin_cases a <;> rfl

omit [FloatOps F] in
theorem rd_stg0 (f : (cc0_stg0_0 : Ref sig .tc).ty.Contents (Elt F)) :
    (Memref.whole cc0_stg0_0 : Memref sig .tc .vmem S256x1024 .f32).view.readAt (Elt F)
      (Rect.unit (s := S256x1024) ![0, 0] S256x1024.size inb_S256x1024_S256x1024_0_0).toLoadRect f = f :=
  Memref.readAt_unit_zero (Elt F) cc0_stg0_0 hz2 _ f
omit [FloatOps F] in
theorem rd_stg1 (f : (cc0_stg0_1 : Ref sig .tc).ty.Contents (Elt F)) :
    (Memref.whole cc0_stg0_1 : Memref sig .tc .vmem S256x1024 .f32).view.readAt (Elt F)
      (Rect.unit (s := S256x1024) ![0, 0] S256x1024.size inb_S256x1024_S256x1024_0_0).toLoadRect f = f :=
  Memref.readAt_unit_zero (Elt F) cc0_stg0_1 hz2 _ f
omit [FloatOps F] in
theorem rd_mine (f : (cc0_scratch0 : Ref sig .tc).ty.Contents (Elt F)) :
    (mineM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 hz2 _ f
omit [FloatOps F] in
theorem wr_mine (f w : (cc0_scratch0 : Ref sig .tc).ty.Contents (Elt F)) :
    (mineM : Memref sig .tc .vmem S1x1024 .f32).view.writes (Elt F) f
      [⟨Rect.unit (s := S1x1024) ![0, 0] S1x1024.size inb_S1x1024_S1x1024_0_0, w⟩] = w :=
  (View.writes_singleton _ _ _ _).trans (Memref.write_access_unit_zero_univ (Elt F) cc0_scratch0 hz2 _ f w)

/-! ## The printed conditions, decided over the grid -/

theorem cond1_mid : ∀ t : Fin grid0.N, 1 ≤ t.val → ¬ k0_cond1 (grid0.coords t) = 1#1 := by decide +kernel
theorem cond4_mid : ∀ t : Fin grid0.N, t.val ≤ 6 → ¬ k0_cond4 (grid0.coords t) = 1#1 := by decide +kernel
theorem v13_mid : ∀ t : Fin grid0.N, 1 ≤ t.val →
    ¬ Scalar.cmpi .ne (Scalar.extui (Scalar.cmpi .eq (BitVec.ofNat 32 ((grid0.coords t) 0).val) 0#32)) 0#32 = 1#1 := by decide +kernel
theorem v16_mid : ∀ t : Fin grid0.N, 1 ≤ t.val →
    Scalar.cmpi .ne (Scalar.extui (Scalar.cmpi .sgt (BitVec.ofNat 32 ((grid0.coords t) 0).val) 0#32)) 0#32 = 1#1 := by decide +kernel
theorem idle0_all (t : Fin grid0.N) : idle0 0 (grid0.coords t) = false := rfl
theorem idle1_early : ∀ t : Fin grid0.N, t.val ≤ 6 → idle0 1 (grid0.coords t) = true := by decide +kernel
theorem flush1_early : ∀ t : Fin grid0.N, t.val ≤ 6 → (cfg0.win 1).flush t = false := by decide +kernel

/-- The input window's staging buffer is one of its two buffers. -/
theorem stage0_cases (j : Fin 2) : stage0_0 j = Memref.whole cc0_stg0_0 ∨ stage0_0 j = Memref.whole cc0_stg0_1 :=
  match j with
  | 0 => Or.inl rfl
  | 1 => Or.inr rfl

/-- What the input window's buffer holds when the body runs: the block just fetched. -/
theorem before_in (c : Dev nD) (t : Fin cfg0.N) (d) : (dats m 0 c).before 0 t d = xblk m c t := by
  unfold Dat.before; rw [if_pos (fetch0_0 t)]; rfl
set_option maxHeartbeats 1600000 in
theorem body_mid (c : Dev nD) (i : grid0.Coords)
    (arg1 : Memref sig .tc .vmem S256x1024 .f32) (harg1 : arg1.IsWhole)
    (h1 : arg1 = Memref.whole cc0_stg0_0 ∨ arg1 = Memref.whole cc0_stg0_1)
    (arg2 : Memref sig .tc .vmem S1x1024 .f32) (harg2 : arg2.IsWhole)
    (hc1 : ¬ k0_cond1 i = 1#1)
    (h13 : ¬ Scalar.cmpi .ne (Scalar.extui (Scalar.cmpi .eq (BitVec.ofNat 32 (i 0).val) 0#32)) 0#32 = 1#1)
    (h16 : Scalar.cmpi .ne (Scalar.extui (Scalar.cmpi .sgt (BitVec.ofNat 32 (i 0).val) 0#32)) 0#32 = 1#1)
    (hc4 : ¬ k0_cond4 i = 1#1)
    (X : Vec F S256x1024 .f32) (A : Vec F S1x1024 .f32) (Kt : PUnit → sProp 𝕄) :
    iprop(owns (c : Thread nD τ) arg1 fullShare X ∗ minePts c fullShare A
        ∗ ((owns (c : Thread nD τ) arg1 fullShare X ∗ minePts c fullShare (k0_pay3 X A)) -∗ Kt ⟨⟩))
      ⊢ wp frame (wpE (defs₀ (F := F)) 𝒱₀ (c : Thread nD τ) none) Set.univ
          (cc0_body i arg1 harg1 arg2 harg2 (Memref.whole cc0_scratch0) (Memref.isWhole_whole _) (Memref.whole cc0_scratch1) (Memref.isWhole_whole _) cc0_scratch2 cc0_scratch3) Kt := by
  simp only [cc0_body_eq_skeleton]; unfold cc0_body_skel
  simp only [dif_neg hc1, dif_neg h13, dif_pos h16, dif_neg hc4]
  simp only [Prog.lift, Prog.bind_op, Prog.bind_ret, Prog.pure_eq_ret, wp_deviceId]
  rcases h1 with rfl | rfl
  · unfold owns minePts
    iintro ⟨⟨%f, %hf, Hx⟩, Hm, Hk⟩
    simp only [Memref.view_whole, View.read_whole] at hf; subst hf
    sl_exec
    sl_step
    rw [wr_mine, rd_stg0, rd_mine]
    iapply Hk
    isplitl [Hx]
    · iexists f; isplitr; · ipureintro; simp only [Memref.view_whole, View.read_whole]
      iexact Hx
    · iexact Hm
  · unfold owns minePts
    iintro ⟨⟨%f, %hf, Hx⟩, Hm, Hk⟩
    simp only [Memref.view_whole, View.read_whole] at hf; subst hf
    sl_exec
    sl_step
    rw [wr_mine, rd_stg1, rd_mine]
    iapply Hk
    isplitl [Hx]
    · iexists f; isplitr; · ipureintro; simp only [Memref.view_whole, View.read_whole]
      iexact Hx
    · iexact Hm

/-- Point `t` of the grid is point number `t.val`. -/
theorem pt_eq (t : Fin cfg0.N) : pt t.val = t := by unfold pt; rw [dif_pos t.isLt]

set_option maxHeartbeats 1600000 in
/-- A middle point, from the invariant numbered `n` to the one numbered `n + 1`: the block's column sums are added to the accumulator. -/
theorem oblig_mid_core (c : Dev nD) (t : Fin cfg0.N) (n : ℕ) (hn : t.val = n) (h1 : 1 ≤ n) (h6 : n ≤ 6)
    (hΦ : (dats m 0 c).Φ t.castSucc = Φmid m c n) (hΦ' : (dats m 0 c).Φ t.succ = Φmid m c (n + 1))
    (ho : (dats m 0 c).owed t.castSucc = owedSend c 15) (ho' : (dats m 0 c).owed t.succ = owedSend c 15) :
    ObligAt m c t := by
  have h1' : 1 ≤ t.val := hn ▸ h1
  have h6' : t.val ≤ 6 := hn ▸ h6
  have hacc : acc m c n = k0_pay3 (xblk m c t) (acc m c (n - 1)) := by
    obtain ⟨k, rfl⟩ : ∃ k, n = k + 1 := ⟨n - 1, by omega⟩
    rw [Nat.add_sub_cancel]
    show k0_pay3 (xblk m c (pt (k + 1))) (acc m c k) = _
    rw [← hn, pt_eq]
  unfold ObligAt
  rw [bigSep_W0, bigSep_W0, hΦ, hΦ']
  simp only [Dat.owesAt]
  rw [ho, ho']
  simp only [idle0_all t, idle1_early t h6', flush1_early t h6']
  unfold Φmid
  iintro ⟨⟨Hg, Hcr, Hlev, Hmine⟩, Ho, ⟨%d0, Hx⟩, Hout⟩
  rw [before_in]
  iapply (body_mid c (grid0.coords t) _ _ (stage0_cases _) _ _ (cond1_mid t h1') (v13_mid t h1') (v16_mid t h1') (cond4_mid t h6')
    (xblk m c t) (acc m c (n - 1)) _)
  isplitl [Hx]; · iexact Hx
  isplitl [Hmine]; · iexact Hmine
  iintro ⟨Hx, Hmine⟩
  isplitl [Hg Hcr Hlev Hmine]
  · isplitl [Hg]; · iexact Hg
    isplitl [Hcr]; · iexact Hcr
    isplitl [Hlev]; · iexact Hlev
    rw [Nat.add_sub_cancel, hacc]; iexact Hmine
  isplitl [Ho]; · iexact Ho
  isplitl [Hx]
  · dsimp only [dats]; iexact Hx
  iexact Hout

/-- The body obligation at the middle points 1 to 6. -/
theorem oblig_mid (c : Dev nD) (t : Fin cfg0.N) (h1 : 1 ≤ t.val) (h6 : t.val ≤ 6) : ObligAt m c t := by
  rcases fin_N0 t with rfl | rfl | rfl | rfl | rfl | rfl | rfl | rfl
  · exact absurd h1 (by decide)
  · exact oblig_mid_core m c t0_1 1 rfl (by decide) (by decide) rfl rfl rfl rfl
  · exact oblig_mid_core m c t0_2 2 rfl (by decide) (by decide) rfl rfl rfl rfl
  · exact oblig_mid_core m c t0_3 3 rfl (by decide) (by decide) rfl rfl rfl rfl
  · exact oblig_mid_core m c t0_4 4 rfl (by decide) (by decide) rfl rfl rfl rfl
  · exact oblig_mid_core m c t0_5 5 rfl (by decide) (by decide) rfl rfl rfl rfl
  · exact oblig_mid_core m c t0_6 6 rfl (by decide) (by decide) rfl rfl rfl rfl
  · exact absurd h6 (by decide)

/-! ## Point 0: the fifteen signals, then the first block's column sums -/

theorem cond1_0 : ∀ t : Fin grid0.N, t.val = 0 → k0_cond1 (grid0.coords t) = 1#1 := by decide +kernel
theorem v13_0 : ∀ t : Fin grid0.N, t.val = 0 →
    Scalar.cmpi .ne (Scalar.extui (Scalar.cmpi .eq (BitVec.ofNat 32 ((grid0.coords t) 0).val) 0#32)) 0#32 = 1#1 := by decide +kernel
theorem v16_0 : ∀ t : Fin grid0.N, t.val = 0 →
    ¬ Scalar.cmpi .ne (Scalar.extui (Scalar.cmpi .sgt (BitVec.ofNat 32 ((grid0.coords t) 0).val) 0#32)) 0#32 = 1#1 := by decide +kernel

/-! Signal number `d` goes to the device `d + 1` places further round the ring. -/

theorem dev_sig1 (c : Dev nD) (h : k0_dev1 c < nD) : (⟨k0_dev1 c, h⟩ : Dev nD) = peer c 0 := Fin.ext (k0_dev1_eq c)
theorem dev_sig2 (c : Dev nD) (h : k0_dev2 c < nD) : (⟨k0_dev2 c, h⟩ : Dev nD) = peer c 1 := Fin.ext (k0_dev2_eq c)
theorem dev_sig3 (c : Dev nD) (h : k0_dev3 c < nD) : (⟨k0_dev3 c, h⟩ : Dev nD) = peer c 2 := Fin.ext (k0_dev3_eq c)
theorem dev_sig4 (c : Dev nD) (h : k0_dev4 c < nD) : (⟨k0_dev4 c, h⟩ : Dev nD) = peer c 3 := Fin.ext (k0_dev4_eq c)
theorem dev_sig5 (c : Dev nD) (h : k0_dev5 c < nD) : (⟨k0_dev5 c, h⟩ : Dev nD) = peer c 4 := Fin.ext (k0_dev5_eq c)
theorem dev_sig6 (c : Dev nD) (h : k0_dev6 c < nD) : (⟨k0_dev6 c, h⟩ : Dev nD) = peer c 5 := Fin.ext (k0_dev6_eq c)
theorem dev_sig7 (c : Dev nD) (h : k0_dev7 c < nD) : (⟨k0_dev7 c, h⟩ : Dev nD) = peer c 6 := Fin.ext (k0_dev7_eq c)
theorem dev_sig8 (c : Dev nD) (h : k0_dev8 c < nD) : (⟨k0_dev8 c, h⟩ : Dev nD) = peer c 7 := Fin.ext (k0_dev8_eq c)
theorem dev_sig9 (c : Dev nD) (h : k0_dev9 c < nD) : (⟨k0_dev9 c, h⟩ : Dev nD) = peer c 8 := Fin.ext (k0_dev9_eq c)
theorem dev_sig10 (c : Dev nD) (h : k0_dev10 c < nD) : (⟨k0_dev10 c, h⟩ : Dev nD) = peer c 9 := Fin.ext (k0_dev10_eq c)
theorem dev_sig11 (c : Dev nD) (h : k0_dev11 c < nD) : (⟨k0_dev11 c, h⟩ : Dev nD) = peer c 10 := Fin.ext (k0_dev11_eq c)
theorem dev_sig12 (c : Dev nD) (h : k0_dev12 c < nD) : (⟨k0_dev12 c, h⟩ : Dev nD) = peer c 11 := Fin.ext (k0_dev12_eq c)
theorem dev_sig13 (c : Dev nD) (h : k0_dev13 c < nD) : (⟨k0_dev13 c, h⟩ : Dev nD) = peer c 12 := Fin.ext (k0_dev13_eq c)
theorem dev_sig14 (c : Dev nD) (h : k0_dev14 c < nD) : (⟨k0_dev14 c, h⟩ : Dev nD) = peer c 13 := Fin.ext (k0_dev14_eq c)
theorem dev_sig15 (c : Dev nD) (h : k0_dev15 c < nD) : (⟨k0_dev15 c, h⟩ : Dev nD) = peer c 14 := Fin.ext (k0_dev15_eq c)

/-- One signal, with what it takes and what it leaves side by side: the unit on the target's barrier cell comes off what
    the device owes, the duty's token and the slot handed over with it are spent. -/
theorem sig_rule (K : Dev nD × Fin 31 → ℕ) (c : Dev nD) (d : Fin 15) (dev : Dev nD) (hdev : dev = peer c d) (k' : ℕ) (hk' : k' = 1)
    (R : CellTallies nD τ sig Unit) (W : Waits sig Unit)
    {α : Type} {Q : α → sProp 𝕄} {k : PUnit → Prog (TpuEff nD τ sig (Elt F) Λ₀ .tc) α} :
    iprop(records m K ∗ owes (c : Thread nD τ) (R + tallyAt (barCell (peer c d)) () 1) W
        ∗ dutyTok ER (barCell (peer c d)) 0 d ∗ (∃ f, slotPts c d f)
        ∗ (owes (c : Thread nD τ) R W -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (dev : Thread nD τ) barS k') k) Q := by
  iintro ⟨HR, HO, Ht, Hs, Hk⟩
  iapply (wp_signal_peer m K c d dev hdev k' hk' R W) $$ [HR HO Ht Hs]
  · isplitl [HR]; · iexact HR
    isplitl [HO]; · iexact HO
    isplitl [Ht]; · iexact Ht
    iexact Hs
  iexact Hk

set_option hygiene false in
/-- Signal `d`, after which the last `r` signals are still owed (`owedSig c (r + 1)` is `owedSig c r` and this signal's unit,
    by definition): its token `ht`, the slot `hs` it hands over. -/
local macro "sig_step" d:num r:num hd:term:max ht:ident hs:ident : tactic => `(tactic| (
  iapply (sig_rule m K c $d _ $hd _ rfl (owedSig c $r) W)
  isplitr
  · iexact HR
  isplitl [HO]
  · iexact HO
  isplitl [$ht]
  · iexact $ht
  isplitl [$hs]
  · iexists _; iexact $hs
  iintro HO))

set_option maxHeartbeats 3200000 in
/-- The body at point 0, from the cells' records, the signals' tokens, everything still owed, the block and the two scratch
    buffers: the landing buffer is cut into its slots, each signal hands one over, and the accumulator ends at the block's
    column sums with only the transfers' credits still owed. -/
theorem body_pt0 (K : Dev nD × Fin 31 → ℕ) (c : Dev nD) (i : grid0.Coords)
    (arg1 : Memref sig .tc .vmem S256x1024 .f32) (harg1 : arg1.IsWhole)
    (h1 : arg1 = Memref.whole cc0_stg0_0 ∨ arg1 = Memref.whole cc0_stg0_1)
    (arg2 : Memref sig .tc .vmem S1x1024 .f32) (harg2 : arg2.IsWhole)
    (hc1 : k0_cond1 i = 1#1)
    (h13 : Scalar.cmpi .ne (Scalar.extui (Scalar.cmpi .eq (BitVec.ofNat 32 (i 0).val) 0#32)) 0#32 = 1#1)
    (h16 : ¬ Scalar.cmpi .ne (Scalar.extui (Scalar.cmpi .sgt (BitVec.ofNat 32 (i 0).val) 0#32)) 0#32 = 1#1)
    (hc4 : ¬ k0_cond4 i = 1#1)
    (X : Vec F S256x1024 .f32) (W : Waits sig Unit) (Kt : PUnit → sProp 𝕄) :
    iprop(records m K ∗ sigToks c ∗ owes (c : Thread nD τ) (owedSig c 15) W ∗ owns (c : Thread nD τ) arg1 fullShare X
        ∗ (∃ f, minePts c fullShare f) ∗ (∃ f, commPts c f)
        ∗ ((owes (c : Thread nD τ) (owedSend c 15) W ∗ owns (c : Thread nD τ) arg1 fullShare X ∗ minePts c fullShare (k0_pay2 X)) -∗ Kt ⟨⟩))
      ⊢ wp frame (wpE (defs₀ (F := F)) 𝒱₀ (c : Thread nD τ) none) Set.univ
          (cc0_body i arg1 harg1 arg2 harg2 (Memref.whole cc0_scratch0) (Memref.isWhole_whole _) (Memref.whole cc0_scratch1) (Memref.isWhole_whole _) cc0_scratch2 cc0_scratch3) Kt := by
  simp only [cc0_body_eq_skeleton]; unfold cc0_body_skel
  simp only [dif_pos hc1, dif_pos h13, dif_neg h16, dif_neg hc4]
  simp only [k0_part1_eq_skeleton, k0_part2_eq_skeleton]; unfold k0_part1_skel k0_part2_skel
  simp only [semSignalWord, Prog.lift, Prog.bind_op, Prog.bind_ret, Prog.pure_eq_ret, wp_deviceId]
  unfold sigToks
  rw [bigSep_fin15]
  iintro ⟨#HR, ⟨Ht0, Ht1, Ht2, Ht3, Ht4, Ht5, Ht6, Ht7, Ht8, Ht9, Ht10, Ht11, Ht12, Ht13, Ht14⟩, HO, Hx, ⟨%fm, Hm⟩, ⟨%fc, Hc⟩, Hk⟩
  -- the landing buffer, slot by slot
  ihave Hc := (Entails.of_eq ((comm_split c fc).trans (bigSep_fin15 _))) $$ Hc
  icases Hc with ⟨Hs0, Hs1, Hs2, Hs3, Hs4, Hs5, Hs6, Hs7, Hs8, Hs9, Hs10, Hs11, Hs12, Hs13, Hs14⟩
  -- the fifteen signals, in program order
  sig_step 0 14 (dev_sig1 c _) Ht0 Hs0
  sig_step 1 13 (dev_sig2 c _) Ht1 Hs1
  sig_step 2 12 (dev_sig3 c _) Ht2 Hs2
  sig_step 3 11 (dev_sig4 c _) Ht3 Hs3
  sig_step 4 10 (dev_sig5 c _) Ht4 Hs4
  sig_step 5 9 (dev_sig6 c _) Ht5 Hs5
  sig_step 6 8 (dev_sig7 c _) Ht6 Hs6
  sig_step 7 7 (dev_sig8 c _) Ht7 Hs7
  sig_step 8 6 (dev_sig9 c _) Ht8 Hs8
  sig_step 9 5 (dev_sig10 c _) Ht9 Hs9
  sig_step 10 4 (dev_sig11 c _) Ht10 Hs10
  sig_step 11 3 (dev_sig12 c _) Ht11 Hs11
  sig_step 12 2 (dev_sig13 c _) Ht12 Hs12
  sig_step 13 1 (dev_sig14 c _) Ht13 Hs13
  sig_step 14 0 (dev_sig15 c _) Ht14 Hs14
  -- the block's column sums into the accumulator
  rcases h1 with rfl | rfl
  · unfold owns minePts
    icases Hx with ⟨%f, %hf, Hx⟩
    simp only [Memref.view_whole, View.read_whole] at hf; subst hf
    sl_exec
    sl_step
    rw [wr_mine, rd_stg0]
    iapply Hk
    isplitl [HO]; · iexact HO
    isplitl [Hx]
    · iexists f; isplitr; · ipureintro; simp only [Memref.view_whole, View.read_whole]
      iexact Hx
    · iexact Hm
  · unfold owns minePts
    icases Hx with ⟨%f, %hf, Hx⟩
    simp only [Memref.view_whole, View.read_whole] at hf; subst hf
    sl_exec
    sl_step
    rw [wr_mine, rd_stg1]
    iapply Hk
    isplitl [HO]; · iexact HO
    isplitl [Hx]
    · iexists f; isplitr; · ipureintro; simp only [Memref.view_whole, View.read_whole]
      iexact Hx
    · iexact Hm

set_option maxHeartbeats 1600000 in
/-- Point 0, from everything dealt at launch to the first middle invariant. -/
theorem oblig_pt0_core (c : Dev nD) (t : Fin cfg0.N) (ht : t.val = 0)
    (hΦ : (dats m 0 c).Φ t.castSucc = Φ₀ m c) (hΦ' : (dats m 0 c).Φ t.succ = Φmid m c 1)
    (ho : (dats m 0 c).owed t.castSucc = owedSig c 15) (ho' : (dats m 0 c).owed t.succ = owedSend c 15) :
    ObligAt m c t := by
  have h6 : t.val ≤ 6 := by omega
  -- the accumulator after point 0 is the column sums of block 0
  have hacc : acc m c (1 - 1) = k0_pay2 (xblk m c t) := by
    show k0_pay2 (xblk m c (pt 0)) = _
    rw [← ht, pt_eq]
  unfold ObligAt
  rw [bigSep_W0, bigSep_W0, hΦ, hΦ']
  simp only [Dat.owesAt]
  rw [ho, ho']
  simp only [idle0_all t, idle1_early t h6, flush1_early t h6]
  unfold Φ₀ Φmid
  iintro ⟨⟨⟨%K, #HR, Hpos, Hsig, Hxf⟩, Hcr, Hlev, Hmine, Hcomm⟩, ⟨%W, %hW, HO⟩, ⟨%d0, Hx⟩, Hout⟩
  rw [before_in]
  iapply (body_pt0 m K c (grid0.coords t) _ _ (stage0_cases _) _ _ (cond1_0 t ht) (v13_0 t ht) (v16_0 t ht) (cond4_mid t h6) (xblk m c t) W _)
  isplitr; · iexact HR
  isplitl [Hsig]; · iexact Hsig
  isplitl [HO]; · iexact HO
  isplitl [Hx]; · iexact Hx
  isplitl [Hmine]; · iexact Hmine
  isplitl [Hcomm]; · iexact Hcomm
  iintro ⟨HO, Hx, Hmine⟩
  isplitl [Hpos Hxf Hcr Hlev Hmine]
  · isplitl [Hpos Hxf]
    · iexists K; isplitr; · iexact HR
      isplitl [Hpos]; · iexact Hpos
      iexact Hxf
    isplitl [Hcr]; · iexact Hcr
    isplitl [Hlev]; · iexact Hlev
    rw [hacc]; iexact Hmine
  isplitl [HO]
  · iexists W; isplitr; · ipureintro; exact hW
    iexact HO
  isplitl [Hx]
  · dsimp only [dats]; iexact Hx
  iexact Hout

/-- The body obligation at point 0. -/
theorem oblig_pt0 (c : Dev nD) : ObligAt m c t0_0 := oblig_pt0_core m c t0_0 rfl rfl rfl rfl rfl

/-- info: 'Cert.Kernel.Hand.oblig_mid' depends on axioms: [propext, Classical.choice, Quot.sound] -/
#guard_msgs in #print axioms oblig_mid

/-- info: 'Cert.Kernel.Hand.oblig_pt0' depends on axioms: [propext, Classical.choice, Quot.sound] -/
#guard_msgs in #print axioms oblig_pt0

end Cert.Kernel.Hand

end
-- ==== Proof.Kernel.BodyLast.lean ====
/-
  The last grid point on one device: the whole exchange.

  The device adds its last block into its accumulator, waits on its barrier cell for the fifteen units the other devices
  signalled (each brings the signaller's landing slot for this device), sends its accumulator into that slot of each of the
  fifteen other devices, waits for the fifteen transfers into its own landing buffer, stores its accumulator plus the sum of
  the fifteen slots into the output's staging buffer, and waits for its own fifteen transfers to have been read out. It
  leaves both scratch buffers whole at their final contents, its thirty own semaphores at zero, and owes nothing.
-/
import proofs.«901083_g7700000000001084_dist_sum_ax0_shard0_i_m2048_n1024_v7x_i16_bf16_1_alg».proof.Proof.Kernel.Oblig
import proofs.«901083_g7700000000001084_dist_sum_ax0_shard0_i_m2048_n1024_v7x_i16_bf16_1_alg».proof.Proof.Kernel.Fifteen
import proofs.«901083_g7700000000001084_dist_sum_ax0_shard0_i_m2048_n1024_v7x_i16_bf16_1_alg».proof.Proof.Gen.Kernel.Points

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA
open Idealize.ShloMosaic.Tactic

variable {F : FTy → Type} [FloatOps F]

local notation "𝕄" => MT nD τ sig Unit (Elt F) ℕ UU ℕ

variable (m : (ℓ : Loc nD τ sig) → Buf (Elt F) ℓ)

/-! ## What the point leaves -/

/-- What the last point leaves: both scratch buffers whole at their final contents, the own semaphores at zero, nothing owed,
    the input block in place and the result in the output's staging buffer. -/
def lastPost (c : Dev nD) (arg1 : Memref sig .tc .vmem S256x1024 .f32) (arg2 : Memref sig .tc .vmem S1x1024 .f32) : sProp 𝕄 :=
  iprop(Φend m c ∗ (∃ W, owes (c : Thread nD τ) 0 W)
    ∗ owns (c : Thread nD τ) arg1 fullShare (xblk m c t0_7) ∗ owns (c : Thread nD τ) arg2 fullShare (outF m c))

/-! ## The proof data at the last point -/

/-- The proof data at the last point, written out: the invariant before and after, what is owed before and after, what the
    two windows' staging buffers hold after, and that neither window is idle there. -/
theorem Φ_at7 (c : Dev nD) : (dats m 0 c).Φ t0_7.castSucc = Φmid m c 7 := by
  dsimp only [dats, t0_7, Fin.castSucc, Fin.castAdd, Fin.castLE]
theorem Φ_at8 (c : Dev nD) : (dats m 0 c).Φ t0_7.succ = Φend m c := by
  dsimp only [dats, t0_7, Fin.succ]
theorem owed_at7 (c : Dev nD) : (dats m 0 c).owed t0_7.castSucc = owedSend c 15 := by
  dsimp only [dats, t0_7, Fin.castSucc, Fin.castAdd, Fin.castLE]
theorem owed_at8 (c : Dev nD) : (dats m 0 c).owed t0_7.succ = 0 := by
  dsimp only [dats, t0_7, Fin.succ]
theorem after0_at7 (c : Dev nD) : (dats m 0 c).after 0 t0_7 = xblk m c t0_7 := by
  dsimp only [dats]
theorem after1_at7 (c : Dev nD) : (dats m 0 c).after 1 t0_7 = outF m c := by
  dsimp only [dats]
theorem idle0_at7 : cfg0.idle 0 (cfg0.grid.coords t0_7) = false := rfl
theorem idle1_at7 : cfg0.idle 1 (cfg0.grid.coords t0_7) = false := by decide +kernel
theorem cond1_at7 : ¬ k0_cond1 (grid0.coords t0_7) = 1#1 := by decide +kernel
theorem cond4_at7 : k0_cond4 (grid0.coords t0_7) = 1#1 := by decide +kernel
theorem idle1_at7' : idle0 1 (grid0.coords t0_7) = false := by decide +kernel
theorem idle0_at7' : idle0 0 (grid0.coords t0_7) = false := rfl

/-! ## Values: whole-buffer loads and stores, the accumulator and the result -/

omit [FloatOps F] in
theorem hz2_last : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
/-- A load of a whole buffer through the rectangle of its own sizes at zero offsets reads the buffer. -/
theorem isWhole_readAt {sp : Space} {s : Shape} {e : EltTy} {mm : Memref sig .tc sp s e} (h : mm.IsWhole) {off : Fin s.rank → Nat}
    (hoff : off = fun _ => 0) (inb : ∀ a, off a + s.size a ≤ s.size a) (f : mm.view.ty.Contents (Elt F)) :
    mm.view.readAt (Elt F) (Rect.unit off s.size inb).toLoadRect f = mm.view.read (Elt F) f := by
  obtain ⟨b, rfl, rfl, rfl, h⟩ := h; cases h
  exact Memref.readAt_unit_zero (Elt F) b hoff inb f

omit [FloatOps F] in
/-- A full store into a whole buffer through that rectangle leaves the stored value, whatever it held. -/
theorem isWhole_read_writes {sp : Space} {s : Shape} {e : EltTy} {mm : Memref sig .tc sp s e} (h : mm.IsWhole) {off : Fin s.rank → Nat}
    (hoff : off = fun _ => 0) (inb : ∀ a, off a + s.size a ≤ s.size a) (f : mm.view.ty.Contents (Elt F)) (w : s.Idx → Elt F e) :
    mm.view.read (Elt F) (mm.view.writes (Elt F) f [⟨Rect.unit off s.size inb, w⟩]) = w := by
  obtain ⟨b, rfl, rfl, rfl, h⟩ := h; cases h
  exact Memref.write_access_unit_zero_univ (Elt F) b hoff inb f w

theorem pt7 : pt 7 = t0_7 := by unfold pt; rw [dif_pos (by decide)]; rfl

/-- The accumulator after the last point's store: the block's column sums added to what it held. -/
theorem mine_val (c : Dev nD) (arg1 : Memref sig .tc .vmem S256x1024 .f32) (harg1 : arg1.IsWhole) (f1 : arg1.view.ty.Contents (Elt F))
    (hf1 : View.read (Elt F) arg1.view f1 = xblk m c t0_7) :
    (mineM : Memref sig .tc .vmem S1x1024 .f32).view.writes (Elt F) (acc m c (7 - 1))
      [⟨Rect.unit ![0, 0] S1x1024.size inb_S1x1024_S1x1024_0_0,
        k0_pay3 (View.readAt (Elt F) arg1.view (Rect.unit ![0, 0] S256x1024.size inb_S256x1024_S256x1024_0_0).toLoadRect f1)
          (View.readAt (Elt F) (mineM : Memref sig .tc .vmem S1x1024 .f32).view (Rect.unit ![0, 0] S1x1024.size inb_S1x1024_S1x1024_0_0).toLoadRect (acc m c (7 - 1)))⟩]
      = mineF m c := by
  rw [isWhole_readAt harg1 hz2_last, hf1, isWhole_readAt (mm := (mineM : Memref sig .tc .vmem S1x1024 .f32)) (Memref.isWhole_whole cc0_scratch0) hz2_last, View.writes_singleton]
  refine (Memref.write_access_unit_zero_univ (Elt F) cc0_scratch0 hz2_last inb_S1x1024_S1x1024_0_0 _ _).trans ?_
  unfold mineF
  show _ = k0_pay3 (xblk m c (pt 7)) (acc m c 6)
  rw [pt7]; rfl

/-- What the last point stores into the output's staging buffer: the device's accumulator plus the sum of the fifteen slots. -/
theorem out_val (c : Dev nD) (arg2 : Memref sig .tc .vmem S1x1024 .f32) (harg2 : arg2.IsWhole) (f2 : arg2.view.ty.Contents (Elt F)) :
    View.read (Elt F) arg2.view (arg2.view.writes (Elt F) f2
      [⟨Rect.unit ![0, 0] S1x1024.size inb_S1x1024_S1x1024_0_0,
        k0_pay4
          (View.readAt (Elt F) (mineM : Memref sig .tc .vmem S1x1024 .f32).view (Rect.unit ![0, 0] S1x1024.size inb_S1x1024_S1x1024_0_0).toLoadRect (mineF m c))
          (View.readAt (Elt F) (commM : Memref sig .tc .vmem S15x1x1024 .f32).view
            (Rect.unit ![0, 0, 0] S15x1x1024.size inb_S15x1x1024_S15x1x1024_0_0_0).toLoadRect (commF m c))⟩])
      = outF m c := by
  rw [isWhole_read_writes harg2 hz2_last, isWhole_readAt (mm := (mineM : Memref sig .tc .vmem S1x1024 .f32)) (Memref.isWhole_whole cc0_scratch0) hz2_last,
    isWhole_readAt (mm := (commM : Memref sig .tc .vmem S15x1x1024 .f32)) (Memref.isWhole_whole cc0_scratch1) hz3]
  rfl

/-! ## The fifteen-fold steps -/

set_option hygiene false in
open Lean in
/-- Transfer `d`: its share comes off what is left of the accumulator's buffer, and the transfer is started by its rule. -/
macro "xfer_step " d:num : tactic => do
  let n := d.getNat
  let id (s : String) : Ident := mkIdent (Name.mkSimple s)
  let devFn := id s!"k0_dev{16 + n}"
  let devLt := id s!"k0_dev{16 + n}_lt"
  let devEq := id s!"k0_dev{16 + n}_eq"
  let r := Syntax.mkNumLit (toString (14 - n))
  let Hs := id s!"Hs{14 - n}"
  let g := id s!"g{14 - n}"
  let Hsh := id s!"Hsh{n}"
  let HtS := id s!"HtS{n}"
  let HtR := id s!"HtR{n}"
  let HcS := id s!"HcS{n}"
  `(tactic| (
    ihave Hm := (mine_share (F := F) c $d (mineF m c)).1 $$ Hmine
    icases Hm with ⟨$Hsh:ident, Hmine⟩
    iapply (wp_send_peer m K c $d ⟨$devFn c, $devLt (grid0.coords t0_7) c h4⟩ (Fin.ext (($devEq c).trans rfl)) $g (owedSend c $r) _) $$ [$Hsh:ident $Hs:ident HO $HtS:ident $HtR:ident]
    · isplitr; · iexact Hrec
      isplitl [$Hsh:ident]; · iexact $Hsh:ident
      isplitl [$Hs:ident]; · iexact $Hs:ident
      isplitl [HO]; · iexact HO
      isplitl [$HtS:ident]; · iexact $HtS:ident
      iexact $HtR:ident
    iintro ⟨$HcS:ident, HO⟩))

set_option hygiene false in
open Lean in
/-- The records of the device's own receive cell `k`: its invariant, and that its round 0 is open. -/
macro "recv_facts " k:num : tactic => do
  let n := k.getNat
  let id (s : String) : Ident := mkIdent (Name.mkSimple s)
  let HIR := id s!"HIR{n}"
  let HRR := id s!"HRR{n}"
  `(tactic| (
    ihave #$HIR:ident := (inv_recv m K c $k) $$ Hrec
    ihave #$HRR:ident := (reached_recv m K c $k) $$ Hrec))

set_option hygiene false in
open Lean in
/-- The records of the device's own send cell `j`: its invariant, and that its round 0 is open. -/
macro "send_facts " j:num : tactic => do
  let n := j.getNat
  let id (s : String) : Ident := mkIdent (Name.mkSimple s)
  let HIS := id s!"HIS{n}"
  let HRS := id s!"HRS{n}"
  `(tactic| (
    ihave #$HIS:ident := (inv_send m K c $j) $$ Hrec
    ihave #$HRS:ident := (reached_send m K c $j) $$ Hrec))

set_option hygiene false in
open Lean in
/-- Share `d`, handed back by its send cell's round, goes back onto what is left of the accumulator's buffer. -/
macro "rejoin_pay " d:num : tactic => do
  let n := d.getNat
  let Hsh : Ident := mkIdent (Name.mkSimple s!"HpS{n}_pay1")
  `(tactic| (
    ihave Hmine := (mine_share (F := F) c $d (mineF m c)).2 $$ [$Hsh:ident Hmine]
    · unfold minePts
      isplitl [$Hsh:ident]; · iexact $Hsh:ident
      iexact Hmine))

/-! ## The body -/

-- the schedule's tables, as rewrites for the waits' steps
attribute [local sl_rounds] duties_bar duties_send duties_recv amount_bar amount_send amount_recv expect_bar expect_send expect_recv payload_bar payload_send payload_recv rest_bar rest_send rest_recv

set_option maxHeartbeats 1600000 in
/-- The body at the last point, on any whole staging buffers: from the invariant before the point, the receive credits owed,
    the input block in its staging buffer and the output's staging buffer at any contents, to `lastPost`. The waits are the
    rounds discipline's steps at the cells' recorded invariants; each transfer is started by its rule. -/
theorem body_last (c : Dev nD) (arg1 : Memref sig .tc .vmem S256x1024 .f32) (harg1 : arg1.IsWhole)
    (arg2 : Memref sig .tc .vmem S1x1024 .f32) (harg2 : arg2.IsWhole) (W : Waits sig Unit)
    (X2 : S1x1024.Idx → Elt F .f32) (Kt : PUnit → sProp 𝕄) :
    iprop(Φmid m c 7 ∗ owes (c : Thread nD τ) (owedSend c 15) W
        ∗ owns (c : Thread nD τ) arg1 fullShare (xblk m c t0_7) ∗ owns (c : Thread nD τ) arg2 fullShare X2
        ∗ (lastPost m c arg1 arg2 -∗ Kt ⟨⟩))
      ⊢ wp frame (wpE (defs₀ (F := F)) 𝒱₀ (c : Thread nD τ) none) Set.univ
          (cc0_body (grid0.coords t0_7) arg1 harg1 arg2 harg2 (Memref.whole cc0_scratch0) (Memref.isWhole_whole _)
            (Memref.whole cc0_scratch1) (Memref.isWhole_whole _) cc0_scratch2 cc0_scratch3) Kt := by
  simp only [cc0_body_eq_skeleton]; unfold cc0_body_skel
  unfold Φmid minePts owns creds posAll
  iintro ⟨⟨⟨%K, #Hrec, ⟨HpB, HpS, HpR⟩, Htok⟩, ⟨HcB, HcR⟩, #Hlev, Hmine⟩, HO, ⟨%f1, %hf1, Hx⟩, ⟨%f2, %hf2, Hy⟩, Hk⟩
  have h1 := cond1_at7
  have h4 := cond4_at7

  have hmw := mayWait_bar (F := F) c
  ihave #HIbar := (inv_bar m K c) $$ Hrec
  ihave #HRbar := (reached_bar m K c) $$ Hrec
  sl_exec
  ihave Hpay := (Entails.of_eq (bigSep_fin15 _)) $$ HpB_pay1
  unfold barPay
  icases Hpay with ⟨⟨⟨%g0, Hs0⟩, -⟩, ⟨⟨%g1, Hs1⟩, -⟩, ⟨⟨%g2, Hs2⟩, -⟩, ⟨⟨%g3, Hs3⟩, -⟩, ⟨⟨%g4, Hs4⟩, -⟩, ⟨⟨%g5, Hs5⟩, -⟩, ⟨⟨%g6, Hs6⟩, -⟩, ⟨⟨%g7, Hs7⟩, -⟩, ⟨⟨%g8, Hs8⟩, -⟩, ⟨⟨%g9, Hs9⟩, -⟩, ⟨⟨%g10, Hs10⟩, -⟩, ⟨⟨%g11, Hs11⟩, -⟩, ⟨⟨%g12, Hs12⟩, -⟩, ⟨⟨%g13, Hs13⟩, -⟩, ⟨%g14, Hs14⟩, -⟩

  ihave Hmine := (show _ ⊢ (minePts c (rst 0) (mineF m c) : sProp 𝕄) from
    Entails.of_eq (congrArg (fun g => ((mineM : Memref sig .tc .vmem S1x1024 .f32).view.loc (c : Thread nD τ) ↦[(mineM : Memref sig .tc .vmem S1x1024 .f32).view.set]{fullShare} g : sProp 𝕄)) (mine_val m c arg1 harg1 f1 hf1))) $$ Hmine
  unfold xferToks
  ihave Htok := (Entails.of_eq (bigSep_fin15 _)) $$ Htok
  icases Htok with ⟨⟨HtS0, HtR0⟩, ⟨HtS1, HtR1⟩, ⟨HtS2, HtR2⟩, ⟨HtS3, HtR3⟩, ⟨HtS4, HtR4⟩, ⟨HtS5, HtR5⟩, ⟨HtS6, HtR6⟩, ⟨HtS7, HtR7⟩, ⟨HtS8, HtR8⟩, ⟨HtS9, HtR9⟩, ⟨HtS10, HtR10⟩, ⟨HtS11, HtR11⟩, ⟨HtS12, HtR12⟩, ⟨HtS13, HtR13⟩, ⟨HtS14, HtR14⟩⟩
  xfer_step 0
  sl_exec
  xfer_step 1
  sl_exec
  xfer_step 2
  sl_exec
  xfer_step 3
  sl_exec
  xfer_step 4
  sl_exec
  xfer_step 5
  sl_exec
  xfer_step 6
  sl_exec
  xfer_step 7
  sl_exec
  xfer_step 8
  sl_exec
  xfer_step 9
  sl_exec
  xfer_step 10
  sl_exec
  xfer_step 11
  sl_exec
  xfer_step 12
  sl_exec
  xfer_step 13
  sl_exec
  xfer_step 14
  recv_facts 0
  recv_facts 1
  recv_facts 2
  recv_facts 3
  recv_facts 4
  recv_facts 5
  recv_facts 6
  recv_facts 7
  recv_facts 8
  recv_facts 9
  recv_facts 10
  recv_facts 11
  recv_facts 12
  recv_facts 13
  recv_facts 14
  ihave HcR := (Entails.of_eq (bigSep_fin15 _)) $$ HcR
  icases HcR with ⟨HcR0, HcR1, HcR2, HcR3, HcR4, HcR5, HcR6, HcR7, HcR8, HcR9, HcR10, HcR11, HcR12, HcR13, HcR14⟩
  ihave HpR := (Entails.of_eq (bigSep_fin15 _)) $$ HpR
  icases HpR with ⟨HpR0, HpR1, HpR2, HpR3, HpR4, HpR5, HpR6, HpR7, HpR8, HpR9, HpR10, HpR11, HpR12, HpR13, HpR14⟩
  sl_exec

  ihave Hcomm := ((Entails.of_eq (bigSep_fin15 (fun k => recvPay m c k)).symm).trans (comm_join m c)) $$ [HpR0_pay1 HpR1_pay1 HpR2_pay1 HpR3_pay1 HpR4_pay1 HpR5_pay1 HpR6_pay1 HpR7_pay1 HpR8_pay1 HpR9_pay1 HpR10_pay1 HpR11_pay1 HpR12_pay1 HpR13_pay1 HpR14_pay1]
  · isplitl [HpR0_pay1]; · iexact HpR0_pay1
    isplitl [HpR1_pay1]; · iexact HpR1_pay1
    isplitl [HpR2_pay1]; · iexact HpR2_pay1
    isplitl [HpR3_pay1]; · iexact HpR3_pay1
    isplitl [HpR4_pay1]; · iexact HpR4_pay1
    isplitl [HpR5_pay1]; · iexact HpR5_pay1
    isplitl [HpR6_pay1]; · iexact HpR6_pay1
    isplitl [HpR7_pay1]; · iexact HpR7_pay1
    isplitl [HpR8_pay1]; · iexact HpR8_pay1
    isplitl [HpR9_pay1]; · iexact HpR9_pay1
    isplitl [HpR10_pay1]; · iexact HpR10_pay1
    isplitl [HpR11_pay1]; · iexact HpR11_pay1
    isplitl [HpR12_pay1]; · iexact HpR12_pay1
    isplitl [HpR13_pay1]; · iexact HpR13_pay1
    iexact HpR14_pay1
  send_facts 0
  send_facts 1
  send_facts 2
  send_facts 3
  send_facts 4
  send_facts 5
  send_facts 6
  send_facts 7
  send_facts 8
  send_facts 9
  send_facts 10
  send_facts 11
  send_facts 12
  send_facts 13
  send_facts 14
  ihave HpS := (Entails.of_eq (bigSep_fin15 _)) $$ HpS
  icases HpS with ⟨HpS0, HpS1, HpS2, HpS3, HpS4, HpS5, HpS6, HpS7, HpS8, HpS9, HpS10, HpS11, HpS12, HpS13, HpS14⟩
  unfold commPts minePts
  sl_exec
  unfold sendPay minePts
  rejoin_pay 14
  rejoin_pay 13
  rejoin_pay 12
  rejoin_pay 11
  rejoin_pay 10
  rejoin_pay 9
  rejoin_pay 8
  rejoin_pay 7
  rejoin_pay 6
  rejoin_pay 5
  rejoin_pay 4
  rejoin_pay 3
  rejoin_pay 2
  rejoin_pay 1
  rejoin_pay 0
  ihave Hmine := (show (minePts c (rst 0) (mineF m c) : sProp 𝕄) ⊢ minePts c fullShare (mineF m c) from BI.Entails.refl _) $$ Hmine
  ihave HpS := (Entails.of_eq (bigSep_fin15 (fun j : Fin 15 => (atPos ER (sendCell c j) 1 ∅ 0 : sProp 𝕄))).symm) $$ [HpS0 HpS1 HpS2 HpS3 HpS4 HpS5 HpS6 HpS7 HpS8 HpS9 HpS10 HpS11 HpS12 HpS13 HpS14]
  · isplitl [HpS0]; · iexact HpS0
    isplitl [HpS1]; · iexact HpS1
    isplitl [HpS2]; · iexact HpS2
    isplitl [HpS3]; · iexact HpS3
    isplitl [HpS4]; · iexact HpS4
    isplitl [HpS5]; · iexact HpS5
    isplitl [HpS6]; · iexact HpS6
    isplitl [HpS7]; · iexact HpS7
    isplitl [HpS8]; · iexact HpS8
    isplitl [HpS9]; · iexact HpS9
    isplitl [HpS10]; · iexact HpS10
    isplitl [HpS11]; · iexact HpS11
    isplitl [HpS12]; · iexact HpS12
    isplitl [HpS13]; · iexact HpS13
    iexact HpS14
  ihave HpR := (Entails.of_eq (bigSep_fin15 (fun k : Fin 15 => (atPos ER (recvCell c k) 1 ∅ 0 : sProp 𝕄))).symm) $$ [HpR0 HpR1 HpR2 HpR3 HpR4 HpR5 HpR6 HpR7 HpR8 HpR9 HpR10 HpR11 HpR12 HpR13 HpR14]
  · isplitl [HpR0]; · iexact HpR0
    isplitl [HpR1]; · iexact HpR1
    isplitl [HpR2]; · iexact HpR2
    isplitl [HpR3]; · iexact HpR3
    isplitl [HpR4]; · iexact HpR4
    isplitl [HpR5]; · iexact HpR5
    isplitl [HpR6]; · iexact HpR6
    isplitl [HpR7]; · iexact HpR7
    isplitl [HpR8]; · iexact HpR8
    isplitl [HpR9]; · iexact HpR9
    isplitl [HpR10]; · iexact HpR10
    isplitl [HpR11]; · iexact HpR11
    isplitl [HpR12]; · iexact HpR12
    isplitl [HpR13]; · iexact HpR13
    iexact HpR14
  imod (close_sends m K c) $$ [HpS] with HzS
  · isplitr; · iexact Hrec
    iexact HpS
  imod (close_recvs m K c) $$ [HpR] with HzR
  · isplitr; · iexact Hrec
    iexact HpR
  sl_step
  iapply Hk
  unfold lastPost Φend owns minePts commPts
  isplitl [Hmine Hcomm HzS HzR]
  · isplitl [Hmine]; · iexact Hmine
    isplitl [Hcomm]; · iexact Hcomm
    isplitl [HzS]; · iexact HzS
    iexact HzR
  isplitl [HO]
  · iexists _; iexact HO
  isplitl [Hx]
  · iexists f1; isplitr; · (ipureintro; exact hf1)
    iexact Hx
  iexists _; isplitr
  · ipureintro; exact out_val m c arg2 harg2 f2
  iexact Hy

/-! ## The obligation -/

theorem before_in_last (c : Dev nD) (d) : (dats m 0 c).before 0 t0_7 d = xblk m c t0_7 := by
  unfold Dat.before; rw [if_pos (fetch0_0 t0_7)]
  rfl

/-- The obligation at the last point: the body lemma at the staging buffers the pipeline hands over there. -/
theorem oblig_last (c : Dev nD) : ObligAt m c t0_7 := by
  unfold ObligAt
  rw [Gen.bigSep_W0, Gen.bigSep_W0]
  unfold Dat.owesAt Pipeline.owesWithin
  rw [idle0_at7, idle1_at7, Φ_at7, owed_at7, Φ_at8, owed_at8, after0_at7, after1_at7]
  iintro ⟨HΦ, ⟨%W, %hW, HO⟩, ⟨%d0, Hx⟩, ⟨%d1, Hy⟩⟩
  rw [before_in_last]
  iapply (body_last m c ((cfg0.win 0).stage (cfg0.slots t0_7 0)) (hstage0_0 ((cfg0.slots t0_7 0).cast nbuf0_0)) ((cfg0.win 1).stage (cfg0.slots t0_7 1)) (hstage0_1 ((cfg0.slots t0_7 1).cast nbuf0_1)) W _ _)
  isplitl [HΦ]; · iexact HΦ
  isplitl [HO]; · iexact HO
  isplitl [Hx]; · iexact Hx
  isplitl [Hy]; · iexact Hy
  unfold lastPost
  iintro ⟨HΦ, ⟨%W', HO⟩, Hx, Hy⟩
  isplitl [HΦ]; · iexact HΦ
  isplitl [HO]
  · iexists W'; isplitr; · (ipureintro; exact fun _ _ => Or.inl trivial)
    iexact HO
  isplitl [Hx]; · iexact Hx
  iexact Hy

/-- info: 'Cert.Kernel.Hand.oblig_last' depends on axioms: [propext, Classical.choice, Quot.sound] -/
#guard_msgs in #print axioms oblig_last

end Cert.Kernel.Hand

end
-- ==== Proof.Kernel.Launch.lean ====
/-
  The launch: from "every device's body meets its obligation at every grid point" to the run of the whole program.

  The exchange's ghost state is funded once for all sixteen devices: thirty-one cells a device (its barrier cell, fifteen
  send cells, fifteen receive cells), each opened at round 0 with its owner's position, and forty-five duty tokens a
  device. The tokens are minted at the cells' owners and dealt to the payers: duty `d` of a barrier cell goes to the
  device `d + 1` places before its owner, the token of receive cell `k` to the device `k + 1` places after its owner, a
  send cell's token stays. Every device `p` owes one unit to the barrier cell of each other device and a row's credit to
  one receive cell of each other device; summed over `p`, each barrier cell is owed fifteen units and each receive cell
  one row's credit, which is the credit the launch deals the cells' owners.
-/
import proofs.«901083_g7700000000001084_dist_sum_ax0_shard0_i_m2048_n1024_v7x_i16_bf16_1_alg».proof.Proof.Kernel.Oblig
import Mathlib.Algebra.BigOperators.Group.Finset.Basic
import Mathlib.Algebra.BigOperators.Group.Finset.Sigma
import Mathlib.Algebra.BigOperators.Fin
import Mathlib.Logic.Equiv.Defs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-! ## The kernel's own semaphores: the fifteen send and the fifteen receive semaphores -/

abbrev osem : Fin 15 ⊕ Fin 15 → SemLoc sig
  | .inl j => .dma (sendSem j)
  | .inr k => .dma (recvSem k)

theorem ownSemFacts : Pipeline.OwnSemFacts cfg0.spec osem where
  isScoped := by
    rintro (j | k)
    · revert j; decide
    · revert k; decide
  inj := by
    rintro (a | a) (b | b) h
    · exact congrArg Sum.inl (sendSem_inj (SemLoc.dma.inj h))
    · exact absurd (SemLoc.dma.inj h) (sendSem_ne_recvSem a b)
    · exact absurd (SemLoc.dma.inj h).symm (sendSem_ne_recvSem b a)
    · exact congrArg Sum.inr (recvSem_inj (SemLoc.dma.inj h))
  disj := by
    rintro (j | k)
    · revert j; decide
    · revert k; decide

theorem share_eq (c : Dev nD) (w : Fin cfg0.W) : (dats m 0 c).share w = fullShare := by unfold Dat.share; split <;> rfl

/-! ## The ring's bijections -/

/-- Stepping `d + 1` places round the ring is a bijection of the devices; stepping `(14 - d) + 1` places undoes it. -/
def peerE (d : Fin 15) : Dev nD ≃ Dev nD := ⟨fun c => peer c d, fun c => peer c (rev d), fun c => peer_peer_rev c d, fun c => peer_rev_peer c d⟩
/-- The mirror of the offsets. -/
def revE : Fin 15 ≃ Fin 15 := ⟨rev, rev, rev_rev, rev_rev⟩

/-! ## The cells and tokens of the exchange -/

theorem kcell_injective : Function.Injective (kcell : Dev nD × Fin 31 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

theorem kcell_send (c : Dev nD) (j : Fin 15) : kcell (c, sendI j) = sendCell c j :=
  show ((c : Thread nD τ), csem (sendI j)) = ((c : Thread nD τ), SemLoc.dma (sendSem j)) from congrArg _ (csem_send j)
theorem kcell_recv (c : Dev nD) (k : Fin 15) : kcell (c, recvI k) = recvCell c k :=
  show ((c : Thread nD τ), csem (recvI k)) = ((c : Thread nD τ), SemLoc.dma (recvSem k)) from congrArg _ (csem_recv k)

/-- The thirty-one cell numbers: the barrier's, the send cells', the receive cells'. -/
def cellIx : Unit ⊕ (Fin 15 ⊕ Fin 15) → Fin 31
  | .inl _ => barI
  | .inr (.inl j) => sendI j
  | .inr (.inr k) => recvI k
theorem cellIx_bijective : Function.Bijective cellIx := by decide
def cellE : Unit ⊕ (Fin 15 ⊕ Fin 15) ≃ Fin 31 := Equiv.ofBijective cellIx cellIx_bijective

omit [FloatOps F] in
theorem bigSep_fin31 (Φ : Fin 31 → sProp 𝕄) :
    bigSep Finset.univ Φ = iprop(Φ barI ∗ (bigSep Finset.univ fun j : Fin 15 => Φ (sendI j)) ∗ bigSep Finset.univ fun k : Fin 15 => Φ (recvI k)) := by
  rw [bigSep_univ_equiv cellE Φ, bigSep_univ_sum, bigSep_univ_sum, bigSep_univ_of_subsingleton ()]
  rfl

omit [FloatOps F] in
/-- Anything said of a device's thirty-one cells, cell kind by cell kind. -/
theorem bigSep_kcells (c : Dev nD) (Φ : GSem nD τ sig → sProp 𝕄) :
    (bigSep Finset.univ fun k : Fin 31 => Φ (kcell (c, k)))
      = iprop(Φ (barCell c) ∗ (bigSep Finset.univ fun j : Fin 15 => Φ (sendCell c j)) ∗ bigSep Finset.univ fun k : Fin 15 => Φ (recvCell c k)) := by
  rw [bigSep_fin31]; simp only [kcell_send, kcell_recv]; rfl

/-- The duty tokens as minted, at the cells' owners: a barrier cell's fifteen, a send cell's one, a receive cell's one. -/
abbrev tokOf (cj : Dev nD × (Fin 15 ⊕ (Fin 15 ⊕ Fin 15))) : GSem nD τ sig × ℕ × Fin 15 := match cj.2 with
  | .inl d => (barCell cj.1, 0, d)
  | .inr (.inl j) => (sendCell cj.1 j, 0, 0)
  | .inr (.inr k) => (recvCell cj.1 k, 0, 0)

theorem tokOf_injective : Function.Injective (tokOf : Dev nD × (Fin 15 ⊕ (Fin 15 ⊕ Fin 15)) → GSem nD τ sig × ℕ × Fin 15) := by
  rintro ⟨c, j⟩ ⟨c', j'⟩ h
  have h1 : c = c' := by
    have := congrArg (fun x : GSem nD τ sig × ℕ × Fin 15 => x.1.1.1) h
    rcases j with d | j | k <;> rcases j' with d' | j' | k' <;> exact this
  subst h1
  have hs := congrArg (fun x : GSem nD τ sig × ℕ × Fin 15 => x.1.2) h
  have hd := congrArg (fun x : GSem nD τ sig × ℕ × Fin 15 => x.2.2) h
  rcases j with d | j | k <;> rcases j' with d' | j' | k'
  · have : d = d' := hd
    rw [this]
  · have : (SemLoc.reg barS : SemLoc sig) = .dma (sendSem j') := hs
    cases this
  · have : (SemLoc.reg barS : SemLoc sig) = .dma (recvSem k') := hs
    cases this
  · have : (SemLoc.dma (sendSem j) : SemLoc sig) = .reg barS := hs
    cases this
  · have : (SemLoc.dma (sendSem j) : SemLoc sig) = .dma (sendSem j') := hs
    rw [sendSem_inj (SemLoc.dma.inj this)]
  · have : (SemLoc.dma (sendSem j) : SemLoc sig) = .dma (recvSem k') := hs
    exact absurd (SemLoc.dma.inj this) (sendSem_ne_recvSem j k')
  · have : (SemLoc.dma (recvSem k) : SemLoc sig) = .reg barS := hs
    cases this
  · have : (SemLoc.dma (recvSem k) : SemLoc sig) = .dma (sendSem j') := hs
    exact absurd (SemLoc.dma.inj this).symm (sendSem_ne_recvSem j' k)
  · have : (SemLoc.dma (recvSem k) : SemLoc sig) = .dma (recvSem k') := hs
    rw [recvSem_inj (SemLoc.dma.inj this)]
def ringToks : Finset (GSem nD τ sig × ℕ × Fin 15) := Finset.univ.map ⟨tokOf, tokOf_injective⟩

/-- The launch element: the pipeline's staging cells beside the exchange's cells and tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 15 => dutyTok ER (barCell c) 0 d)
    ∗ (bigSep Finset.univ fun j : Fin 15 => dutyTok ER (sendCell c j) 0 0)
    ∗ bigSep Finset.univ fun k : Fin 15 => dutyTok ER (recvCell c k) 0 0)

/-- What the launch element deals device `c`: its cells' round states, its positions and marks, its cells' tokens. -/
def G (c : Dev nD) : sProp 𝕄 :=
  iprop((bigSep Finset.univ fun k : Fin 31 => roundState ER (ringRd m) (kcell (c, k)) 0)
    ∗ (bigSep Finset.univ fun k : Fin 31 => iprop(atPos ER (kcell (c, k)) 0 ∅ 0 ∗ reached ER (kcell (c, k)) 0)) ∗ toks c)

/-- What the global step makes of it: the records, the device's positions, and the tokens of the duties it pays. -/
def G' (c : Dev nD) : sProp 𝕄 := iprop(∃ K, records m K ∗ posAll c ∗ sigToks c ∗ xferToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The send and receive semaphores are the kernel's own thirty; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun k : Fin 15 => semVal (recvCell c k) 0) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [ownSems0_eq, unscopedSems0_eq, bigSep_kcells c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 31 => iprop(∃ κ : ℕ, cellInv ER (ringRd m) κ (kcell (c, k))))
          ∗ (bigSep Finset.univ fun k : Fin 31 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (ringRd m) (kcell (c, k)) 0)
      ⊢ (|={Set.univ}=> bigSep Finset.univ fun k : Fin 31 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(posAll c ∗ sigToks c ∗ xferToks c)

theorem ghost_intro (K : Dev nD × Fin 31 → ℕ) (c : Dev nD) : iprop(records m K ∗ linear c) ⊢ G' m c := by
  unfold linear G'
  iintro ⟨HR, HL⟩
  iexists K
  isplitl [HR] <;> iassumption

omit [FloatOps F] in
/-- Dealing round the ring: what is indexed by (owner, offset) is, device by device, what is indexed by (the device
    the offset's number of places before the owner, offset). -/
theorem deal (Φ : Dev nD → Fin 15 → sProp 𝕄) :
    (bigSep Finset.univ fun t : Dev nD => bigSep Finset.univ fun d : Fin 15 => Φ t d)
      = bigSep Finset.univ fun c : Dev nD => bigSep Finset.univ fun d : Fin 15 => Φ (peer c d) d := by
  rw [bigSep_univ_comm (fun t d => Φ t d), bigSep_univ_comm (fun c d => Φ (peer c d) d)]
  exact bigSep_congr fun d _ => bigSep_univ_equiv (peerE d) (fun t => Φ t d)

omit [FloatOps F] in
/-- The tokens dealt: duty `d` of a barrier cell to the device whose signal `d` targets it, a receive cell's token to the
    device whose transfer lands in it, a send cell's token to its owner. -/
theorem toks_around : (bigSep Finset.univ fun c : Dev nD => (toks c : sProp 𝕄)) ⊢ bigSep Finset.univ fun c : Dev nD => iprop(sigToks c ∗ xferToks c) := by
  have h1 : (bigSep Finset.univ fun t : Dev nD => bigSep Finset.univ fun d : Fin 15 => (dutyTok ER (barCell t) 0 d : sProp 𝕄))
      = bigSep Finset.univ fun c : Dev nD => sigToks c := deal (fun t d => dutyTok ER (barCell t) 0 d)
  have h3 : (bigSep Finset.univ fun t : Dev nD => bigSep Finset.univ fun k : Fin 15 => (dutyTok ER (recvCell t k) 0 0 : sProp 𝕄))
      = bigSep Finset.univ fun c : Dev nD => bigSep Finset.univ fun d : Fin 15 => (dutyTok ER (recvCell (peer c d) (rev d)) 0 0 : sProp 𝕄) :=
    (bigSep_congr fun (t : Dev nD) _ => bigSep_univ_equiv revE (fun k : Fin 15 => (dutyTok ER (recvCell t k) 0 0 : sProp 𝕄))).trans
      (deal (fun t d => dutyTok ER (recvCell t (rev d)) 0 0))
  unfold toks xferToks
  rw [bigSep_sep', bigSep_sep', bigSep_sep', h1, h3,
    bigSep_congr (s := Finset.univ) (fun (c : Dev nD) _ => bigSep_sep' Finset.univ (fun d : Fin 15 => (dutyTok ER (sendCell c d) 0 0 : sProp 𝕄)) (fun d => dutyTok ER (recvCell (peer c d) (rev d)) 0 0)),
    bigSep_sep']

theorem regroup :
    (bigSep Finset.univ fun c : Dev nD => iprop((bigSep Finset.univ fun k : Fin 31 => iprop(∃ κ : ℕ, cellInv ER (ringRd m) κ (kcell (c, k))))
          ∗ (bigSep Finset.univ fun k : Fin 31 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 31 => iprop(∃ κ : ℕ, cellInv ER (ringRd m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 31 => (atPos ER (kcell (c, k)) 0 ∅ 0 : sProp 𝕄)) (fun c => iprop(sigToks c ∗ xferToks c))).symm).trans
      (bigSep_mono fun c _ => show _ ⊢ linear c from Entails.of_eq (by unfold linear posAll; rw [bigSep_kcells c (fun g => atPos ER g 0 ∅ 0)])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem off_val (d : Fin 15) : off d.val = d := Fin.ext (Nat.mod_eq_of_lt d.isLt)

omit [FloatOps F] in
theorem owedSend_eq (p : Dev nD) (n : ℕ) : owedSend p n = ∑ i ∈ Finset.range n, sendTally p (14 - i) := by
  induction n with
  | zero => rfl
  | succ k ih => rw [Finset.sum_range_succ, ← ih]; rfl
omit [FloatOps F] in
theorem owedSig_eq (p : Dev nD) (n : ℕ) : owedSig p n = owedSend p 15 + ∑ i ∈ Finset.range n, sigTally p (14 - i) := by
  induction n with
  | zero => rw [Finset.sum_range_zero, add_zero]; rfl
  | succ k ih => rw [Finset.sum_range_succ, ← add_assoc, ← ih]; rfl

omit [FloatOps F] in
/-- What device `p` owes at launch: for every offset `d`, a row's credit on receive cell `14 - d` of the device `d + 1` places on,
    and a unit on that device's barrier cell. -/
theorem O₀_eq (p : Dev nD) :
    O₀ p = (∑ d : Fin 15, tallyAt (recvCell (peer p d) (rev d)) () N) + ∑ d : Fin 15, tallyAt (barCell (peer p d)) () 1 := by
  have hS : (∑ i ∈ Finset.range 15, sendTally p (14 - i)) = ∑ d : Fin 15, tallyAt (recvCell (peer p d) (rev d)) () N := by
    rw [Finset.sum_range (fun i => sendTally p (14 - i))]
    rw [← Equiv.sum_comp revE (fun d : Fin 15 => (tallyAt (recvCell (peer p d) (rev d)) () N : CellTallies nD τ sig Unit))]
    refine Finset.sum_congr rfl fun i _ => ?_
    show sendTally p (rev i).val = _
    unfold sendTally; rw [off_val]; rfl
  have hG : (∑ i ∈ Finset.range 15, sigTally p (14 - i)) = ∑ d : Fin 15, tallyAt (barCell (peer p d)) () 1 := by
    rw [Finset.sum_range (fun i => sigTally p (14 - i))]
    rw [← Equiv.sum_comp revE (fun d : Fin 15 => (tallyAt (barCell (peer p d)) () 1 : CellTallies nD τ sig Unit))]
    refine Finset.sum_congr rfl fun i _ => ?_
    show sigTally p (rev i).val = _
    unfold sigTally; rw [off_val]; rfl
  unfold O₀; rw [owedSig_eq, owedSend_eq, hS, hG]

omit [FloatOps F] in
theorem nsmul_tallyAt (g : GSem nD τ sig) (n : ℕ) : n • (tallyAt g () 1 : CellTallies nD τ sig Unit) = tallyAt g () n := by
  induction n with
  | zero => rw [zero_smul, tallyAt_zero]
  | succ k ih => rw [succ_nsmul, ih, tallyAt_add]

/-- The credit device `c` waits with: fifteen units on its barrier cell, a row's credit on each receive cell. -/
def T₀ (c : Dev nD) : CellTallies nD τ sig Unit := tallyAt (barCell c) () 15 + ∑ k : Fin 15, tallyAt (recvCell c k) () N

omit [FloatOps F] in
/-- Summed over the devices, what is owed is what is waited for. -/
theorem owed_total : (∑ p : Dev nD, O₀ p) = ∑ c : Dev nD, T₀ c := by
  have hR : (∑ p : Dev nD, ∑ d : Fin 15, (tallyAt (recvCell (peer p d) (rev d)) () N : CellTallies nD τ sig Unit))
      = ∑ c : Dev nD, ∑ k : Fin 15, tallyAt (recvCell c k) () N := by
    rw [Finset.sum_comm, Finset.sum_comm (f := fun (c : Dev nD) (k : Fin 15) => (tallyAt (recvCell c k) () N : CellTallies nD τ sig Unit)),
      ← Equiv.sum_comp revE (fun k : Fin 15 => ∑ c : Dev nD, (tallyAt (recvCell c k) () N : CellTallies nD τ sig Unit))]
    exact Finset.sum_congr rfl fun d _ => Equiv.sum_comp (peerE d) (fun c : Dev nD => (tallyAt (recvCell c (rev d)) () N : CellTallies nD τ sig Unit))
  have hB : (∑ p : Dev nD, ∑ d : Fin 15, (tallyAt (barCell (peer p d)) () 1 : CellTallies nD τ sig Unit))
      = ∑ c : Dev nD, tallyAt (barCell c) () 15 := by
    rw [Finset.sum_comm]
    refine (Finset.sum_congr rfl fun (d : Fin 15) _ =>
      Equiv.sum_comp (peerE d) (fun c : Dev nD => (tallyAt (barCell c) () 1 : CellTallies nD τ sig Unit))).trans ?_
    rw [Finset.sum_comm]
    exact Finset.sum_congr rfl fun c _ => by rw [Finset.sum_const, Finset.card_univ, Fintype.card_fin, nsmul_tallyAt]
  unfold T₀
  rw [Finset.sum_congr rfl fun p _ => O₀_eq p, Finset.sum_add_distrib, Finset.sum_add_distrib, hR, hB, add_comm]

omit [FloatOps F] in
theorem T₀_own (d : Dev nD) (g : GSem nD τ sig) (h : T₀ d g ≠ 0) : g.1 = (d : Thread nD τ) := by
  by_contra hne
  refine h ?_
  unfold T₀
  rw [Pi.add_apply, Finset.sum_apply, tallyAt_ne_cell (fun e => hne (congrArg Prod.fst e)),
    Finset.sum_eq_zero fun k _ => tallyAt_ne_cell (fun e => hne (congrArg Prod.fst e)) () N, add_zero]

omit [FloatOps F] in
theorem creds_intro (c : Dev nD) : (Pipeline.launchCred O₀ c : sProp 𝕄) ⊢ creds c := by
  rw [Pipeline.launchCred_of_sum O₀ T₀ owed_total T₀_own c]
  unfold T₀ creds
  refine (cred_add _ _).1.trans (sep_mono_right ?_)
  rw [Pipeline.cred_finsetSum]

/-! ## The launch theorem's side conditions -/

/-- What a device holds between the global step and its first point, apart from the scratch buffers. -/
def X (c : Dev nD) : sProp 𝕄 := iprop(G' m c ∗ creds c ∗ levAts L lv)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  iintro ⟨-, Hlev, Hcr, -, HG⟩
  ihave Hc := (creds_intro (F := F) c) $$ Hcr
  imodintro
  unfold X
  isplitl
  · isplitl [HG]; · iexact HG
    isplitl [Hc]; · iexact Hc
    iexact Hlev
  · iempintro

omit [FloatOps F] in
theorem minePts_eq (c : Dev nD) (f : Buf (Elt F) ((c : Thread nD τ).loc cc0_scratch0)) :
    minePts c fullShare f = (((c : Thread nD τ).loc cc0_scratch0) ↦{fullShare} f : sProp 𝕄) := by unfold minePts; rw [View.set_whole]
omit [FloatOps F] in
theorem commPts_eq (c : Dev nD) (f : Buf (Elt F) ((c : Thread nD τ).loc cc0_scratch1)) :
    commPts c f = (((c : Thread nD τ).loc cc0_scratch1) ↦{fullShare} f : sProp 𝕄) := by unfold commPts; rw [View.set_whole]

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X G'
  iintro ⟨⟨HG, Hc, Hl⟩, -, ⟨%f, Hm⟩, ⟨%g, Hk⟩⟩
  isplitl [HG]; · iexact HG
  isplitl [Hc]; · iexact Hc
  isplitl [Hl]; · iexact Hl
  isplitl [Hm]
  · iexists f; rw [minePts_eq]; iexact Hm
  · iexists g; rw [commPts_eq]; iexact Hk

theorem phiN_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φend m c from rfl, scopedRest0_eq, ownSems0_eq]
  unfold Φend
  iintro ⟨Hm, Hk, HzS, HzV⟩
  isplitr; · iempintro
  isplitl [HzS HzV]
  · isplitl [HzS] <;> iassumption
  isplitl [Hm]
  · iexists (mineF m c); rw [← minePts_eq]; iexact Hm
  · iexists (commF m c); rw [← commPts_eq]; iexact Hk

/-- The pipeline's waits on its staging cells: allowed at every point, whatever of the launch debts is still owed. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _ | _ | _ | _ | _ | _ | _ | n, ht⟩
      · exact Or.inl rfl
      · exact Or.inr (Or.inl rfl)
      · exact Or.inr (Or.inl rfl)
      · exact Or.inr (Or.inl rfl)
      · exact Or.inr (Or.inl rfl)
      · exact Or.inr (Or.inl rfl)
      · exact Or.inr (Or.inl rfl)
      · exact Or.inr (Or.inl rfl)
      · exact Or.inr (Or.inr rfl))

/-! ## The run -/

set_option maxRecDepth 8000 in
/-- At the compiled mesh of sixteen devices, for any float values, from any memory with zero counters: if every device's body
    meets its obligation at every grid point, every weakly fair execution of the program terminates, and every final state has
    each device's arrays at the contents the proof data computes. -/
theorem run_main (ρ : Dev nD → PrngReg) (hbody : ∀ c t, ObligAt m c t) :
    θ_run (defs (F := F)) (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => bodyObligation_of m c (hbody c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := X m) (Y := fun _ => iprop(emp)) (Z := fun _ => iprop(emp))
    (hX := start_intro m ρ) (hin := phi0_intro m) (hout := phiN_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

end Cert.Kernel.Hand

end
-- ==== Proof.Kernel.Final.lean ====
/-
  The final arrays, read off the pipeline's proof data.

  The input window's array is never written back, so after the last point it is the device's argument array as
  launched. The output window's block is the whole one-row array at every point and is written back at the last point
  only: the array stays as launched through the first seven points, and the last write-back overwrites all of it with
  what the body left there, the device's result.
-/
import proofs.«901083_g7700000000001084_dist_sum_ax0_shard0_i_m2048_n1024_v7x_i16_bf16_1_alg».proof.Proof.Kernel.Data
import Idealize.ShloMosaic.Lib.Pipeline.Cells
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The input window's array is never written: after the last point it is the device's array as launched. -/
theorem arr_in (c : Dev nD) : (dats m 0 c).arrAt (0 : Fin 2) cfg0.N = m ((c : Thread nD τ).loc main_arg0) :=
  (dats m 0 c).arrAt_in 0 rfl cfg0.N

/-- The output window is written back at the last point only: below it the array is as launched. -/
theorem arr_out_keep (c : Dev nD) : ∀ n, n ≤ 7 → (dats m 0 c).arrAt (1 : Fin 2) n = (dats m 0 c).A 1
  | 0, _ => rfl
  | n + 1, h => by
    have hn : n < cfg0.N := by show n < grid0.N; rw [N_0]; omega
    refine ((dats m 0 c).arrAt_succ 1 ⟨n, hn⟩).trans ?_
    have hf : (cfg0.win 1).flush ⟨n, hn⟩ = false := by
      cases hb : (cfg0.win 1).flush ⟨n, hn⟩ with
      | false => rfl
      | true => exact absurd ((flush0_1 ⟨n, hn⟩).mp hb) (by show ¬ n % 8 = 7; omega)
    rw [hf, if_neg Bool.false_ne_true]
    exact arr_out_keep c n (by omega)

/-- The output window's index map, decided over the grid: every point's block is block (0, 0). -/
theorem index_out : ∀ (t : Fin cfg0.N) (a : Fin 2), win0_1.index t a = 0 :=
  (by decide +kernel : ∀ (t : Fin grid0.N) (a : Fin 2), _)

/-- After the last point the output array holds the result: the last point's write-back covers the whole array. -/
theorem arr_out (c : Dev nD) : (dats m 0 c).arrAt (1 : Fin 2) cfg0.N = outF m c := by
  have h7 : 7 < cfg0.N := by show 7 < grid0.N; rw [N_0]; decide
  have h8 : cfg0.N = 7 + 1 := N_0
  refine (congrArg ((dats m 0 c).arrAt 1) h8).trans (((dats m 0 c).arrAt_succ 1 ⟨7, h7⟩).trans ?_)
  rw [if_pos ((flush0_1 ⟨7, h7⟩).mpr rfl)]
  generalize (dats m 0 c).arrAt 1 (⟨7, h7⟩ : Fin cfg0.N).val = prev
  have hz : (fun a => win0_1.index ⟨7, h7⟩ a * S1x1024.size a) = fun _ => 0 :=
    funext fun a => by rw [(index_out ⟨7, h7⟩ a)]; exact Nat.zero_mul _
  have key : ∀ G : Buf (Elt F) ((cfg0.win 1).arr.view.loc (c : Thread nD τ)),
      ((cfg0.win 1).blk ⟨7, h7⟩).view.read (Elt F) G = G := fun G =>
    Memref.read_access_unit_zero (Elt F) main_v1 hz _ G
  refine (key _).symm.trans ?_
  refine (View.read_write_univ _ _).trans ?_
  rfl

end Cert.Kernel.Hand

end

/-- info: 'Cert.Kernel.Hand.arr_out' depends on axioms: [propext, Classical.choice, Quot.sound] -/
#guard_msgs in #print axioms Cert.Kernel.Hand.arr_out
/-- info: 'Cert.Kernel.Hand.arr_in' depends on axioms: [propext, Classical.choice, Quot.sound] -/
#guard_msgs in #print axioms Cert.Kernel.Hand.arr_in
-- ==== Proof.Kernel.Run.lean ====
/-
  The kernel's run, with values: every device ends with the whole sum in its result array and its block of the argument
  unchanged.

  Each device's body meets the pipeline's obligation at every one of the eight points; the launch turns that into a run of
  all sixteen devices together; the final arrays read off the pipeline's data are the result and the argument.
-/
import proofs.«901083_g7700000000001084_dist_sum_ax0_shard0_i_m2048_n1024_v7x_i16_bf16_1_alg».proof.Proof.Kernel.BodyEarly
import proofs.«901083_g7700000000001084_dist_sum_ax0_shard0_i_m2048_n1024_v7x_i16_bf16_1_alg».proof.Proof.Kernel.BodyLast
import proofs.«901083_g7700000000001084_dist_sum_ax0_shard0_i_m2048_n1024_v7x_i16_bf16_1_alg».proof.Proof.Kernel.Launch
import proofs.«901083_g7700000000001084_dist_sum_ax0_shard0_i_m2048_n1024_v7x_i16_bf16_1_alg».proof.Proof.Kernel.Final

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ)

/-- The body obligation at every point: the first, the six in the middle, the last. -/
theorem oblig_all (c : Dev nD) (t : Fin cfg0.N) : ObligAt m c t := by
  rcases fin_N0 t with rfl | rfl | rfl | rfl | rfl | rfl | rfl | rfl
  · exact oblig_pt0 m c
  · exact oblig_mid m c t0_1 (by decide) (by decide)
  · exact oblig_mid m c t0_2 (by decide) (by decide)
  · exact oblig_mid m c t0_3 (by decide) (by decide)
  · exact oblig_mid m c t0_4 (by decide) (by decide)
  · exact oblig_mid m c t0_5 (by decide) (by decide)
  · exact oblig_mid m c t0_6 (by decide) (by decide)
  · exact oblig_last m c

/-- At the compiled mesh of sixteen devices, for any float values, from any memory with zero counters: every weakly fair
    execution of @main terminates without a fault; every device's result array ends holding its accumulator plus the fifteen
    it received, and its argument array as it was. -/
theorem run_vals (ρ : Dev nD → PrngReg) :
    θ_run (defs (F := F)) (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  (θ_run (defs (F := F)) _ _).mono (fun r h c => ⟨(h c 1).trans (arr_out m c), (h c 0).trans (arr_in m c)⟩)
    (run_main m ρ (oblig_all m))

/-- info: 'Cert.Kernel.Hand.run_vals' depends on axioms: [propext, Classical.choice, Quot.sound] -/
#guard_msgs in #print axioms run_vals

end Cert.Kernel.Hand

end
-- ==== Proof.lean ====
/-
  An all-reduce sum over sixteen devices against the sum of the whole array on one.

  Each device holds 2048 rows of a 32768 x 1024 array. Over eight grid points it adds the column sums of its rows, 256 at a
  time, into a one-row accumulator. At the first point it signals the barrier semaphore of each of the fifteen other devices;
  at the last it waits for the fifteen signals addressed to it — so every other device is inside the kernel and has handed
  over the slot of its landing buffer meant for this device —, copies its accumulator into that slot on each of them, waits
  for the fifteen copies addressed to it, and stores its accumulator plus the sum of the fifteen slots. No wait can block for
  good: a device waits on its barrier cell owing only copies, and on its receive cells owing nothing.

  Over the extended reals addition is commutative and associative, so the sum of sixteen devices' column sums, each itself a
  sum over eight blocks of 256 rows, is the sum over all 32768 rows, which is what the reference computes: the two results
  are equal at every column, on every device, with no condition on the inputs beyond the one stated.

  The word-level program and its idealization are the same text (the ideal pass rewrote nothing), so one proof of the run,
  generic in the float instance, gives both their frames.
-/
import proofs.«901083_g7700000000001084_dist_sum_ax0_shard0_i_m2048_n1024_v7x_i16_bf16_1_alg».proof.Defs
import proofs.«901083_g7700000000001084_dist_sum_ax0_shard0_i_m2048_n1024_v7x_i16_bf16_1_alg».proof.Proof.Gen.Kernel
import proofs.«901083_g7700000000001084_dist_sum_ax0_shard0_i_m2048_n1024_v7x_i16_bf16_1_alg».proof.Proof.Gen.KernelIdeal
import proofs.«901083_g7700000000001084_dist_sum_ax0_shard0_i_m2048_n1024_v7x_i16_bf16_1_alg».proof.Proof.Gen.ReferenceIdeal
import proofs.«901083_g7700000000001084_dist_sum_ax0_shard0_i_m2048_n1024_v7x_i16_bf16_1_alg».proof.Proof.Gen.Pre_finite_inputs_Kernel
import proofs.«901083_g7700000000001084_dist_sum_ax0_shard0_i_m2048_n1024_v7x_i16_bf16_1_alg».proof.Proof.Gen.Pre_finite_inputs_ReferenceIdeal
import proofs.«901083_g7700000000001084_dist_sum_ax0_shard0_i_m2048_n1024_v7x_i16_bf16_1_alg».proof.Proof.RefRun
import proofs.«901083_g7700000000001084_dist_sum_ax0_shard0_i_m2048_n1024_v7x_i16_bf16_1_alg».proof.Proof.ValueBridge
import proofs.«901083_g7700000000001084_dist_sum_ax0_shard0_i_m2048_n1024_v7x_i16_bf16_1_alg».proof.Proof.KernelIdeal.Run
import proofs.«901083_g7700000000001084_dist_sum_ax0_shard0_i_m2048_n1024_v7x_i16_bf16_1_alg».proof.Proof.Kernel.Run
import Idealize.ShloMosaic.Adequacy
import Idealize.ShloMosaic.Init

noncomputable section

namespace Cert.Proof

open Idealize.ShloMosaic Idealize.SL.Sem

/-- The word-level kernel runs and leaves its argument arrays unchanged: its run with the values dropped. -/
theorem frame_k : Cert.frame_Kernel := fun m ρ _ =>
  (θ_run _ _ _).mono (fun _ h c => (h c).2) (Cert.Kernel.Hand.run_vals (F := Bits) m ρ)

/-- So does the idealized kernel. -/
theorem frame_ki : Cert.frame_KernelIdeal := fun m ρ _ =>
  (θ_run _ _ _).mono (fun _ h c => (h c).2) (Cert.KernelIdeal.Hand.run_vals (F := Ideal) m ρ)

/-- The ideal pass rewrote no operation: nothing to preserve. -/
theorem preserves : Cert.preserves_Kernel_KernelIdeal := trivial

/-- Both programs run; every device's result is the column sums of the whole array, which is the reference's result. -/
theorem algebraic : Cert.algebraic_KernelIdeal_ReferenceIdeal := by
  intro m ρ m' ρ' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run _ _ _).mono (fun _ h c => ⟨(h c).1.trans (Cert.ValueBridge.out_eq_ref _ m hblk c), (h c).2⟩)
      (Cert.KernelIdeal.Hand.run_vals (F := Ideal) m ρ)
  · exact (θ_run _ _ _).mono (fun _ h => ⟨(h 0).1.trans (Cert.ReferenceIdeal.Read.val_main_v1_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.RefSide.frame_ri, preserves, algebraic⟩

end Cert.Proof

end
